-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S800000 : Shape := ⟨1, ![800000]⟩
abbrev S800000x1 : Shape := ⟨2, ![800000, 1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_
  bcast_S_S800000x1 : S_.BroadcastsInDim S800000x1 (![] : Fin 0 → Fin S800000x1.rank)
  reducesTo_S800000x1_S_d0_1 : S800000x1.ReducesTo [0, 1] S_

variable [Facts]

def fn_part3 {F : FTy → Type} [FloatOps F] (main_arg10 : IVec S800000 32) (main_v50 : IVec S_ 1) : IVec S_ 1 :=
  let main_c_19 : IVec S_ 32 := constantI S_ 32 0#32
  let main_v51 : IVec S800000 32 := broadcastInDim S800000 ![] bcast_S_S800000 main_c_19
  let main_v52 : IVec S800000 1 := cmpi .sge main_arg10 main_v51
  let main_c_20 : IVec S_ 32 := constantI S_ 32 50000#32
  let main_v53 : IVec S800000 32 := broadcastInDim S800000 ![] bcast_S_S800000 main_c_20
  let main_v54 : IVec S800000 1 := cmpi .slt main_arg10 main_v53
  let main_v55 : IVec S800000 1 := andi main_v52 main_v54
  let main_c_21 : IVec S_ 1 := constantI S_ 1 1#1
  let main_v56 : IVec S_ 1 := (fun x v => Host.reduce IntOp.andi x v reducesTo_S800000_S_d0 h_S_) main_v55 main_c_21
  let main_v57 : IVec S_ 1 := andi main_v50 main_v56
  main_v57

def fn_part2 {F : FTy → Type} [FloatOps F] (main_arg7 : FVec F S800000 .f32) (main_arg8 : FVec F S800000x1 .f32) (main_arg9 : IVec S800000 32) (main_arg10 : IVec S800000 32) (main_v33 : IVec S_ 1) : IVec S_ 1 :=
  let main_v34 : FVec F S800000 .f32 := Host.absf main_arg7
  let main_cst_12 : FVec F S_ .f32 := constant S_ .f32 0x7F800000#32
  let main_v35 : FVec F S800000 .f32 := broadcastInDim S800000 ![] bcast_S_S800000 main_cst_12
  let main_v36 : IVec S800000 1 := cmpf .olt main_v34 main_v35
  let main_c_13 : IVec S_ 1 := constantI S_ 1 1#1
  let main_v37 : IVec S_ 1 := (fun x v => Host.reduce IntOp.andi x v reducesTo_S800000_S_d0 h_S_) main_v36 main_c_13
  let main_v38 : IVec S_ 1 := andi main_v33 main_v37
  let main_v39 : FVec F S800000x1 .f32 := Host.absf main_arg8
  let main_cst_14 : FVec F S_ .f32 := constant S_ .f32 0x7F800000#32
  let main_v40 : FVec F S800000x1 .f32 := broadcastInDim S800000x1 ![] bcast_S_S800000x1 main_cst_14
  let main_v41 : IVec S800000x1 1 := cmpf .olt main_v39 main_v40
  let main_c_15 : IVec S_ 1 := constantI S_ 1 1#1
  let main_v42 : IVec S_ 1 := (fun x v => Host.reduce IntOp.andi x v reducesTo_S800000x1_S_d0_1 h_S_) main_v41 main_c_15
  let main_v43 : IVec S_ 1 := andi main_v38 main_v42
  let main_c_16 : IVec S_ 32 := constantI S_ 32 0#32
  let main_v44 : IVec S800000 32 := broadcastInDim S800000 ![] bcast_S_S800000 main_c_16
  let main_v45 : IVec S800000 1 := cmpi .sge main_arg9 main_v44
  let main_c_17 : IVec S_ 32 := constantI S_ 32 50000#32
  let main_v46 : IVec S800000 32 := broadcastInDim S800000 ![] bcast_S_S800000 main_c_17
  let main_v47 : IVec S800000 1 := cmpi .slt main_arg9 main_v46
  let main_v48 : IVec S800000 1 := andi main_v45 main_v47
  let main_c_18 : IVec S_ 1 := constantI S_ 1 1#1
  let main_v49 : IVec S_ 1 := (fun x v => Host.reduce IntOp.andi x v reducesTo_S800000_S_d0 h_S_) main_v48 main_c_18
  let main_v50 : IVec S_ 1 := andi main_v43 main_v49
  fn_part3 (F := F) main_arg10 main_v50

def fn_part1 {F : FTy → Type} [FloatOps F] (main_arg4 : FVec F S128 .f32) (main_arg5 : FVec F S256x1 .f32) (main_arg6 : FVec F S1 .f32) (main_arg7 : FVec F S800000 .f32) (main_arg8 : FVec F S800000x1 .f32) (main_arg9 : IVec S800000 32) (main_arg10 : IVec S800000 32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x256 .f32) (main_arg1 : FVec F S256x128 .f32) (main_arg2 : FVec F S128 .f32) (main_arg3 : FVec F S256x128 .f32) (main_arg4 : FVec F S128 .f32) (main_arg5 : FVec F S256x1 .f32) (main_arg6 : FVec F S1 .f32) (main_arg7 : FVec F S800000 .f32) (main_arg8 : FVec F S800000x1 .f32) (main_arg9 : IVec S800000 32) (main_arg10 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_v13 main_v16
-- ==== Kernel.lean ====
abbrev S50000x256 : Shape := ⟨2, ![50000, 256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S800000 : Shape := ⟨1, ![800000]⟩
abbrev S800000x1 : Shape := ⟨2, ![800000, 1]⟩
abbrev S_ : Shape := ⟨0, ![]⟩
abbrev S50176x256 : Shape := ⟨2, ![50176, 256]⟩
abbrev S1x128 : Shape := ⟨2, ![1, 128]⟩
abbrev S50176x128 : Shape := ⟨2, ![50176, 128]⟩
abbrev S1024x256 : Shape := ⟨2, ![1024, 256]⟩
abbrev S1024x128 : Shape := ⟨2, ![1024, 128]⟩
abbrev S800256x1 : Shape := ⟨2, ![800256, 1]⟩
abbrev S128x1 : Shape := ⟨2, ![128, 1]⟩
abbrev S1x1 : Shape := ⟨2, ![1, 1]⟩
abbrev S512x1 : Shape := ⟨2, ![512, 1]⟩
abbrev S512x128 : Shape := ⟨2, ![512, 128]⟩
abbrev S1x1024 : Shape := ⟨2, ![1, 1024]⟩
abbrev S512x1024 : Shape := ⟨2, ![512, 1024]⟩
abbrev S512 : Shape := ⟨1, ![512]⟩
abbrev S50000 : Shape := ⟨1, ![50000]⟩

abbrev nBuf : Space → Nat
  | .hbm => 79
  | .vmem => 27
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S256x1, .f32⟩
  | .hbm, ⟨6, _⟩ => ⟨S1, .f32⟩
  | .hbm, ⟨7, _⟩ => ⟨S800000, .f32⟩
  | .hbm, ⟨8, _⟩ => ⟨S800000x1, .f32⟩
  | .hbm, ⟨9, _⟩ => ⟨S800000, .i32⟩
  | .hbm, ⟨10, _⟩ => ⟨S800000, .i32⟩
  | .hbm, ⟨11, _⟩ => ⟨S_, .i32⟩
  | .hbm, ⟨12, _⟩ => ⟨S_, .f32⟩
  | .hbm, ⟨13, _⟩ => ⟨S50176x256, .f32⟩
  | .hbm, ⟨14, _⟩ => ⟨S1x128, .f32⟩
  | .hbm, ⟨15, _⟩ => ⟨S1x128, .f32⟩
  | .hbm, ⟨16, _⟩ => ⟨S50176x128, .bf16⟩
  | .hbm, ⟨17, _⟩ => ⟨S50176x128, .bf16⟩
  | .hbm, ⟨18, _⟩ => ⟨S800000x1, .i32⟩
  | .hbm, ⟨19, _⟩ => ⟨S_, .i32⟩
  | .hbm, ⟨20, _⟩ => ⟨S_, .i32⟩
  | .hbm, ⟨21, _⟩ => ⟨S800256x1, .i32⟩
  | .hbm, ⟨22, _⟩ => ⟨S800000x1, .i32⟩
  | .hbm, ⟨23, _⟩ => ⟨S_, .i32⟩
  | .hbm, ⟨24, _⟩ => ⟨S_, .i32⟩
  | .hbm, ⟨25, _⟩ => ⟨S800256x1, .i32⟩
  | .hbm, ⟨26, _⟩ => ⟨S800000x1, .f32⟩
  | .hbm, ⟨27, _⟩ => ⟨S_, .i32⟩
  | .hbm, ⟨28, _⟩ => ⟨S_, .f32⟩
  | .hbm, ⟨29, _⟩ => ⟨S800256x1, .f32⟩
  | .hbm, ⟨30, _⟩ => ⟨S_, .i32⟩
  | .hbm, ⟨31, _⟩ => ⟨S_, .f32⟩
  | .hbm, ⟨32, _⟩ => ⟨S800256x1, .f32⟩
  | .hbm, ⟨33, _⟩ => ⟨S128x1, .f32⟩
  | .hbm, ⟨34, _⟩ => ⟨S1x128, .f32⟩
  | .hbm, ⟨35, _⟩ => ⟨S128x1, .f32⟩
  | .hbm, ⟨36, _⟩ => ⟨S1x128, .f32⟩
  | .hbm, ⟨37, _⟩ => ⟨S1x1, .f32⟩
  | .hbm, ⟨38, _⟩ => ⟨S800256x1, .f32⟩
  | .hbm, ⟨39, _⟩ => ⟨S800000x1, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000, .f32⟩
  | .hbm, ⟨52, _⟩ => ⟨S_, .f32⟩
  | .hbm, ⟨53, _⟩ => ⟨S50000, .f32⟩
  | .hbm, ⟨54, _⟩ => ⟨S50000, .i1⟩
  | .hbm, ⟨55, _⟩ => ⟨S_, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000, .f32⟩
  | .hbm, ⟨68, _⟩ => ⟨S800000, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000, .f32⟩
  | .hbm, ⟨78, _⟩ => ⟨S800000, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1x128, .f32⟩
  | .local _ .vmem, ⟨4, _⟩ => ⟨S256x128, .f32⟩
  | .local _ .vmem, ⟨5, _⟩ => ⟨S1x128, .f32⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S512x1, .i32⟩
  | .local _ .vmem, ⟨11, _⟩ => ⟨S512x1, .i32⟩
  | .local _ .vmem, ⟨12, _⟩ => ⟨S512x1, .i32⟩
  | .local _ .vmem, ⟨13, _⟩ => ⟨S512x1, .i32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S50176x128, .bf16⟩
  | .local _ .vmem, ⟨19, _⟩ => ⟨S50176x128, .bf16⟩
  | .local _ .vmem, ⟨20, _⟩ => ⟨S1x128, .f32⟩
  | .local _ .vmem, ⟨21, _⟩ => ⟨S1x128, .f32⟩
  | .local _ .vmem, ⟨22, _⟩ => ⟨S1x1, .f32⟩
  | .local _ .vmem, ⟨23, _⟩ => ⟨S512x1, .f32⟩
  | .local _ .vmem, ⟨24, _⟩ => ⟨S512x1, .f32⟩
  | .local _ .vmem, ⟨25, _⟩ => ⟨S512x128, .f32⟩
  | .local _ .vmem, ⟨26, _⟩ => ⟨S512x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v4 : Ref sig .tc := ⟨.hbm, 18, rfl⟩
abbrev main_c_0 : Ref sig .tc := ⟨.hbm, 19, rfl⟩
abbrev main_call1_v0 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_call3_v0 : Ref sig .tc := ⟨.hbm, 28, rfl⟩
abbrev main_v9 : Ref sig .tc := ⟨.hbm, 29, rfl⟩
abbrev main_c_3 : Ref sig .tc := ⟨.hbm, 30, rfl⟩
abbrev main_call4_v0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_cst_5 : Ref sig .tc := ⟨.hbm, 48, rfl⟩
abbrev main_v24 : Ref sig .tc := ⟨.hbm, 49, rfl⟩
abbrev main_v25 : Ref sig .tc := ⟨.hbm, 50, rfl⟩
abbrev main_call5_v0 : Ref sig .tc := ⟨.hbm, 51, rfl⟩
abbrev main_call5_cst : Ref sig .tc := ⟨.hbm, 52, rfl⟩
abbrev main_call5_v1 : Ref sig .tc := ⟨.hbm, 53, rfl⟩
abbrev main_v26 : Ref sig .tc := ⟨.hbm, 54, rfl⟩
abbrev main_cst_6 : Ref sig .tc := ⟨.hbm, 55, rfl⟩
abbrev main_call6_v0 : Ref sig .tc := ⟨.hbm, 56, rfl⟩
abbrev main_call6_v1 : Ref sig .tc := ⟨.hbm, 57, rfl⟩
abbrev main_v27 : Ref sig .tc := ⟨.hbm, 58, rfl⟩
abbrev main_c_7 : Ref sig .tc := ⟨.hbm, 59, rfl⟩
abbrev main_v28 : Ref sig .tc := ⟨.hbm, 60, rfl⟩
abbrev main_v29 : Ref sig .tc := ⟨.hbm, 61, rfl⟩
abbrev main_c_8 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_9 : Ref sig .tc := ⟨.hbm, 69, rfl⟩
abbrev main_v36 : Ref sig .tc := ⟨.hbm, 70, rfl⟩
abbrev main_v37 : Ref sig .tc := ⟨.hbm, 71, rfl⟩
abbrev main_c_10 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc1_scratch0 : Ref sig .tc := ⟨.vmem, 25, rfl⟩
abbrev cc1_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1563], ![false]⟩

@[reducible] def k1_t1_loop : Scf.Loop 32 :=
  let c0_i32 : BitVec 32 := 0#32
  let c49_i32 : BitVec 32 := 49#32
  let v12 : BitVec 32 := Scalar.addi c0_i32 c49_i32
  let c1_i32 : BitVec 32 := 1#32
  ⟨c0_i32, v12, c1_i32⟩
def k1_mult1 (k1_t1 : Fin k1_t1_loop.trips) : BitVec 32 :=
  let c0_i32_34 : BitVec 32 := 0#32
  let c0_i32 : BitVec 32 := 0#32
  let c1_i32 : BitVec 32 := 1#32
  let arg13 : BitVec 32 := Scf.iv c0_i32 c1_i32 k1_t1
  let c1_i32_33 : BitVec 32 := 1#32
  let v55 : BitVec 32 := Scalar.muli arg13 c1_i32_33
  let v56 : BitVec 32 := Scalar.addi c0_i32_34 v55
  let c1024_i32 : BitVec 32 := 1024#32
  let v57 : BitVec 32 := Scalar.muli v56 c1024_i32
  v57
def k1_off1 (k1_t1 : Fin k1_t1_loop.trips) : Fin 2 → Nat :=
  let c0_i32_34 : BitVec 32 := 0#32
  let c0_i32 : BitVec 32 := 0#32
  let c1_i32 : BitVec 32 := 1#32
  let arg13 : BitVec 32 := Scf.iv c0_i32 c1_i32 k1_t1
  let c1_i32_33 : BitVec 32 := 1#32
  let v55 : BitVec 32 := Scalar.muli arg13 c1_i32_33
  let v56 : BitVec 32 := Scalar.addi c0_i32_34 v55
  let c1024_i32 : BitVec 32 := 1024#32
  let v57 : BitVec 32 := Scalar.muli v56 c1024_i32
  let v58 : BitVec 32 := v57
  let v59 : Index := Scalar.indexCast v58
  let c0_35 : Index := 0#32
  ![v59.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S50176x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S50176x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  pads_S50000x256_S50176x256_01760_000 : S50000x256.Pads (![0, 0] : Fin 2 → Nat) ![176, 0] ![0, 0] S50176x256
  h_S_ : 0 < S_.numel
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  bcast_S800000_S800000x1_0 : S800000.BroadcastsInDim S800000x1 (![0] : Fin 1 → Fin S800000x1.rank)
  pads_S800000x1_S800256x1_02560_000 : S800000x1.Pads (![0, 0] : Fin 2 → Nat) ![256, 0] ![0, 0] S800256x1
  slices_S256x1_S128x1_0_0 : S256x1.Slices ![0, 0] S128x1
  shapeCasts_S128x1_S1x128 : S128x1.ShapeCasts S1x128
  slices_S256x1_S128x1_128_0 : S256x1.Slices ![128, 0] S128x1
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S1024x128_S1024x128 : S1024x128.ShapeCasts S1024x128
  iota_S1x1024_d1_w32 : S1x1024.Iotas .tc 32 [1]
  broadcasts_S512x1_S512x1024 : S512x1.Broadcasts S512x1024
  broadcasts_S1x1024_S512x1024 : S1x1024.Broadcasts S512x1024
  natLt_1_32 : 1 < 32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x128_S512x128 : S1x128.Broadcasts S512x128
  reduces_S512x128_S512 : S512x128.Reduces [1] S512
  shapeCasts_S512_S512x1 : S512.ShapeCasts S512x1
  broadcasts_S1x1_S512x1 : S1x1.Broadcasts S512x1
  slices_S800256x1_S800000x1_0_0 : S800256x1.Slices ![0, 0] S800000x1
  shapeCasts_S800000x1_S800000 : S800000x1.ShapeCasts S800000
  bcast_S_S50000 : S_.BroadcastsInDim S50000 (![] : Fin 0 → Fin S50000.rank)
  bcast_S_S800000 : S_.BroadcastsInDim S800000 (![] : Fin 0 → Fin S800000.rank)
  dot_S1024x256_S256x128_S1024x128_1_0_0_1_n_n_wf : DotDims.WF S1024x256 S256x128 S1024x128 [1] [0] [0] [1] [] []
  dot_S512x1024_S1024x128_S512x128_1_0_0_1_n_n_wf : DotDims.WF S512x1024 S1024x128 S512x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S50176x256.size a
  hwx0_0 : ∀ i : grid0.Coords, EltTy.bits .f32 = 32 ∨ (Rect.block (s := S50176x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S50176x128.size a
  hwx0_5 : ∀ i : grid0.Coords, EltTy.bits .bf16 = 32 ∨ (Rect.block (s := S50176x128) S1024x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S50176x128.size a
  hwx0_6 : ∀ i : grid0.Coords, EltTy.bits .bf16 = 32 ∨ (Rect.block (s := S50176x128) S1024x128.size (cc0_transform_6 i) (hinb0_6 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x128.size a ≤ S50176x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S800256x1.size a
  hwx1_0 : ∀ i : grid1.Coords, EltTy.bits .i32 = 32 ∨ (Rect.block (s := S800256x1) S512x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S800256x1.size a
  hwx1_1 : ∀ i : grid1.Coords, EltTy.bits .i32 = 32 ∨ (Rect.block (s := S800256x1) S512x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S800256x1.size a
  hwx1_2 : ∀ i : grid1.Coords, EltTy.bits .f32 = 32 ∨ (Rect.block (s := S800256x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S800256x1.size a
  hwx1_3 : ∀ i : grid1.Coords, EltTy.bits .f32 = 32 ∨ (Rect.block (s := S800256x1) S512x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S50176x128.size a ≤ S50176x128.size a
  hwx1_4 : ∀ i : grid1.Coords, EltTy.bits .bf16 = 32 ∨ (Rect.block (s := S50176x128) S50176x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S50176x128.size a ≤ S50176x128.size a
  hwx1_5 : ∀ i : grid1.Coords, EltTy.bits .bf16 = 32 ∨ (Rect.block (s := S50176x128) S50176x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x1.size a ≤ S800256x1.size a
  hwx1_9 : ∀ i : grid1.Coords, EltTy.bits .f32 = 32 ∨ (Rect.block (s := S800256x1) S512x1.size (cc1_transform_9 i) (hinb1_9 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1024x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S50176x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S50176x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v16) S512x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S800000 : Shape := ⟨1, ![800000]⟩
abbrev S800000x1 : Shape := ⟨2, ![800000, 1]⟩
abbrev S_ : Shape := ⟨0, ![]⟩
abbrev S800000x256 : Shape := ⟨2, ![800000, 256]⟩
abbrev S800000x128 : Shape := ⟨2, ![800000, 128]⟩
abbrev S1x128 : Shape := ⟨2, ![1, 128]⟩
abbrev S1x1 : Shape := ⟨2, ![1, 1]⟩
abbrev S50000 : Shape := ⟨1, ![50000]⟩

abbrev nBuf : Space → Nat
  | .hbm => 120
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S256x1, .f32⟩
  | .hbm, ⟨6, _⟩ => ⟨S1, .f32⟩
  | .hbm, ⟨7, _⟩ => ⟨S800000, .f32⟩
  | .hbm, ⟨8, _⟩ => ⟨S800000x1, .f32⟩
  | .hbm, ⟨9, _⟩ => ⟨S800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x256, .f32⟩
  | .hbm, ⟨20, _⟩ => ⟨S800000x128, .f32⟩
  | .hbm, ⟨21, _⟩ => ⟨S1x128, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S800000x128, .f32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x256, .f32⟩
  | .hbm, ⟨36, _⟩ => ⟨S800000x128, .f32⟩
  | .hbm, ⟨37, _⟩ => ⟨S1x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S800000x128, .f32⟩
  | .hbm, ⟨42, _⟩ => ⟨S800000x128, .f32⟩
  | .hbm, ⟨43, _⟩ => ⟨S800000x256, .f32⟩
  | .hbm, ⟨44, _⟩ => ⟨S800000x1, .f32⟩
  | .hbm, ⟨45, _⟩ => ⟨S1x1, .f32⟩
  | .hbm, ⟨46, _⟩ => ⟨S800000x1, .f32⟩
  | .hbm, ⟨47, _⟩ => ⟨S800000x1, .f32⟩
  | .hbm, ⟨48, _⟩ => ⟨S_, .f32⟩
  | .hbm, ⟨49, _⟩ => ⟨S800000x1, .f32⟩
  | .hbm, ⟨50, _⟩ => ⟨S800000x1, .f32⟩
  | .hbm, ⟨51, _⟩ => ⟨S800000x1, .f32⟩
  | .hbm, ⟨52, _⟩ => ⟨S_, .f32⟩
  | .hbm, ⟨53, _⟩ => ⟨S800000x1, .f32⟩
  | .hbm, ⟨54, _⟩ => ⟨S800000x1, .f32⟩
  | .hbm, ⟨55, _⟩ => ⟨S800000x1, .f32⟩
  | .hbm, ⟨56, _⟩ => ⟨S800000x1, .f32⟩
  | .hbm, ⟨57, _⟩ => ⟨S800000x1, .f32⟩
  | .hbm, ⟨58, _⟩ => ⟨S800000x1, .f32⟩
  | .hbm, ⟨59, _⟩ => ⟨S800000x1, .f32⟩
  | .hbm, ⟨60, _⟩ => ⟨S_, .f32⟩
  | .hbm, ⟨61, _⟩ => ⟨S800000x1, .f32⟩
  | .hbm, ⟨62, _⟩ => ⟨S800000x1, .f32⟩
  | .hbm, ⟨63, _⟩ => ⟨S_, .f32⟩
  | .hbm, ⟨64, _⟩ => ⟨S800000x1, .f32⟩
  | .hbm, ⟨65, _⟩ => ⟨S800000x1, .f32⟩
  | .hbm, ⟨66, _⟩ => ⟨S_, .f32⟩
  | .hbm, ⟨67, _⟩ => ⟨S800000x1, .f32⟩
  | .hbm, ⟨68, _⟩ => ⟨S800000x1, .f32⟩
  | .hbm, ⟨69, _⟩ => ⟨S_, .f32⟩
  | .hbm, ⟨70, _⟩ => ⟨S800000x1, .f32⟩
  | .hbm, ⟨71, _⟩ => ⟨S800000x1, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S800000x1, .f32⟩
  | .hbm, ⟨76, _⟩ => ⟨S800000x1, .f32⟩
  | .hbm, ⟨77, _⟩ => ⟨S_, .f32⟩
  | .hbm, ⟨78, _⟩ => ⟨S800000x1, .f32⟩
  | .hbm, ⟨79, _⟩ => ⟨S800000x1, .f32⟩
  | .hbm, ⟨80, _⟩ => ⟨S800000, .f32⟩
  | .hbm, ⟨81, _⟩ => ⟨S800000, .f32⟩
  | .hbm, ⟨82, _⟩ => ⟨S_, .f32⟩
  | .hbm, ⟨83, _⟩ => ⟨S50000, .f32⟩
  | .hbm, ⟨84, _⟩ => ⟨S800000x1, .i32⟩
  | .hbm, ⟨85, _⟩ => ⟨S50000, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S_, .f32⟩
  | .hbm, ⟨90, _⟩ => ⟨S50000, .f32⟩
  | .hbm, ⟨91, _⟩ => ⟨S50000, .f32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .i1⟩
  | .hbm, ⟨96, _⟩ => ⟨S_, .f32⟩
  | .hbm, ⟨97, _⟩ => ⟨S_, .f32⟩
  | .hbm, ⟨98, _⟩ => ⟨S50000, .f32⟩
  | .hbm, ⟨99, _⟩ => ⟨S50000, .f32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000, .f32⟩
  | .hbm, ⟨109, _⟩ => ⟨S800000, .f32⟩
  | .hbm, ⟨110, _⟩ => ⟨S_, .i32⟩
  | .hbm, ⟨111, _⟩ => ⟨S800000, .i32⟩
  | .hbm, ⟨112, _⟩ => ⟨S800000, .i1⟩
  | .hbm, ⟨113, _⟩ => ⟨S_, .i32⟩
  | .hbm, ⟨114, _⟩ => ⟨S800000, .i32⟩
  | .hbm, ⟨115, _⟩ => ⟨S800000, .i32⟩
  | .hbm, ⟨116, _⟩ => ⟨S800000, .i32⟩
  | .hbm, ⟨117, _⟩ => ⟨S800000x1, .i32⟩
  | .hbm, ⟨118, _⟩ => ⟨S800000, .f32⟩
  | .hbm, ⟨119, _⟩ => ⟨S800000, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_cst : Ref sig .tc := ⟨.hbm, 24, rfl⟩
abbrev main_call0_v0 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call1_cst : Ref sig .tc := ⟨.hbm, 40, rfl⟩
abbrev main_call1_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_cst_9 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_cst_12 : Ref sig .tc := ⟨.hbm, 89, rfl⟩
abbrev main_v55 : Ref sig .tc := ⟨.hbm, 90, rfl⟩
abbrev main_v56 : Ref sig .tc := ⟨.hbm, 91, rfl⟩
abbrev main_call3_v0 : Ref sig .tc := ⟨.hbm, 92, rfl⟩
abbrev main_call3_cst : Ref sig .tc := ⟨.hbm, 93, rfl⟩
abbrev main_call3_v1 : Ref sig .tc := ⟨.hbm, 94, rfl⟩
abbrev main_v57 : Ref sig .tc := ⟨.hbm, 95, rfl⟩
abbrev main_cst_13 : Ref sig .tc := ⟨.hbm, 96, rfl⟩
abbrev main_call4_v0 : Ref sig .tc := ⟨.hbm, 97, rfl⟩
abbrev main_call4_v1 : Ref sig .tc := ⟨.hbm, 98, rfl⟩
abbrev main_v58 : Ref sig .tc := ⟨.hbm, 99, rfl⟩
abbrev main_c_14 : Ref sig .tc := ⟨.hbm, 100, rfl⟩
abbrev main_v59 : Ref sig .tc := ⟨.hbm, 101, rfl⟩
abbrev main_v60 : Ref sig .tc := ⟨.hbm, 102, rfl⟩
abbrev main_c_15 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_c_16 : Ref sig .tc := ⟨.hbm, 110, rfl⟩
abbrev main_v67 : Ref sig .tc := ⟨.hbm, 111, rfl⟩
abbrev main_v68 : Ref sig .tc := ⟨.hbm, 112, rfl⟩
abbrev main_c_17 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  concatenates_S800000x128_S800000x128_S800000x256_d1 : Shape.Concatenates [S800000x128, S800000x128] S800000x256 1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  shapeCasts_S800000x1_S800000 : S800000x1.ShapeCasts S800000
  bcast_S_S50000 : S_.BroadcastsInDim S50000 (![] : Fin 0 → Fin S50000.rank)
  gather_S50000x256_S800000x1_S800000x256_1_0_n_n_0_1_1256_wf : GatherDims.WF S50000x256 S800000x1 S800000x256 [1] [0] [] [0] [] 1 ![1, 256]
  dot_S800000x256_S256x128_S800000x128_1_0_0_1_n_n_wf : DotDims.WF S800000x256 S256x128 S800000x128 [1] [0] [0] [1] [] []
  dot_S800000x256_S256x1_S800000x1_1_0_0_1_n_n_wf : DotDims.WF S800000x256 S256x1 S800000x1 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf

class Facts : Prop extends Facts₀ where

variable [Facts]
-- ==== Proof.Spec.lean ====
/-
  The arithmetic both programs compute, written once over plain index types.

  For an edge with end points `r` (row) and `c` (col): two node-feature rows are looked up, each a
  rectified affine image `max (x·W + b) 0` of a row of the node table; the pair is scored by one
  256-term dot product with the attention weights plus a bias; the score, shifted by the logit of
  the perturbed noise, goes through the logistic function, is stretched, shifted and clipped to
  `[0, 1]`; the edge value is multiplied by that mask.

  The reference looks a row up by position (the index wrapped when negative, then clamped to the
  table).  The kernel instead sums, over every row `n` of the (zero-padded) table in 49 chunks of
  1024, the indicator `r = n` times the row's features; the two agree when `0 ≤ r < 50000`.
-/
import Idealize.ShloMosaic.PureOps.Ideal
import Idealize.ShloMosaic.Lib.ValueIdx

noncomputable section

namespace Cert.EdgeGate

open Idealize.ShloMosaic
open scoped BigOperators

/-! ## The constants, as the words both programs print -/

abbrev cZero : EReal := Ideal.ofBits .f32 0x00000000#32
abbrev cOne : EReal := Ideal.ofBits .f32 0x3F800000#32
/-- The offset added to the noise before its logit is taken. -/
abbrev cEps : EReal := Ideal.ofBits .f32 0x33D6BF95#32
/-- The stretch `ζ - γ` and the shift `γ` of the hard-concrete gate. -/
abbrev cStretch : EReal := Ideal.ofBits .f32 0x3FCCCCCD#32
abbrev cShift : EReal := Ideal.ofBits .f32 0xBF000000#32

/-! ## One node's features -/

/-- Entry `j` of `max (x·W + b) 0` for one table row `x`. -/
def dense (x : Fin 256 → EReal) (W : Fin 256 → Fin 128 → EReal) (b : Fin 128 → EReal) (j : Fin 128) : EReal :=
  max ((∑ k : Fin 256, x k * W k j) + b j) cZero

/-- The node table padded with zero rows up to 50176 rows. -/
def padRows (X : Fin 50000 → Fin 256 → EReal) (n : Fin 50176) (k : Fin 256) : EReal :=
  if h : n.val < 50000 then X ⟨n.val, h⟩ k else 0

/-! ## The gate -/

/-- The mask of an edge from its noise and its attention score. -/
def gateMask (noise score : EReal) : EReal :=
  min cOne (max cZero
    (Ideal.logistic ((Ideal.log (noise + cEps) - Ideal.log (cOne - (noise + cEps))) + score) * cStretch + cShift))

/-- The masked edge value. -/
def gated (val noise score : EReal) : EReal := val * gateMask noise score

/-! ## The score, as the reference computes it -/

/-- A negative index counts from the end of the table. -/
def wrapIdx (r : BitVec 32) : BitVec 32 :=
  Scalar.select (IntOp.cmpi .slt r 0#32) (IntOp.addi r 50000#32) r

/-- The table row a lookup at `r` reads: the wrapped index, clamped into the table. -/
def rowSel (r : BitVec 32) : Fin 50000 := ⟨min (wrapIdx r).toInt.toNat (50000 - 1), by omega⟩

/-- Two feature rows side by side. -/
def catRow (f1 f2 : Fin 128 → EReal) (k : Fin 256) : EReal :=
  if h : k.val < 128 then f1 ⟨k.val, h⟩ else f2 ⟨k.val - 128, by omega⟩

/-- The attention score of the edge `(r, c)`: the two looked-up feature rows against the weights. -/
def refScore (X : Fin 50000 → Fin 256 → EReal) (Wn : Fin 256 → Fin 128 → EReal) (bn : Fin 128 → EReal)
    (Ws : Fin 256 → Fin 128 → EReal) (bs : Fin 128 → EReal) (wa : Fin 256 → EReal) (ba : EReal)
    (r c : BitVec 32) : EReal :=
  (∑ k : Fin 256, catRow (dense (X (rowSel r)) Wn bn) (dense (X (rowSel c)) Ws bs) k * wa k) + ba

/-! ## The score, as the kernel computes it -/

/-- The indicator of `r = n`, as an extended real. -/
def hot (r : BitVec 32) (n : ℕ) : EReal := if r = BitVec.ofNat 32 n then 1 else 0

/-- Chunk `k`'s contribution to the selected row: the indicator-weighted sum over its 1024 rows. -/
def chunkSum (H : Fin 50176 → Fin 128 → EReal) (r : BitVec 32) (j : Fin 128) (k : Fin 49) : EReal :=
  ∑ n : Fin 1024, hot r (1024 * k.val + n.val) * H ⟨1024 * k.val + n.val, by omega⟩ j

/-- The accumulator after the first `k` chunks, from zero. -/
def accTo (H : Fin 50176 → Fin 128 → EReal) (r : BitVec 32) (j : Fin 128) : ℕ → EReal
  | 0 => cZero
  | k + 1 => accTo H r j k + (if h : k < 49 then chunkSum H r j ⟨k, h⟩ else 0)

/-- The attention score of the edge `(r, c)` from the two accumulated rows and the two halves of the weights. -/
def kerScore (Hn Hs : Fin 50176 → Fin 128 → EReal) (w1 w2 : Fin 128 → EReal) (ba : EReal) (r c : BitVec 32) : EReal :=
  ((∑ j : Fin 128, accTo Hn r j 49 * w1 j) + (∑ j : Fin 128, accTo Hs c j 49 * w2 j)) + ba

end Cert.EdgeGate

end
-- ==== Proof.Tail.lean ====
/-
  The normalisation both programs apply, after the masked edge values are known, by the same host
  operations: the masked values are summed per source node (a scatter-add over `row`), a small
  constant is added, the sum is raised to the power `-1/2` with infinite results replaced by zero,
  and each masked value is multiplied by that factor looked up at its `row` and at its `col`.
  It is carried as ONE function of the masked values and the two index arrays and never opened.
-/
import proofs.«126882_j54185307407141_1_alg».proof.Proof.Gen.KernelIdeal
import Idealize.ShloMosaic.PureOps.Ideal

noncomputable section

namespace Cert.KernelIdeal.Tail

open Idealize.ShloMosaic Cert.KernelIdeal Cert.KernelIdeal.Facts₀ Cert.KernelIdeal.Facts

/-- The degree factor `(Σ_{row e = n} mv e + 1e-10)^(-1/2)`, zero where that is infinite. -/
def invSqrtDeg (mv : FVec Ideal S800000 .f32) (row : IVec S800000 32) : FVec Ideal S50000 .f32 :=
  let deg : FVec Ideal S50000 .f32 :=
    Host.scatterAdd scatter_S50000_S800000x1_S800000_n_0_0_1
      (broadcastInDim S50000 ![] bcast_S_S50000 (constant (F := Ideal) S_ .f32 0x00000000#32))
      (broadcastInDim S800000x1 ![0] bcast_S800000_S800000x1_0 row) mv
  let p : FVec Ideal S50000 .f32 :=
    Host.powf (addf deg (broadcastInDim S50000 ![] bcast_S_S50000 (constant (F := Ideal) S_ .f32 0x2EDBE6FF#32)))
      (broadcastInDim S50000 ![] bcast_S_S50000 (constant (F := Ideal) S_ .f32 0xBF000000#32))
  select (cmpf .oeq (Host.absf p) (broadcastInDim S50000 ![] bcast_S_S50000 (constant (F := Ideal) S_ .f32 0x7F800000#32)))
    (broadcastInDim S50000 ![] bcast_S_S50000 (id (constant (F := Ideal) S_ .f32 0x00000000#32))) p

/-- The factor looked up at an index array: a negative index counts from the end, the lookup clamps. -/
def lookup (d : FVec Ideal S50000 .f32) (ix : IVec S800000 32) : FVec Ideal S800000 .f32 :=
  Host.gather gather_S50000_S800000x1_S800000_n_0_n_n_0_1_1 d
    (broadcastInDim S800000x1 ![0] bcast_S800000_S800000x1_0
      (select (cmpi .slt ix (broadcastInDim S800000 ![] bcast_S_S800000 (constantI S_ 32 0#32)))
        (addi ix (broadcastInDim S800000 ![] bcast_S_S800000 (constantI S_ 32 50000#32))) ix))

/-- The symmetric normalisation of the masked values. -/
def norm (mv : FVec Ideal S800000 .f32) (row col : IVec S800000 32) : FVec Ideal S800000 .f32 :=
  mulf (mulf mv (lookup (invSqrtDeg mv row) row)) (lookup (invSqrtDeg mv row) col)

end Cert.KernelIdeal.Tail

end
-- ==== Proof.EdgeBlockRun.lean ====
/-
  The second kernel's body, opened once.  The body zeroes two 512×128 accumulators, runs 49 trips each of
  which loads one 1024-row chunk of each node-feature table and adds to each accumulator the product of a
  512×1024 indicator matrix with the chunk, and then stores ONE 512×1 block: the gate of the edge values, the
  noise and the score read off the two accumulators.  Here: the one stored piece as a pure term of the input
  blocks, the accumulators after the loop being a recursion over the trips.
-/
import proofs.«126882_j54185307407141_1_alg».proof.Proof.Gen.KernelIdeal.Frame
import Idealize.ShloMosaic.Lib.Pipeline.Value

set_option maxRecDepth 16384

noncomputable section

namespace Cert.KernelIdeal.EdgeBlock

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl

/-- The loop makes 49 trips. -/
theorem trips_eq : k1_t1_loop.trips = 49 := by decide

/-- A store of a whole block, made last, read back whole: its payload, whatever was there before. -/
theorem read_writes_cons_whole {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- Chunk `k` of a node-feature table: the 1024 rows the trip loads. -/
abbrev chunk (x : Vec F S50176x128 .bf16) (k : Fin k1_t1_loop.trips) : Vec F S1024x128 .bf16 :=
  View.ld x (Rect.unit (s := S50176x128) (k1_off1 k) S1024x128.size (k1_off1_inb k))

/-- The first accumulator after `k` trips: zero, then each trip's update of what the trip found. -/
def accN (r : Vec F S512x1 .i32) (x : Vec F S50176x128 .bf16) : ℕ → Vec F S512x128 .f32
  | 0 => k1_pay2
  | k + 1 => if h : k < k1_t1_loop.trips then k1_pay5 r ⟨k, h⟩ (chunk x ⟨k, h⟩) (accN r x k) else accN r x k

/-- The second accumulator after `k` trips. -/
def accS (r : Vec F S512x1 .i32) (x : Vec F S50176x128 .bf16) : ℕ → Vec F S512x128 .f32
  | 0 => k1_pay3
  | k + 1 => if h : k < k1_t1_loop.trips then k1_pay6 r ⟨k, h⟩ (chunk x ⟨k, h⟩) (accS r x k) else accS r x k

/-- ONE TRIP's pieces: each accumulator gets one whole-block store, of the update of what it held. -/
theorem trip_pieces (c : Dev nD) (i : grid1.Coords) (arg1 : Memref sig .tc .vmem S512x1 .i32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1 .f32) (harg4 : arg4.IsWhole) (arg5 : Memref sig .tc .vmem S50176x128 .bf16) (harg5 : arg5.IsWhole) (arg6 : Memref sig .tc .vmem S50176x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x128 .f32) (harg11 : arg11.IsWhole) (arg12 : Memref sig .tc .vmem S512x128 .f32) (harg12 : arg12.IsWhole)
    (v8 : Vec F S512x1 .i32) (v10 : Vec F S512x1 .i32) (X_arg5 : BufTy.Contents (Elt F) arg5.view.ty) (X_arg6 : BufTy.Contents (Elt F) arg6.view.ty) (k : Fin k1_t1_loop.trips)
    (f_arg11 : BufTy.Contents (Elt F) arg11.view.ty) (f_arg12 : BufTy.Contents (Elt F) arg12.view.ty) :
    tripL_k1_t1 (F := F) Variants.none c none i arg1 harg1 arg2 harg2 arg3 harg3 arg4 harg4 arg5 harg5 arg6 harg6 arg7 harg7 arg8 harg8 arg9 harg9 arg10 harg10 arg11 harg11 arg12 harg12 v8 v10 X_arg5 X_arg6 k f_arg11 f_arg12
      = ([(⟨Rect.unit ![0, 0] S512x128.size inb_S512x128_S512x128_0_0,
            k1_pay5 v8 k (View.ld (arg5.view.read (Elt F) X_arg5) (Rect.unit (s := S50176x128) (k1_off1 k) S1024x128.size (k1_off1_inb k)))
              (arg11.view.read (Elt F) f_arg11)⟩ : View.Piece (Elt F) S512x128 .f32)],
         [(⟨Rect.unit ![0, 0] S512x128.size inb_S512x128_S512x128_0_0,
            k1_pay6 v10 k (View.ld (arg6.view.read (Elt F) X_arg6) (Rect.unit (s := S50176x128) (k1_off1 k) S1024x128.size (k1_off1_inb k)))
              (arg12.view.read (Elt F) f_arg12)⟩ : View.Piece (Elt F) S512x128 .f32)]) := by
  unfold tripL_k1_t1 trip_k1_t1
  dsimp only
  sl_unfold_run_names
  simp only [View.readAt_eq_ld, View.ld_unit_zero (S := S512x128) hz2]

/-- The accumulators after `k` trips, read whole, are the recursion's values. -/
theorem scratch_after (c : Dev nD) (i : grid1.Coords) (arg1 : Memref sig .tc .vmem S512x1 .i32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1 .f32) (harg4 : arg4.IsWhole) (arg5 : Memref sig .tc .vmem S50176x128 .bf16) (harg5 : arg5.IsWhole) (arg6 : Memref sig .tc .vmem S50176x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x128 .f32) (harg11 : arg11.IsWhole) (arg12 : Memref sig .tc .vmem S512x128 .f32) (harg12 : arg12.IsWhole)
    (x0 : Vec F S512x1 .i32) (x1 : Vec F S512x1 .i32) (x4 : Vec F S50176x128 .bf16) (x5 : Vec F S50176x128 .bf16) :
    ∀ k : ℕ, k ≤ k1_t1_loop.trips →
      arg11.view.read (Elt F) (arg11.view.writes (Elt F) (arg11.view.writes (Elt F) arg11.view.junk [(⟨Rect.unit ![0, 0] S512x128.size inb_S512x128_S512x128_0_0, k1_pay2⟩ : View.Piece (Elt F) S512x128 .f32)]) (pb_k1_t1 (F := F) Variants.none c none i arg1 harg1 arg2 harg2 arg3 harg3 arg4 harg4 arg5 harg5 arg6 harg6 arg7 harg7 arg8 harg8 arg9 harg9 arg10 harg10 arg11 harg11 arg12 harg12 x0 x1 (harg5.unread x4) (harg6.unread x5) (arg11.view.writes (Elt F) arg11.view.junk [(⟨Rect.unit ![0, 0] S512x128.size inb_S512x128_S512x128_0_0, k1_pay2⟩ : View.Piece (Elt F) S512x128 .f32)]) (arg12.view.writes (Elt F) arg12.view.junk [(⟨Rect.unit ![0, 0] S512x128.size inb_S512x128_S512x128_0_0, k1_pay3⟩ : View.Piece (Elt F) S512x128 .f32)]) k).1) = accN x0 x4 k
      ∧ arg12.view.read (Elt F) (arg12.view.writes (Elt F) (arg12.view.writes (Elt F) arg12.view.junk [(⟨Rect.unit ![0, 0] S512x128.size inb_S512x128_S512x128_0_0, k1_pay3⟩ : View.Piece (Elt F) S512x128 .f32)]) (pb_k1_t1 (F := F) Variants.none c none i arg1 harg1 arg2 harg2 arg3 harg3 arg4 harg4 arg5 harg5 arg6 harg6 arg7 harg7 arg8 harg8 arg9 harg9 arg10 harg10 arg11 harg11 arg12 harg12 x0 x1 (harg5.unread x4) (harg6.unread x5) (arg11.view.writes (Elt F) arg11.view.junk [(⟨Rect.unit ![0, 0] S512x128.size inb_S512x128_S512x128_0_0, k1_pay2⟩ : View.Piece (Elt F) S512x128 .f32)]) (arg12.view.writes (Elt F) arg12.view.junk [(⟨Rect.unit ![0, 0] S512x128.size inb_S512x128_S512x128_0_0, k1_pay3⟩ : View.Piece (Elt F) S512x128 .f32)]) k).2) = accS x1 x5 k
  | 0, _ => by
    refine ⟨?_, ?_⟩
    · show arg11.view.read (Elt F) (arg11.view.writes (Elt F) arg11.view.junk [(⟨Rect.unit ![0, 0] S512x128.size inb_S512x128_S512x128_0_0, k1_pay2⟩ : View.Piece (Elt F) S512x128 .f32)]) = k1_pay2
      exact read_writes_cons_whole _ _ hz2 _ _ _
    · show arg12.view.read (Elt F) (arg12.view.writes (Elt F) arg12.view.junk [(⟨Rect.unit ![0, 0] S512x128.size inb_S512x128_S512x128_0_0, k1_pay3⟩ : View.Piece (Elt F) S512x128 .f32)]) = k1_pay3
      exact read_writes_cons_whole _ _ hz2 _ _ _
  | k + 1, hk => by
    have hlt : k < k1_t1_loop.trips := hk
    obtain ⟨ih1, ih2⟩ := scratch_after c i arg1 harg1 arg2 harg2 arg3 harg3 arg4 harg4 arg5 harg5 arg6 harg6 arg7 harg7 arg8 harg8 arg9 harg9 arg10 harg10 arg11 harg11 arg12 harg12 x0 x1 x4 x5 k (Nat.le_of_lt hlt)
    rw [pb_k1_t1_succ (F := F) Variants.none c none i arg1 harg1 arg2 harg2 arg3 harg3 arg4 harg4 arg5 harg5 arg6 harg6 arg7 harg7 arg8 harg8 arg9 harg9 arg10 harg10 arg11 harg11 arg12 harg12 x0 x1 (harg5.unread x4) (harg6.unread x5) _ _ ⟨k, hlt⟩, trip_pieces]
    dsimp only [List.cons_append, List.nil_append]
    rw [read_writes_cons_whole _ _ hz2, read_writes_cons_whole _ _ hz2, ih1, ih2, harg5.read_unread, harg6.read_unread]
    rw [accN, accS, dif_pos hlt, dif_pos hlt]
    exact ⟨rfl, rfl⟩

/-- THE BODY's one stored piece: the gate of the edge values and the noise at the score of the two
    accumulators after the 49 trips. -/
theorem out_run (c : Dev nD) (i : grid1.Coords) (arg1 : Memref sig .tc .vmem S512x1 .i32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1 .f32) (harg4 : arg4.IsWhole) (arg5 : Memref sig .tc .vmem S50176x128 .bf16) (harg5 : arg5.IsWhole) (arg6 : Memref sig .tc .vmem S50176x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x128 .f32) (harg11 : arg11.IsWhole) (arg12 : Memref sig .tc .vmem S512x128 .f32) (harg12 : arg12.IsWhole)
    (x0 : Vec F S512x1 .i32) (x1 : Vec F S512x1 .i32) (x2 : Vec F S512x1 .f32) (x3 : Vec F S512x1 .f32) (x4 : Vec F S50176x128 .bf16) (x5 : Vec F S50176x128 .bf16) (x6 : Vec F S1x128 .f32) (x7 : Vec F S1x128 .f32) (x8 : Vec F S1x1 .f32) :
    out1_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8
      = k1_pay1 (k1_pay7 x8) (k1_pay8 x6 x7 (accN x0 x4 49) (accS x1 x5 49)) x3 x2 := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun1_A
  dsimp only
  sl_unfold_words
  rw [View.canon_unit_zero hz2]
  simp only [View.readAt_eq_ld, harg1.read_unread, harg2.read_unread, harg3.read_unread, harg4.read_unread,
    harg7.read_unread, harg8.read_unread, harg9.read_unread, View.ld_unit_zero (S := S512x1) hz2,
    View.ld_unit_zero (S := S1x128) hz2, View.ld_unit_zero (S := S1x1) hz2, View.ld_unit_zero (S := S512x128) hz2,
    View.writes_append]
  obtain ⟨h1, h2⟩ := scratch_after c i arg1 harg1 arg2 harg2 arg3 harg3 arg4 harg4 arg5 harg5 arg6 harg6 arg7 harg7 arg8 harg8 arg9 harg9 arg10 harg10 arg11 harg11 arg12 harg12 x0 x1 x4 x5 k1_t1_loop.trips (Nat.le_refl _)
  rw [show Scf.trips k1_t1_loop.lb k1_t1_loop.ub k1_t1_loop.st = k1_t1_loop.trips from rfl, h1, h2, trips_eq]

end Cert.KernelIdeal.EdgeBlock
end
-- ==== Proof.EdgeBlockPay.lean ====
/-
  The second kernel's arithmetic, entry by entry, over the extended reals.  One trip adds to an accumulator,
  at `(e, j)`, the sum over the chunk's 1024 rows `n` of the indicator "edge `e`'s end point is row
  `1024·k + n`" times the chunk's entry `(n, j)`; the score is the two accumulators against the two halves of
  the attention weights plus the bias; the stored block is the edge value times the gate of noise and score.
-/
import proofs.«126882_j54185307407141_1_alg».proof.Proof.Gen.KernelIdeal.Skeleton
import proofs.«126882_j54185307407141_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

namespace Cert.KernelIdeal.EdgeBlock

open Idealize.ShloMosaic Idealize.ShloMosaic.ValueIdx Idealize.SL.Sem
open Cert.KernelIdeal Cert.KernelIdeal.Gen
open scoped BigOperators

/-! ## The indicator -/

/-- The indicator word, widened and converted: one when the two words are equal, zero otherwise. -/
theorem onehot_eq (r m : BitVec 32) :
    Scalar.sitofp (F := Ideal) .f32 ((IntOp.cmpi .eq r m).setWidth 32) = if r = m then (1 : EReal) else 0 := by
  rw [Ideal.scalar_sitofp_def, toInt_setWidth_bit]
  unfold IntOp.cmpi
  by_cases h : r = m
  · subst h; simp
  · simp [h]

/-- The row numbers of chunk `k`: entry `n` of the trip's iota is `1024·k + n`. -/
theorem pay4_apply (k : Fin k1_t1_loop.trips) (n : Fin 1024) :
    k1_pay4 k (ix2 (0 : Fin 1) n) = BitVec.ofNat 32 (1024 * k.val + n.val) := by
  unfold k1_pay4
  dsimp only
  show IntOp.addi _ (iota .tc S1x1024 32 [1] iota_S1x1024_d1_w32 (ix2 (0 : Fin 1) n)) = _
  rw [iota_single_apply]
  show IntOp.addi (Scalar.muli (Scalar.addi 0#32 (Scalar.muli (Scf.iv 0#32 1#32 k.val) 1#32)) 1024#32) (BitVec.ofNat 32 n.val) = _
  simp only [Scalar.muli, Scalar.addi, IntOp.muli, IntOp.addi, Scf.iv, BitVec.zero_add, BitVec.mul_one]
  rw [Nat.mul_comm, BitVec.ofNat_add, BitVec.ofNat_mul]

/-! ## Layout: a column and a row spread over a matrix -/

/-- A `[a, 1]` column broadcast to `[a, b]` reads, at `(p, q)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The product of the indicator matrix with a chunk -/

theorem lhs_chunk_0 (i : S512x128.Idx) (q : dot_S512x1024_S1024x128_S512x128_1_0_0_1_n_n.contr.Idx) :
    (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
theorem lhs_chunk_1 (i : S512x128.Idx) (q : dot_S512x1024_S1024x128_S512x128_1_0_0_1_n_n.contr.Idx) :
    (dot_S512x1024_S1024x128_S512x128_1_0_0_1_n_n.lhsIdx i q 1).val = (q ⟨0, by decide⟩).val :=
  dot_S512x1024_S1024x128_S512x128_1_0_0_1_n_n.lhsIdx_val_of_single rfl i q
theorem rhs_chunk_0 (i : S512x128.Idx) (q : dot_S512x1024_S1024x128_S512x128_1_0_0_1_n_n.contr.Idx) :
    (dot_S512x1024_S1024x128_S512x128_1_0_0_1_n_n.rhsIdx i q 0).val = (q ⟨0, by decide⟩).val :=
  dot_S512x1024_S1024x128_S512x128_1_0_0_1_n_n.rhsIdx_val_of_single rfl i q
theorem rhs_chunk_1 (i : S512x128.Idx) (q : dot_S512x1024_S1024x128_S512x128_1_0_0_1_n_n.contr.Idx) :
    (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

/-- The matrix product into a zero accumulator, at `(e, j)`: the sum over the 1024 rows of the chunk. -/
theorem matmul_chunk_apply (l : FVec Ideal S512x1024 .bf16) (r : FVec Ideal S1024x128 .bf16) (e : Fin 512) (j : Fin 128) :
    matmul dot_S512x1024_S1024x128_S512x128_1_0_0_1_n_n none l r (constant S512x128 .f32 0x00000000#32) (ix2 e j)
      = ∑ n : Fin 1024, l (ix2 e n) * r (ix2 n j) := by
  simp only [matmul]
  rw [Ideal.matmul_constant_zero_apply, ← Equiv.sum_comp (ValueIdx.contrEquiv1 dot_S512x1024_S1024x128_S512x128_1_0_0_1_n_n 1024 rfl rfl).symm]
  refine Finset.sum_congr rfl fun n _ => ?_
  have hk := ValueIdx.contrEquiv1_symm_val dot_S512x1024_S1024x128_S512x128_1_0_0_1_n_n 1024 rfl rfl n
  have el : dot_S512x1024_S1024x128_S512x128_1_0_0_1_n_n.lhsIdx (ix2 e j) ((ValueIdx.contrEquiv1 dot_S512x1024_S1024x128_S512x128_1_0_0_1_n_n 1024 rfl rfl).symm n) = ix2 e n := funext fun a => Fin.ext (by
    match a with
    | ⟨0, _⟩ => exact lhs_chunk_0 _ _
    | ⟨1, _⟩ => exact (lhs_chunk_1 _ _).trans hk)
  have er : dot_S512x1024_S1024x128_S512x128_1_0_0_1_n_n.rhsIdx (ix2 e j) ((ValueIdx.contrEquiv1 dot_S512x1024_S1024x128_S512x128_1_0_0_1_n_n 1024 rfl rfl).symm n) = ix2 n j := funext fun a => Fin.ext (by
    match a with
    | ⟨0, _⟩ => exact (rhs_chunk_0 _ _).trans hk
    | ⟨1, _⟩ => exact rhs_chunk_1 _ _)
  rw [el, er]

/-- Entry `(e, n)` of the indicator matrix of trip `k`: whether edge `e`'s end point is row `1024·k + n`. -/
theorem indicator_apply (v : IVec S512x1 32) (k : Fin k1_t1_loop.trips) (e : Fin 512) (n : Fin 1024) :
    (truncf .bf16 (sitofp (F := Ideal) .f32 (extui 32 (cmpi .eq (broadcastTo S512x1024 v broadcasts_S512x1_S512x1024)
        (broadcastTo S512x1024 (k1_pay4 k) broadcasts_S1x1024_S512x1024)) natLt_1_32)) bitsLt_bf16_f32 : FVec Ideal S512x1024 .bf16) (ix2 e n)
      = EdgeGate.hot (v (ix2 e (0 : Fin 1))) (1024 * k.val + n.val) := by
  show Scalar.sitofp (F := Ideal) .f32 ((IntOp.cmpi .eq (broadcastTo S512x1024 v broadcasts_S512x1_S512x1024 (ix2 e n))
        (broadcastTo S512x1024 (k1_pay4 k) broadcasts_S1x1024_S512x1024 (ix2 e n))).setWidth 32) = _
  rw [broadcastTo_a1_ab_apply, broadcastTo_1b_ab_apply, pay4_apply, onehot_eq]
  rfl

/-- ONE TRIP's update of the first accumulator, at `(e, j)`: what it held plus the indicator-weighted sum of the
    chunk's rows. -/
theorem pay5_apply (v8 : Vec Ideal S512x1 .i32) (k : Fin k1_t1_loop.trips) (v60 : Vec Ideal S1024x128 .bf16)
    (v80 : Vec Ideal S512x128 .f32) (e : Fin 512) (j : Fin 128) :
    k1_pay5 (F := Ideal) v8 k v60 v80 (ix2 e j)
      = v80 (ix2 e j) + ∑ n : Fin 1024, EdgeGate.hot (v8 (ix2 e (0 : Fin 1))) (1024 * k.val + n.val) * v60 (ix2 n j) := by
  unfold k1_pay5
  simp only [shapeCast_self]
  refine (addf_apply _ _ _).trans ?_
  refine congrArg (v80 (ix2 e j) + ·) ?_
  refine (matmul_chunk_apply _ _ e j).trans ?_
  refine Finset.sum_congr rfl fun n _ => ?_
  exact congrArg (· * v60 (ix2 n j)) (indicator_apply v8 k e n)

/-- ONE TRIP's update of the second accumulator. -/
theorem pay6_apply (v10 : Vec Ideal S512x1 .i32) (k : Fin k1_t1_loop.trips) (v63 : Vec Ideal S1024x128 .bf16)
    (v86 : Vec Ideal S512x128 .f32) (e : Fin 512) (j : Fin 128) :
    k1_pay6 (F := Ideal) v10 k v63 v86 (ix2 e j)
      = v86 (ix2 e j) + ∑ n : Fin 1024, EdgeGate.hot (v10 (ix2 e (0 : Fin 1))) (1024 * k.val + n.val) * v63 (ix2 n j) := by
  unfold k1_pay6
  simp only [shapeCast_self]
  refine (addf_apply _ _ _).trans ?_
  refine congrArg (v86 (ix2 e j) + ·) ?_
  refine (matmul_chunk_apply _ _ e j).trans ?_
  refine Finset.sum_congr rfl fun n _ => ?_
  exact congrArg (· * v63 (ix2 n j)) (indicator_apply v10 k e n)

/-! ## The zero fill and the score -/

/-- The first accumulator's fill: zero everywhere. -/
theorem pay2_apply (i : S512x128.Idx) : k1_pay2 (F := Ideal) i = EdgeGate.cZero := by
  unfold k1_pay2
  simp only [shapeCast_self]
  rfl

/-- The second accumulator's fill: zero everywhere. -/
theorem pay3_apply (i : S512x128.Idx) : k1_pay3 (F := Ideal) i = EdgeGate.cZero := by
  unfold k1_pay3
  simp only [shapeCast_self]
  rfl

/-- The bias block is passed on as it is. -/
theorem pay7_eq (v17 : Vec Ideal S1x1 .f32) : k1_pay7 (F := Ideal) v17 = v17 := by
  unfold k1_pay7
  simp only [shapeCast_self]

/-- An `[a]` vector cast to an `[a, 1]` column reads, at `(p, u)`, the vector at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The lane sum of a 512×128 block at row `e`: the sum of the row's 128 entries. -/
theorem rowsum_apply (x : FVec Ideal S512x128 .f32) (hφ : FKind.Formats .f32) (hacc : (0x00000000#32 : BitVec 32) = 0x00000000#32) (e : Fin 512) :
    multiReduction (F := Ideal) .add [1] S512 x 0x00000000#32 reduces_S512x128_S512 hφ hacc (ix1 e) = ∑ j : Fin 128, x (ix2 e j) := by
  refine (Ideal.multiReduction_add_single x 0x00000000#32 reduces_S512x128_S512 hφ hacc (ix1 e)).trans ?_
  refine Finset.sum_congr rfl fun j _ => congrArg x ?_
  funext a
  apply Fin.ext
  match a with
  | ⟨0, _⟩ => rfl
  | ⟨1, _⟩ => rfl

/-- One accumulator against one half of the attention weights, at edge `e`: the 128-term dot product. -/
theorem half_score_apply (acc : FVec Ideal S512x128 .f32) (w : FVec Ideal S1x128 .f32) (hφ : FKind.Formats .f32)
    (hacc : (0x00000000#32 : BitVec 32) = 0x00000000#32) (e : Fin 512) :
    shapeCast S512x1 (multiReduction (F := Ideal) .add [1] S512 (mulf acc (broadcastTo S512x128 w broadcasts_S1x128_S512x128)) 0x00000000#32
        reduces_S512x128_S512 hφ hacc) shapeCasts_S512_S512x1 (ix2 e (0 : Fin 1))
      = ∑ j : Fin 128, acc (ix2 e j) * w (ix2 (0 : Fin 1) j) := by
  refine (shapeCast_a_a1_apply _ shapeCasts_S512_S512x1 e (0 : Fin 1)).trans ?_
  refine (rowsum_apply _ hφ hacc e).trans ?_
  refine Finset.sum_congr rfl fun j _ => ?_
  refine (mulf_apply _ _ _).trans ?_
  exact congrArg (acc (ix2 e j) * ·) (broadcastTo_1b_ab_apply w broadcasts_S1x128_S512x128 e j)

/-- The score before the bias, at edge `e`: the two accumulators against the two halves of the weights. -/
theorem pay8_apply (v13 v15 : Vec Ideal S1x128 .f32) (v19 v24 : Vec Ideal S512x128 .f32) (e : Fin 512) :
    k1_pay8 (F := Ideal) v13 v15 v19 v24 (ix2 e (0 : Fin 1))
      = (∑ j : Fin 128, v19 (ix2 e j) * v13 (ix2 (0 : Fin 1) j)) + (∑ j : Fin 128, v24 (ix2 e j) * v15 (ix2 (0 : Fin 1) j)) := by
  unfold k1_pay8
  simp only [shapeCast_self]
  refine (addf_apply _ _ _).trans ?_
  exact congrArg₂ (· + ·) (half_score_apply v19 v13 _ _ e) (half_score_apply v24 v15 _ _ e)

/-! ## The gate -/

/-- A `[1, 1]` block broadcast to an `[a, 1]` column reads its one entry everywhere. -/
theorem broadcastTo_11_a1_apply {α : Type} {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- THE STORED BLOCK at edge `e`: the edge value times the gate of the noise and of the score plus the bias. -/
theorem pay1_apply (v18 : FVec Ideal S1x1 .f32) (v29 : FVec Ideal S512x1 .f32) (v32 v51 : Vec Ideal S512x1 .f32) (e : Fin 512) :
    k1_pay1 (F := Ideal) v18 v29 v32 v51 (ix2 e (0 : Fin 1))
      = EdgeGate.gated (v51 (ix2 e (0 : Fin 1))) (v32 (ix2 e (0 : Fin 1)))
          (v29 (ix2 e (0 : Fin 1)) + v18 (ix2 (0 : Fin 1) (0 : Fin 1))) := by
  unfold k1_pay1
  simp only [shapeCast_self]
  have hb : broadcastTo S512x1 v18 broadcasts_S1x1_S512x1 (ix2 e (0 : Fin 1)) = v18 (ix2 (0 : Fin 1) (0 : Fin 1)) :=
    broadcastTo_11_a1_apply v18 broadcasts_S1x1_S512x1 e (0 : Fin 1)
  unfold EdgeGate.gated EdgeGate.gateMask
  show v51 (ix2 e (0 : Fin 1)) * min (Ideal.ofBits .f32 0x3F800000#32) (max (Ideal.ofBits .f32 0x00000000#32)
      (Ideal.logistic ((Ideal.log (v32 (ix2 e (0 : Fin 1)) + Ideal.ofBits .f32 0x33D6BF95#32)
          - Ideal.log (Ideal.ofBits .f32 0x3F800000#32 - (v32 (ix2 e (0 : Fin 1)) + Ideal.ofBits .f32 0x33D6BF95#32)))
        + (v29 (ix2 e (0 : Fin 1)) + broadcastTo S512x1 v18 broadcasts_S1x1_S512x1 (ix2 e (0 : Fin 1))))
        * Ideal.ofBits .f32 0x3FCCCCCD#32 + Ideal.ofBits .f32 0xBF000000#32)) = _
  rw [hb]

end Cert.KernelIdeal.EdgeBlock
end
-- ==== Proof.EdgeBlockAcc.lean ====
/-
  The accumulators after the 49 trips, and the stored block, as the specification writes them.  Entry `(e, j)` of
  an accumulator after `k` trips is zero plus, chunk by chunk, the indicator-weighted sum of the chunk's rows:
  the specification's `accTo` of the table, of edge `e`'s end point and of `j`.  The stored block at edge `e`
  is then the gate of the edge's value and noise at the score of the two accumulated rows.
-/
import proofs.«126882_j54185307407141_1_alg».proof.Proof.EdgeBlockRun
import proofs.«126882_j54185307407141_1_alg».proof.Proof.EdgeBlockPay

set_option maxRecDepth 16384

noncomputable section

namespace Cert.KernelIdeal.EdgeBlock

open Idealize.ShloMosaic Idealize.ShloMosaic.ValueIdx Idealize.SL.Sem
open Cert.KernelIdeal Cert.KernelIdeal.Gen
open scoped BigOperators

/-- Row `n` of chunk `k` is row `1024·k + n` of the table. -/
theorem chunk_apply (x : Vec Ideal S50176x128 .bf16) (k : Fin k1_t1_loop.trips) (n : Fin 1024) (j : Fin 128)
    (h : 1024 * k.val + n.val < 50176) :
    chunk (F := Ideal) x k (ix2 n j) = x (ix2 (⟨1024 * k.val + n.val, h⟩ : Fin 50176) j) := by
  show x ((Rect.unit (s := S50176x128) (k1_off1 k) S1024x128.size (k1_off1_inb k)).idx (ix2 n j)) = _
  refine congrArg x (funext fun a => Fin.ext ?_)
  match a with
  | ⟨0, _⟩ =>
    show (k1_off1 k) 0 + 1 * n.val = 1024 * k.val + n.val
    rw [k1_off1_eq k]; show 1024 * k.val + 1 * n.val = _; omega
  | ⟨1, _⟩ =>
    show (k1_off1 k) 1 + 1 * j.val = j.val
    rw [k1_off1_eq k]; show 0 + 1 * j.val = _; omega

/-- The first accumulator after `k` trips, entry by entry. -/
theorem accN_apply (r : Vec Ideal S512x1 .i32) (x : Vec Ideal S50176x128 .bf16) (e : Fin 512) (j : Fin 128) :
    ∀ k : ℕ, k ≤ 49 →
      accN (F := Ideal) r x k (ix2 e j) = EdgeGate.accTo (fun n j => x (ix2 n j)) (r (ix2 e (0 : Fin 1))) j k
  | 0, _ => pay2_apply _
  | k + 1, hk => by
    have hlt : k < 49 := hk
    have hlt' : k < k1_t1_loop.trips := by rw [trips_eq]; exact hlt
    rw [accN, dif_pos hlt', EdgeGate.accTo, dif_pos hlt]
    refine (pay5_apply r ⟨k, hlt'⟩ _ _ e j).trans ?_
    rw [accN_apply r x e j k (Nat.le_of_lt hlt)]
    refine congrArg (_ + ·) ?_
    unfold EdgeGate.chunkSum
    refine Finset.sum_congr rfl fun n _ => ?_
    exact congrArg (_ * ·) (chunk_apply x ⟨k, hlt'⟩ n j _)

/-- The second accumulator after `k` trips, entry by entry. -/
theorem accS_apply (r : Vec Ideal S512x1 .i32) (x : Vec Ideal S50176x128 .bf16) (e : Fin 512) (j : Fin 128) :
    ∀ k : ℕ, k ≤ 49 →
      accS (F := Ideal) r x k (ix2 e j) = EdgeGate.accTo (fun n j => x (ix2 n j)) (r (ix2 e (0 : Fin 1))) j k
  | 0, _ => pay3_apply _
  | k + 1, hk => by
    have hlt : k < 49 := hk
    have hlt' : k < k1_t1_loop.trips := by rw [trips_eq]; exact hlt
    rw [accS, dif_pos hlt', EdgeGate.accTo, dif_pos hlt]
    refine (pay6_apply r ⟨k, hlt'⟩ _ _ e j).trans ?_
    rw [accS_apply r x e j k (Nat.le_of_lt hlt)]
    refine congrArg (_ + ·) ?_
    unfold EdgeGate.chunkSum
    refine Finset.sum_congr rfl fun n _ => ?_
    exact congrArg (_ * ·) (chunk_apply x ⟨k, hlt'⟩ n j _)

/-- THE STORED BLOCK at a block index `y`, from the nine input blocks: the edge value times the gate of the noise
    and of the score of the two rows accumulated for the edge's two end points. -/
theorem block_value (b0 b1 : Vec Ideal S512x1 .i32) (b2 b3 : Vec Ideal S512x1 .f32) (b4 b5 : Vec Ideal S50176x128 .bf16)
    (b6 b7 : Vec Ideal S1x128 .f32) (b8 : Vec Ideal S1x1 .f32) (y : S512x1.Idx) :
    k1_pay1 (F := Ideal) (k1_pay7 b8) (k1_pay8 b6 b7 (accN b0 b4 49) (accS b1 b5 49)) b3 b2 y
      = EdgeGate.gated (b2 y) (b3 y)
          (EdgeGate.kerScore (fun n j => b4 (ix2 n j)) (fun n j => b5 (ix2 n j))
            (fun j => b6 (ix2 (0 : Fin 1) j)) (fun j => b7 (ix2 (0 : Fin 1) j)) (b8 (ix2 (0 : Fin 1) (0 : Fin 1)))
            (b0 y) (b1 y)) := by
  obtain ⟨p, q, rfl⟩ : ∃ (p : Fin 512) (q : Fin 1), y = ix2 p q := ⟨y 0, y 1, eq_ix2 y⟩
  obtain rfl : q = 0 := Subsingleton.elim _ _
  refine (pay1_apply _ _ b3 b2 p).trans ?_
  rw [pay7_eq, pay8_apply]
  unfold EdgeGate.kerScore
  simp only [accN_apply b0 b4 p _ 49 (Nat.le_refl _), accS_apply b1 b5 p _ 49 (Nat.le_refl _)]

end Cert.KernelIdeal.EdgeBlock
end
-- ==== Proof.EdgeBlock.lean ====
/-
  What the second pallas_call leaves in its output array: entry `e` is the edge's value times the gate
  of its noise and of its attention score, the score computed from the two feature rows the body
  accumulates over the 49 chunks of the node table (the indicator-weighted sums), the block of 512
  edges that holds `e` being written by the grid point `e / 512`.
-/
import proofs.«126882_j54185307407141_1_alg».proof.Proof.Gen.KernelIdeal.Frame
import proofs.«126882_j54185307407141_1_alg».proof.Proof.Spec
import proofs.«126882_j54185307407141_1_alg».proof.Proof.EdgeBlockAcc
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.EdgeBlock

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The region's nine input arrays as it finds them, at their literal types. -/
abbrev rowArr (c : Dev nD) : IVec S800256x1 32 := V c (Pipeline.arrRef spec1 0)
abbrev colArr (c : Dev nD) : IVec S800256x1 32 := V c (Pipeline.arrRef spec1 1)
abbrev valArr (c : Dev nD) : FVec Ideal S800256x1 .f32 := V c (Pipeline.arrRef spec1 2)
abbrev noiseArr (c : Dev nD) : FVec Ideal S800256x1 .f32 := V c (Pipeline.arrRef spec1 3)
abbrev hnbIn (c : Dev nD) : FVec Ideal S50176x128 .bf16 := V c (Pipeline.arrRef spec1 4)
abbrev hselfIn (c : Dev nD) : FVec Ideal S50176x128 .bf16 := V c (Pipeline.arrRef spec1 5)
abbrev w1Arr (c : Dev nD) : FVec Ideal S1x128 .f32 := V c (Pipeline.arrRef spec1 6)
abbrev w2Arr (c : Dev nD) : FVec Ideal S1x128 .f32 := V c (Pipeline.arrRef spec1 7)
abbrev baArr (c : Dev nD) : FVec Ideal S1x1 .f32 := V c (Pipeline.arrRef spec1 8)
/-- The output array after the region. -/
abbrev mvArr (c : Dev nD) : FVec Ideal S800256x1 .f32 := (dat1 (F := Ideal) V c).arrAt 9 cfg1.N

/-- The masked-value array as one function of the input arrays, entry by entry. -/
def masked (c : Dev nD) : FVec Ideal S800256x1 .f32 := fun i =>
  EdgeGate.gated (valArr V c i) (noiseArr V c i)
    (EdgeGate.kerScore (fun n j => hnbIn V c (ix2 n j)) (fun n j => hselfIn V c (ix2 n j))
      (fun j => w1Arr V c (ix2 (0 : Fin 1) j)) (fun j => w2Arr V c (ix2 (0 : Fin 1) j)) (baArr V c (ix2 (0 : Fin 1) (0 : Fin 1)))
      (rowArr V c i) (colArr V c i))

/-- The printed index maps, decided over the grid: the four edge windows and the output move with the point, one
    block of 512 edges each; the five whole-array windows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- WHAT POINT `t` WRITES BACK is block `t` of the masked-value array. -/
theorem flushed_eq (c : Dev nD) (t : Fin cfg1.N) :
    (dat1 (F := Ideal) V c).flushed 9 t = ((cfg1.win 9).blk t).view.read (Elt Ideal) (masked V c) := by
  show (cfg1.win 9).cut (grid1.coords t) ((dat1 (F := Ideal) V c).after 9 t) = _
  rw [after1_9]
  unfold outsAt1
  rw [out_run (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t)]
  obtain ⟨e00, e01, e10, e11, e20, e21, e30, e31, e40, e41, e50, e51, e60, e61, e70, e71, e80, e81, e90, e91⟩ := idx_facts t
  funext y
  refine (block_value (iblk1 V c 0 t) (iblk1 V c 1 t) (iblk1 V c 2 t) (iblk1 V c 3 t) (iblk1 V c 4 t) (iblk1 V c 5 t) (iblk1 V c 6 t) (iblk1 V c 7 t) (iblk1 V c 8 t) y).trans ?_
  show _ = masked V c (((cfg1.win 9).blk t).view.emb y)
  have h0 : ((cfg1.win 0).blk t).view.emb y = ((cfg1.win 9).blk t).view.emb y := by
    funext a; apply Fin.ext
    match a with
    | ⟨0, _⟩ => show win1_0.index t (0 : Fin 2) * 512 + 1 * (y 0).val = win1_9.index t (0 : Fin 2) * 512 + 1 * (y 0).val; rw [e00, e90]
    | ⟨1, _⟩ => show win1_0.index t (1 : Fin 2) * 1 + 1 * (y 1).val = win1_9.index t (1 : Fin 2) * 1 + 1 * (y 1).val; rw [e01, e91]
  have h1 : ((cfg1.win 1).blk t).view.emb y = ((cfg1.win 9).blk t).view.emb y := by
    funext a; apply Fin.ext
    match a with
    | ⟨0, _⟩ => show win1_1.index t (0 : Fin 2) * 512 + 1 * (y 0).val = win1_9.index t (0 : Fin 2) * 512 + 1 * (y 0).val; rw [e10, e90]
    | ⟨1, _⟩ => show win1_1.index t (1 : Fin 2) * 1 + 1 * (y 1).val = win1_9.index t (1 : Fin 2) * 1 + 1 * (y 1).val; rw [e11, e91]
  have h2 : ((cfg1.win 2).blk t).view.emb y = ((cfg1.win 9).blk t).view.emb y := by
    funext a; apply Fin.ext
    match a with
    | ⟨0, _⟩ => show win1_2.index t (0 : Fin 2) * 512 + 1 * (y 0).val = win1_9.index t (0 : Fin 2) * 512 + 1 * (y 0).val; rw [e20, e90]
    | ⟨1, _⟩ => show win1_2.index t (1 : Fin 2) * 1 + 1 * (y 1).val = win1_9.index t (1 : Fin 2) * 1 + 1 * (y 1).val; rw [e21, e91]
  have h3 : ((cfg1.win 3).blk t).view.emb y = ((cfg1.win 9).blk t).view.emb y := by
    funext a; apply Fin.ext
    match a with
    | ⟨0, _⟩ => show win1_3.index t (0 : Fin 2) * 512 + 1 * (y 0).val = win1_9.index t (0 : Fin 2) * 512 + 1 * (y 0).val; rw [e30, e90]
    | ⟨1, _⟩ => show win1_3.index t (1 : Fin 2) * 1 + 1 * (y 1).val = win1_9.index t (1 : Fin 2) * 1 + 1 * (y 1).val; rw [e31, e91]
  have r0 : iblk1 V c 0 t y = rowArr V c (((cfg1.win 9).blk t).view.emb y) := by
    show V c (Pipeline.arrRef spec1 0) (((cfg1.win 0).blk t).view.emb y) = _
    rw [h0]
  have r1 : iblk1 V c 1 t y = colArr V c (((cfg1.win 9).blk t).view.emb y) := by
    show V c (Pipeline.arrRef spec1 1) (((cfg1.win 1).blk t).view.emb y) = _
    rw [h1]
  have r2 : iblk1 V c 2 t y = valArr V c (((cfg1.win 9).blk t).view.emb y) := by
    show V c (Pipeline.arrRef spec1 2) (((cfg1.win 2).blk t).view.emb y) = _
    rw [h2]
  have r3 : iblk1 V c 3 t y = noiseArr V c (((cfg1.win 9).blk t).view.emb y) := by
    show V c (Pipeline.arrRef spec1 3) (((cfg1.win 3).blk t).view.emb y) = _
    rw [h3]
  have k4 : (fun (n : Fin 50176) (j : Fin 128) => iblk1 V c 4 t (ix2 n j)) = fun n j => hnbIn V c (ix2 n j) :=
    funext fun n => funext fun j => by
      show V c (Pipeline.arrRef spec1 4) (((cfg1.win 4).blk t).view.emb (ix2 n j)) = V c (Pipeline.arrRef spec1 4) (ix2 n j)
      refine congrArg _ (funext fun a => Fin.ext ?_)
      match a with
      | ⟨0, _⟩ => show win1_4.index t (0 : Fin 2) * 50176 + 1 * n.val = n.val; rw [e40]; omega
      | ⟨1, _⟩ => show win1_4.index t (1 : Fin 2) * 128 + 1 * j.val = j.val; rw [e41]; omega
  have k5 : (fun (n : Fin 50176) (j : Fin 128) => iblk1 V c 5 t (ix2 n j)) = fun n j => hselfIn V c (ix2 n j) :=
    funext fun n => funext fun j => by
      show V c (Pipeline.arrRef spec1 5) (((cfg1.win 5).blk t).view.emb (ix2 n j)) = V c (Pipeline.arrRef spec1 5) (ix2 n j)
      refine congrArg _ (funext fun a => Fin.ext ?_)
      match a with
      | ⟨0, _⟩ => show win1_5.index t (0 : Fin 2) * 50176 + 1 * n.val = n.val; rw [e50]; omega
      | ⟨1, _⟩ => show win1_5.index t (1 : Fin 2) * 128 + 1 * j.val = j.val; rw [e51]; omega
  have k6 : (fun (j : Fin 128) => iblk1 V c 6 t (ix2 (0 : Fin 1) j)) = fun j => w1Arr V c (ix2 (0 : Fin 1) j) :=
    funext fun j => by
      show V c (Pipeline.arrRef spec1 6) (((cfg1.win 6).blk t).view.emb (ix2 (0 : Fin 1) j)) = V c (Pipeline.arrRef spec1 6) (ix2 (0 : Fin 1) j)
      refine congrArg _ (funext fun a => Fin.ext ?_)
      match a with
      | ⟨0, _⟩ => show win1_6.index t (0 : Fin 2) * 1 + 1 * 0 = 0; rw [e60]
      | ⟨1, _⟩ => show win1_6.index t (1 : Fin 2) * 128 + 1 * j.val = j.val; rw [e61]; omega
  have k7 : (fun (j : Fin 128) => iblk1 V c 7 t (ix2 (0 : Fin 1) j)) = fun j => w2Arr V c (ix2 (0 : Fin 1) j) :=
    funext fun j => by
      show V c (Pipeline.arrRef spec1 7) (((cfg1.win 7).blk t).view.emb (ix2 (0 : Fin 1) j)) = V c (Pipeline.arrRef spec1 7) (ix2 (0 : Fin 1) j)
      refine congrArg _ (funext fun a => Fin.ext ?_)
      match a with
      | ⟨0, _⟩ => show win1_7.index t (0 : Fin 2) * 1 + 1 * 0 = 0; rw [e70]
      | ⟨1, _⟩ => show win1_7.index t (1 : Fin 2) * 128 + 1 * j.val = j.val; rw [e71]; omega
  have k8 : iblk1 V c 8 t (ix2 (0 : Fin 1) (0 : Fin 1)) = baArr V c (ix2 (0 : Fin 1) (0 : Fin 1)) := by
    show V c (Pipeline.arrRef spec1 8) (((cfg1.win 8).blk t).view.emb (ix2 (0 : Fin 1) (0 : Fin 1))) = V c (Pipeline.arrRef spec1 8) (ix2 (0 : Fin 1) (0 : Fin 1))
    refine congrArg _ (funext fun a => Fin.ext ?_)
    match a with
    | ⟨0, _⟩ => show win1_8.index t (0 : Fin 2) * 1 + 1 * 0 = 0; rw [e80]
    | ⟨1, _⟩ => show win1_8.index t (1 : Fin 2) * 1 + 1 * 0 = 0; rw [e81]
  rw [r0, r1, r2, r3, k4, k5, k6, k7, k8]
  rfl

/-- An index of the array is in point `t`'s block iff each coordinate is in the block's range on its axis. -/
theorem mem_blk (t : Fin cfg1.N) (i : S800256x1.Idx) :
    i ∈ ((cfg1.win 9).blk t).view.set ↔ ∀ a : Fin 2, win1_9.index t a * S512x1.size a ≤ (i a).val ∧ (i a).val < win1_9.index t a * S512x1.size a + S512x1.size a := by
  show i ∈ ((View.whole main_v16).slice (win1_9.rect t)).set ↔ _
  rw [View.set_slice_whole, Rect.mem_set_unit]
  exact Iff.rfl

/-- Entry `i` is covered by the point `i / 512`. -/
theorem covered (i : S800256x1.Idx) :
    ∃ t : Fin cfg1.N, (cfg1.win 9).flush t = true ∧ i ∈ ((cfg1.win 9).blk t).view.set := by
  have hi0 : (i 0).val < 800256 := (i 0).isLt
  have hi1 : (i 1).val < 1 := (i 1).isLt
  have hN : cfg1.N = 1563 := N_1
  let t : Fin cfg1.N := ⟨(i 0).val / 512, by rw [hN]; omega⟩
  obtain ⟨-, -, -, -, -, -, -, -, -, -, -, -, -, -, -, -, -, -, e90, e91⟩ := idx_facts t
  have ht : t.val = (i 0).val / 512 := rfl
  refine ⟨t, flush1_9 t, ?_⟩
  rw [mem_blk]
  intro a
  match a with
  | ⟨0, _⟩ => show win1_9.index t (0 : Fin 2) * 512 ≤ (i 0).val ∧ (i 0).val < win1_9.index t (0 : Fin 2) * 512 + 512; rw [e90, ht]; omega
  | ⟨1, _⟩ => show win1_9.index t (1 : Fin 2) * 1 ≤ (i 1).val ∧ (i 1).val < win1_9.index t (1 : Fin 2) * 1 + 1; rw [e91]; omega

/-- THE ARRAY after the region: the masked values, entry by entry. -/
theorem final_mv (c : Dev nD) : mvArr V c = masked V c :=
  (dat1 (F := Ideal) V c).arrAt_eq_of_cover 9 (masked V c) (fun t _ => flushed_eq V c t) covered

/-- Entry `e` of the masked-value array. -/
theorem mv_at (c : Dev nD) (e : Fin 800256) :
    mvArr V c (ix2 e (0 : Fin 1))
      = EdgeGate.gated (valArr V c (ix2 e (0 : Fin 1))) (noiseArr V c (ix2 e (0 : Fin 1)))
          (EdgeGate.kerScore (fun n j => hnbIn V c (ix2 n j)) (fun n j => hselfIn V c (ix2 n j))
            (fun j => w1Arr V c (ix2 (0 : Fin 1) j)) (fun j => w2Arr V c (ix2 (0 : Fin 1) j)) (baArr V c (ix2 (0 : Fin 1) (0 : Fin 1)))
            (rowArr V c (ix2 e (0 : Fin 1))) (colArr V c (ix2 e (0 : Fin 1)))) :=
  congrFun (final_mv V c) (ix2 e (0 : Fin 1))

end Cert.KernelIdeal.EdgeBlock
end
-- ==== Proof.NodeFeat.lean ====
/-
  What the first pallas_call leaves in its two output arrays: row `p` of each is the rectified
  affine image `max (x_p · W + b) 0` of row `p` of the padded node table, the block of 1024 rows
  that holds `p` being written by the grid point `p / 1024`.

  The argument has three layers.  First the body's arithmetic at one entry `(r, q)` of a block:
  the product into a zero accumulator is the 256-term sum `Σ_k x[r,k]·W[k,q]`, the 1×128 bias row
  is read at `(0, q)` whatever the row, and the changes of float format are the identity on
  extended reals.  Second the blocks: at grid point `t` the table's window holds rows
  `1024·t … 1024·t + 1023` of the table and the four parameter windows hold their whole arrays, so
  what point `t` writes back is block `t` of ONE function of the five arrays.  Third the cover:
  row `p` lies in the block of point `p / 1024`, and 49 blocks of 1024 rows fill the 50176 rows, so
  the output array ends as that function everywhere.
-/
import proofs.«126882_j54185307407141_1_alg».proof.Proof.Gen.KernelIdeal.Frame
import proofs.«126882_j54185307407141_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.NodeFeat

open Idealize.ShloMosaic Idealize.ShloMosaic.TcCoe Idealize.ShloMosaic.ValueIdx Idealize.SL.Sem
open Cert.KernelIdeal Cert.KernelIdeal.Gen
open scoped BigOperators

/-! ## The body's arithmetic at one entry of a block -/

/-- Row axis of the left operand: the output's row. -/
theorem lhs_axis0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
/-- Column axis of the left operand: the summation index. -/
theorem lhs_axis1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
/-- Row axis of the right operand: the summation index. -/
theorem rhs_axis0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
/-- Column axis of the right operand: the output's column. -/
theorem rhs_axis1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- The product of a 1024×256 block and a 256×128 matrix into a zero accumulator, at entry `(r, q)`:
    the sum over the 256 shared coordinates. -/
theorem matmul_at (l : FVec Ideal S1024x256 .bf16) (w : FVec Ideal S256x128 .bf16) (r : Fin 1024) (q : Fin 128) :
    matmul dot_S1024x256_S256x128_S1024x128_1_0_0_1_n_n none l w (constant (F := Ideal) S1024x128 .f32 0x00000000#32) (ix2 r q)
      = ∑ k : Fin 256, l (ix2 r k) * w (ix2 k q) := by
  show FloatOps.matmul dot_S1024x256_S256x128_S1024x128_1_0_0_1_n_n none l w (constant (F := Ideal) S1024x128 .f32 0x00000000#32) (ix2 r q) = _
  rw [Ideal.matmul_constant_zero_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ix2 r q) ((ValueIdx.contrEquiv1 dot_S1024x256_S256x128_S1024x128_1_0_0_1_n_n 256 rfl rfl).symm k) = ix2 r k := funext fun a => Fin.ext (by
    match a with
    | ⟨0, _⟩ => exact lhs_axis0 _ _
    | ⟨1, _⟩ => exact (lhs_axis1 _ _).trans hk)
  have er : dot_S1024x256_S256x128_S1024x128_1_0_0_1_n_n.rhsIdx (ix2 r q) ((ValueIdx.contrEquiv1 dot_S1024x256_S256x128_S1024x128_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-- The 1×128 bias row spread over 1024 rows, at entry `(r, q)`: the bias at `(0, q)`. -/
theorem biasRow_at (b : FVec Ideal S1x128 .f32) (r : Fin 1024) (q : Fin 128) :
    broadcastTo S1024x128 (shapeCast S1x128 b shapeCasts_S1x128_S1x128) broadcasts_S1x128_S1024x128 (ix2 r q) = b (ix2 (0 : Fin 1) q) := by
  rw [shapeCast_self]
  refine broadcastTo_apply b broadcasts_S1x128_S1024x128 (ix2 r q) (ix2 (0 : Fin 1) q) fun a => ?_
  match a with
  | ⟨0, _⟩ => rfl
  | ⟨1, _⟩ => rfl

/-- What the body stores for the neighbour features, at entry `(r, q)` of the block: the rectified
    affine image of row `r` of the table's block. -/
theorem nbPay_at (x : Vec Ideal S1024x256 .f32) (W : Vec Ideal S256x128 .f32) (b : Vec Ideal S1x128 .f32) (r : Fin 1024) (q : Fin 128) :
    k0_pay2 (F := Ideal) x W b (ix2 r q)
      = EdgeGate.dense (fun k => x (ix2 r k)) (fun k j => W (ix2 k j)) (fun j => b (ix2 (0 : Fin 1) j)) q := by
  unfold k0_pay2 k0_pay1 EdgeGate.dense
  rw [truncf_apply, maximumf_apply, addf_apply, broadcast_apply, matmul_at, biasRow_at, shapeCast_self]
  rfl

/-- What the body stores for the self features, at entry `(r, q)` of the block: the same with the
    second pair of parameters. -/
theorem selfPay_at (x : Vec Ideal S1024x256 .f32) (W : Vec Ideal S256x128 .f32) (b : Vec Ideal S1x128 .f32) (r : Fin 1024) (q : Fin 128) :
    k0_pay3 (F := Ideal) x W b (ix2 r q)
      = EdgeGate.dense (fun k => x (ix2 r k)) (fun k j => W (ix2 k j)) (fun j => b (ix2 (0 : Fin 1) j)) q := by
  unfold k0_pay3 k0_pay1 EdgeGate.dense
  rw [truncf_apply, maximumf_apply, addf_apply, broadcast_apply, matmul_at, biasRow_at, shapeCast_self]
  rfl

variable (V : (c : Dev nD) → (b : Ref sig .tc) → Buf (Elt Ideal) ((c : Thread nD τ).loc b))

/-- The region's five input arrays as it finds them, at their literal types. -/
abbrev xpadArr (c : Dev nD) : FVec Ideal S50176x256 .f32 := V c (Pipeline.arrRef spec0 0)
abbrev wnbArr (c : Dev nD) : FVec Ideal S256x128 .f32 := V c (Pipeline.arrRef spec0 1)
abbrev bnbArr (c : Dev nD) : FVec Ideal S1x128 .f32 := V c (Pipeline.arrRef spec0 2)
abbrev wselfArr (c : Dev nD) : FVec Ideal S256x128 .f32 := V c (Pipeline.arrRef spec0 3)
abbrev bselfArr (c : Dev nD) : FVec Ideal S1x128 .f32 := V c (Pipeline.arrRef spec0 4)
/-- The two output arrays after the region. -/
abbrev hnbArr (c : Dev nD) : FVec Ideal S50176x128 .bf16 := (dat0 (F := Ideal) V c).arrAt 5 cfg0.N
abbrev hselfArr (c : Dev nD) : FVec Ideal S50176x128 .bf16 := (dat0 (F := Ideal) V c).arrAt 6 cfg0.N

/-! ## The blocks at a grid point -/

theorem hz : (![0, 0] : Fin 2 → Nat) = fun _ => 0 := funext fun a => by fin_cases a <;> rfl

/-- The index maps over the 49 grid points: the table's window and the two outputs' sit at
    block row `t`, the four parameter windows at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The table's block at point `t` is rows `1024·t … 1024·t + 1023` of the table. -/
theorem xblk_apply (c : Dev nD) (t : Fin cfg0.N) (x : S1024x256.Idx) (k : S50176x256.Idx)
    (hk0 : (k 0).val = 1024 * t.val + (x 0).val) (hk1 : (k 1).val = (x 1).val) :
    (iblk0 V c 0 t : Vec Ideal S1024x256 .f32) x = xpadArr V c k := by
  obtain ⟨e0, e1, -⟩ := idx_facts t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 1024 + 1 * (x 0).val = (k 0).val; rw [e0, hk0]; omega
  | ⟨1, _⟩ => show win0_0.index t (1 : Fin 2) * 256 + 1 * (x 1).val = (k 1).val; rw [e1, hk1]; omega

/-- A parameter window holds its whole array at every point. -/
theorem wnbBlk_apply (c : Dev nD) (t : Fin cfg0.N) (x : S256x128.Idx) :
    (iblk0 V c 1 t : Vec Ideal S256x128 .f32) x = wnbArr V c x := by
  obtain ⟨-, -, e0, e1, -⟩ := idx_facts t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 256 + 1 * (x 0).val = (x 0).val; rw [e0]; omega
  | ⟨1, _⟩ => show win0_1.index t (1 : Fin 2) * 128 + 1 * (x 1).val = (x 1).val; rw [e1]; omega
theorem bnbBlk_apply (c : Dev nD) (t : Fin cfg0.N) (x : S1x128.Idx) :
    (iblk0 V c 2 t : Vec Ideal S1x128 .f32) x = bnbArr V c x := by
  obtain ⟨-, -, -, -, e0, e1, -⟩ := idx_facts t
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega
theorem wselfBlk_apply (c : Dev nD) (t : Fin cfg0.N) (x : S256x128.Idx) :
    (iblk0 V c 3 t : Vec Ideal S256x128 .f32) x = wselfArr V c x := by
  obtain ⟨-, -, -, -, -, -, e0, e1, -⟩ := idx_facts t
  unfold iblk0
  rw [View.read_apply]
  show V c (Pipeline.arrRef spec0 3) _ = V c (Pipeline.arrRef spec0 3) _
  refine congrArg _ (funext fun a => Fin.ext ?_)
  match a with
  | ⟨0, _⟩ => show win0_3.index t (0 : Fin 2) * 256 + 1 * (x 0).val = (x 0).val; rw [e0]; omega
  | ⟨1, _⟩ => show win0_3.index t (1 : Fin 2) * 128 + 1 * (x 1).val = (x 1).val; rw [e1]; omega
theorem bselfBlk_apply (c : Dev nD) (t : Fin cfg0.N) (x : S1x128.Idx) :
    (iblk0 V c 4 t : Vec Ideal S1x128 .f32) x = bselfArr V c x := by
  obtain ⟨-, -, -, -, -, -, -, -, e0, e1, -⟩ := idx_facts t
  unfold iblk0
  rw [View.read_apply]
  show V c (Pipeline.arrRef spec0 4) _ = V c (Pipeline.arrRef spec0 4) _
  refine congrArg _ (funext fun a => Fin.ext ?_)
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-! ## Each output array as one function of the five input arrays -/

/-- The neighbour-feature array, entry by entry: the rectified affine image of the table's row. -/
abbrev nbAll (c : Dev nD) : FVec Ideal S50176x128 .bf16 := fun i =>
  EdgeGate.dense (fun k => xpadArr V c (ix2 (⟨(i 0).val, (i 0).isLt⟩ : Fin 50176) k)) (fun k j => wnbArr V c (ix2 k j))
    (fun j => bnbArr V c (ix2 (0 : Fin 1) j)) (⟨(i 1).val, (i 1).isLt⟩ : Fin 128)
/-- The self-feature array, entry by entry. -/
abbrev selfAll (c : Dev nD) : FVec Ideal S50176x128 .bf16 := fun i =>
  EdgeGate.dense (fun k => xpadArr V c (ix2 (⟨(i 0).val, (i 0).isLt⟩ : Fin 50176) k)) (fun k j => wselfArr V c (ix2 k j))
    (fun j => bselfArr V c (ix2 (0 : Fin 1) j)) (⟨(i 1).val, (i 1).isLt⟩ : Fin 128)

/-- Entry `j` of what point `t` stores for the neighbour features is entry `i` of `nbAll`, when `i`
    is `j` moved down by `1024·t` rows. -/
theorem nb_block (c : Dev nD) (t : Fin cfg0.N) (j : S1024x128.Idx) (i : S50176x128.Idx)
    (h0 : (i 0).val = 1024 * t.val + (j 0).val) (h1 : (i 1).val = (j 1).val) :
    k0_pay2 (F := Ideal) (iblk0 V c 0 t) (iblk0 V c 1 t) (iblk0 V c 2 t) j = nbAll V c i := by
  obtain ⟨r, q, rfl⟩ : ∃ (r : Fin 1024) (q : Fin 128), j = ix2 r q := ⟨j 0, j 1, eq_ix2 j⟩
  refine (nbPay_at (iblk0 V c 0 t) (iblk0 V c 1 t) (iblk0 V c 2 t) r q).trans ?_
  have hq : (⟨(i 1).val, (i 1).isLt⟩ : Fin 128) = q := Fin.ext h1
  show EdgeGate.dense _ _ _ q = EdgeGate.dense _ _ _ (⟨(i 1).val, (i 1).isLt⟩ : Fin 128)
  rw [hq]
  refine congrArg₂ (fun x W => EdgeGate.dense x W _ q) (funext fun k => ?_) (funext fun k => funext fun j => ?_) |>.trans
    (congrArg (fun b => EdgeGate.dense _ _ b q) (funext fun j => ?_))
  · exact xblk_apply V c t (ix2 r k) _ h0 rfl
  · exact wnbBlk_apply V c t (ix2 k j)
  · exact bnbBlk_apply V c t (ix2 (0 : Fin 1) j)

theorem self_block (c : Dev nD) (t : Fin cfg0.N) (j : S1024x128.Idx) (i : S50176x128.Idx)
    (h0 : (i 0).val = 1024 * t.val + (j 0).val) (h1 : (i 1).val = (j 1).val) :
    k0_pay3 (F := Ideal) (iblk0 V c 0 t) (iblk0 V c 3 t) (iblk0 V c 4 t) j = selfAll V c i := by
  obtain ⟨r, q, rfl⟩ : ∃ (r : Fin 1024) (q : Fin 128), j = ix2 r q := ⟨j 0, j 1, eq_ix2 j⟩
  refine (selfPay_at (iblk0 V c 0 t) (iblk0 V c 3 t) (iblk0 V c 4 t) r q).trans ?_
  have hq : (⟨(i 1).val, (i 1).isLt⟩ : Fin 128) = q := Fin.ext h1
  show EdgeGate.dense _ _ _ q = EdgeGate.dense _ _ _ (⟨(i 1).val, (i 1).isLt⟩ : Fin 128)
  rw [hq]
  refine congrArg₂ (fun x W => EdgeGate.dense x W _ q) (funext fun k => ?_) (funext fun k => funext fun j => ?_) |>.trans
    (congrArg (fun b => EdgeGate.dense _ _ b q) (funext fun j => ?_))
  · exact xblk_apply V c t (ix2 r k) _ h0 rfl
  · exact wselfBlk_apply V c t (ix2 k j)
  · exact bselfBlk_apply V c t (ix2 (0 : Fin 1) j)

/-! ## From blocks to the arrays -/

/-- What point `t` writes back to the neighbour-feature array is block `t` of `nbAll`. -/
theorem nb_flushed_eq (c : Dev nD) (t : Fin cfg0.N) :
    (dat0 (F := Ideal) V c).flushed 5 t = ((cfg0.win 5).blk t).view.read (Elt Ideal) (nbAll V c) := by
  show (cfg0.win 5).cut (grid0.coords t) ((dat0 (F := Ideal) V c).after 5 t) = _
  rw [after0_5]
  unfold out0_5
  rw [View.canon_unit_zero hz]
  simp only [View.ld_unit_zero (S := S1024x256) hz, View.ld_unit_zero (S := S256x128) hz, View.ld_unit_zero (S := S1x128) hz]
  obtain ⟨-, -, -, -, -, -, -, -, -, -, e0, e1, -⟩ := idx_facts t
  funext j
  show k0_pay2 (F := Ideal) (iblk0 V c 0 t) (iblk0 V c 1 t) (iblk0 V c 2 t) j = nbAll V c (((cfg0.win 5).blk t).view.emb j)
  refine nb_block V c t j _ ?_ ?_
  · show win0_5.index t (0 : Fin 2) * 1024 + 1 * (j 0).val = 1024 * t.val + (j 0).val
    rw [e0]; omega
  · show win0_5.index t (1 : Fin 2) * 128 + 1 * (j 1).val = (j 1).val
    rw [e1]; omega

/-- What point `t` writes back to the self-feature array is block `t` of `selfAll`. -/
theorem self_flushed_eq (c : Dev nD) (t : Fin cfg0.N) :
    (dat0 (F := Ideal) V c).flushed 6 t = ((cfg0.win 6).blk t).view.read (Elt Ideal) (selfAll V c) := by
  show (cfg0.win 6).cut (grid0.coords t) ((dat0 (F := Ideal) V c).after 6 t) = _
  rw [after0_6]
  unfold out0_6
  rw [View.canon_unit_zero hz]
  simp only [View.ld_unit_zero (S := S1024x256) hz, View.ld_unit_zero (S := S256x128) hz, View.ld_unit_zero (S := S1x128) hz]
  obtain ⟨-, -, -, -, -, -, -, -, -, -, -, -, e0, e1⟩ := idx_facts t
  funext j
  show k0_pay3 (F := Ideal) (iblk0 V c 0 t) (iblk0 V c 3 t) (iblk0 V c 4 t) j = selfAll V c (((cfg0.win 6).blk t).view.emb j)
  refine self_block V c t j _ ?_ ?_
  · show win0_6.index t (0 : Fin 2) * 1024 + 1 * (j 0).val = 1024 * t.val + (j 0).val
    rw [e0]; omega
  · show win0_6.index t (1 : Fin 2) * 128 + 1 * (j 1).val = (j 1).val
    rw [e1]; omega

/-- An index of the array is in point `t`'s block iff each coordinate is in the block's range. -/
theorem nb_mem_blk (t : Fin cfg0.N) (i : S50176x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v3_0).slice (win0_5.rect t)).set ↔ _
  rw [View.set_slice_whole, Rect.mem_set_unit]
  exact Iff.rfl
theorem self_mem_blk (t : Fin cfg0.N) (i : S50176x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v3_1).slice (win0_6.rect t)).set ↔ _
  rw [View.set_slice_whole, Rect.mem_set_unit]
  exact Iff.rfl

/-- Row `r` is in the block of point `r / 1024`: the 49 blocks of 1024 rows fill the array. -/
theorem nb_cover (i : S50176x128.Idx) :
    ∃ t : Fin cfg0.N, (cfg0.win 5).flush t = true ∧ i ∈ ((cfg0.win 5).blk t).view.set := by
  have hi0 : (i 0).val < 50176 := (i 0).isLt
  have hi1 : (i 1).val < 128 := (i 1).isLt
  have hN : cfg0.N = 49 := N_0
  let t : Fin cfg0.N := ⟨(i 0).val / 1024, by rw [hN]; omega⟩
  obtain ⟨-, -, -, -, -, -, -, -, -, -, e0, e1, -⟩ := idx_facts t
  have ht : t.val = (i 0).val / 1024 := rfl
  refine ⟨t, flush0_5 t, ?_⟩
  rw [nb_mem_blk]
  intro a
  match a with
  | ⟨0, _⟩ => show win0_5.index t (0 : Fin 2) * 1024 ≤ (i 0).val ∧ (i 0).val < win0_5.index t (0 : Fin 2) * 1024 + 1024; rw [e0, ht]; omega
  | ⟨1, _⟩ => show win0_5.index t (1 : Fin 2) * 128 ≤ (i 1).val ∧ (i 1).val < win0_5.index t (1 : Fin 2) * 128 + 128; rw [e1]; omega
theorem self_cover (i : S50176x128.Idx) :
    ∃ t : Fin cfg0.N, (cfg0.win 6).flush t = true ∧ i ∈ ((cfg0.win 6).blk t).view.set := by
  have hi0 : (i 0).val < 50176 := (i 0).isLt
  have hi1 : (i 1).val < 128 := (i 1).isLt
  have hN : cfg0.N = 49 := N_0
  let t : Fin cfg0.N := ⟨(i 0).val / 1024, by rw [hN]; omega⟩
  obtain ⟨-, -, -, -, -, -, -, -, -, -, -, -, e0, e1⟩ := idx_facts t
  have ht : t.val = (i 0).val / 1024 := rfl
  refine ⟨t, flush0_6 t, ?_⟩
  rw [self_mem_blk]
  intro a
  match a with
  | ⟨0, _⟩ => show win0_6.index t (0 : Fin 2) * 1024 ≤ (i 0).val ∧ (i 0).val < win0_6.index t (0 : Fin 2) * 1024 + 1024; rw [e0, ht]; omega
  | ⟨1, _⟩ => show win0_6.index t (1 : Fin 2) * 128 ≤ (i 1).val ∧ (i 1).val < win0_6.index t (1 : Fin 2) * 128 + 128; rw [e1]; omega

/-- The neighbour-feature array after the region is `nbAll`. -/
theorem nb_final (c : Dev nD) : hnbArr V c = nbAll V c :=
  (dat0 (F := Ideal) V c).arrAt_eq_of_cover 5 (nbAll V c) (fun t _ => nb_flushed_eq V c t) nb_cover
/-- The self-feature array after the region is `selfAll`. -/
theorem self_final (c : Dev nD) : hselfArr V c = selfAll V c :=
  (dat0 (F := Ideal) V c).arrAt_eq_of_cover 6 (selfAll V c) (fun t _ => self_flushed_eq V c t) self_cover

/-- Entry `(p, q)` of the neighbour-feature array. -/
theorem hnb_at (c : Dev nD) (p : Fin 50176) (q : Fin 128) :
    hnbArr V c (ix2 p q)
      = EdgeGate.dense (fun k => xpadArr V c (ix2 p k)) (fun k j => wnbArr V c (ix2 k j)) (fun j => bnbArr V c (ix2 (0 : Fin 1) j)) q := by
  rw [nb_final]

/-- Entry `(p, q)` of the self-feature array. -/
theorem hself_at (c : Dev nD) (p : Fin 50176) (q : Fin 128) :
    hselfArr V c (ix2 p q)
      = EdgeGate.dense (fun k => xpadArr V c (ix2 p k)) (fun k j => wselfArr V c (ix2 k j)) (fun j => bselfArr V c (ix2 (0 : Fin 1) j)) q := by
  rw [self_final]

end Cert.KernelIdeal.NodeFeat

end
-- ==== Proof.HostIn.lean ====
/-
  The arrays the two pallas_calls find, read back through the host operations before them to the
  argument arrays: the node table padded with zero rows, the two bias vectors as one-row matrices,
  the edge arrays as padded columns, the attention weights' two halves as rows, the bias as a 1×1
  matrix; and the second call's two feature tables are what the first call left.
-/
import proofs.«126882_j54185307407141_1_alg».proof.Proof.Gen.KernelIdeal.Frame
import proofs.«126882_j54185307407141_1_alg».proof.Proof.Spec
import proofs.«126882_j54185307407141_1_alg».proof.Proof.NodeFeat
import proofs.«126882_j54185307407141_1_alg».proof.Proof.EdgeBlock
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

namespace Cert.KernelIdeal.HostIn

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The eleven argument arrays at launch, at their literal types. -/
abbrev aX (c : Dev nD) : FVec Ideal S50000x256 .f32 := m ((c : Thread nD τ).loc main_arg0)
abbrev aWnb (c : Dev nD) : FVec Ideal S256x128 .f32 := m ((c : Thread nD τ).loc main_arg1)
abbrev aBnb (c : Dev nD) : FVec Ideal S128 .f32 := m ((c : Thread nD τ).loc main_arg2)
abbrev aWself (c : Dev nD) : FVec Ideal S256x128 .f32 := m ((c : Thread nD τ).loc main_arg3)
abbrev aBself (c : Dev nD) : FVec Ideal S128 .f32 := m ((c : Thread nD τ).loc main_arg4)
abbrev aWatt (c : Dev nD) : FVec Ideal S256x1 .f32 := m ((c : Thread nD τ).loc main_arg5)
abbrev aBatt (c : Dev nD) : FVec Ideal S1 .f32 := m ((c : Thread nD τ).loc main_arg6)
abbrev aVal (c : Dev nD) : FVec Ideal S800000 .f32 := m ((c : Thread nD τ).loc main_arg7)
abbrev aNoise (c : Dev nD) : FVec Ideal S800000x1 .f32 := m ((c : Thread nD τ).loc main_arg8)
abbrev aRow (c : Dev nD) : IVec S800000 32 := m ((c : Thread nD τ).loc main_arg9)
abbrev aCol (c : Dev nD) : IVec S800000 32 := m ((c : Thread nD τ).loc main_arg10)

/-- One stretch of host operations leaves a buffer it does not write as it was. -/
local macro "skip_stretch" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## One stretch of host operations, from any contents -/

section Stretches
variable (V : Valuation τ sig (Elt Ideal))

/-- The integer zero the first stretch leaves. -/
theorem s0_c : (StableHlo.after (hostOps0 (F := Ideal)) V (Proc.devRef .tc main_c) : IVec S_ 32) = constantI S_ 32 0#32 := by
  after_results <;> rfl

/-- The padded node table: the table with 176 rows of the converted zero behind it. -/
theorem s0_1_v0 : (StableHlo.after (hostOps0_1 (F := Ideal)) V (Proc.devRef .tc main_v0) : FVec Ideal S50176x256 .f32)
    = pad S50176x256 ![0, 0] ![176, 0] ![0, 0] (V (Proc.devRef .tc main_arg0) : FVec Ideal S50000x256 .f32)
        (sitofp .f32 (V (Proc.devRef .tc main_c) : IVec S_ 32) : FVec Ideal S_ .f32) pads_S50000x256_S50176x256_01760_000 h_S_ := by
  after_results <;> rfl

/-- The neighbour bias as a one-row matrix. -/
theorem s0_2_v1 : (StableHlo.after (hostOps0_2 (F := Ideal)) V (Proc.devRef .tc main_v1) : FVec Ideal S1x128 .f32)
    = shapeCast S1x128 (V (Proc.devRef .tc main_arg2) : FVec Ideal S128 .f32) shapeCasts_S128_S1x128 := by
  after_results <;> rfl

/-- The self bias as a one-row matrix. -/
theorem s0_2_v2 : (StableHlo.after (hostOps0_2 (F := Ideal)) V (Proc.devRef .tc main_v2) : FVec Ideal S1x128 .f32)
    = shapeCast S1x128 (V (Proc.devRef .tc main_arg4) : FVec Ideal S128 .f32) shapeCasts_S128_S1x128 := by
  after_results <;> rfl

end Stretches

/-- The node table is as launched when it is padded. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by skip_stretch hostOps0
    _ = m ((c : Thread nD τ).loc main_arg0) := rfl

/-- The neighbour weights are as launched at the first call. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by skip_stretch hostOps0_2
    _ = W1 m ρ c (Proc.devRef .tc main_arg1) := by skip_stretch hostOps0_1
    _ = W0 m ρ c (Proc.devRef .tc main_arg1) := by skip_stretch hostOps0
    _ = m ((c : Thread nD τ).loc main_arg1) := rfl

/-- The neighbour bias is as launched when it is reshaped. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := by skip_stretch hostOps0_1
    _ = W0 m ρ c (Proc.devRef .tc main_arg2) := by skip_stretch hostOps0
    _ = m ((c : Thread nD τ).loc main_arg2) := rfl

/-- The self weights are as launched at the first call. -/
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by skip_stretch hostOps0_2
    _ = W1 m ρ c (Proc.devRef .tc main_arg3) := by skip_stretch hostOps0_1
    _ = W0 m ρ c (Proc.devRef .tc main_arg3) := by skip_stretch hostOps0
    _ = m ((c : Thread nD τ).loc main_arg3) := rfl

/-- The self bias is as launched when it is reshaped. -/
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := by skip_stretch hostOps0_1
    _ = W0 m ρ c (Proc.devRef .tc main_arg4) := by skip_stretch hostOps0
    _ = m ((c : Thread nD τ).loc main_arg4) := rfl

/-- The padded table is not written after the pad. -/
theorem W3_v0 (c : Dev nD) : W3 m ρ c (Proc.devRef .tc main_v0) = W2 m ρ c (Proc.devRef .tc main_v0) :=
  calc W3 m ρ c (Proc.devRef .tc main_v0)
    _ = W2 m ρ c (Proc.devRef .tc main_v0) := by skip_stretch hostOps0_2

/-- The first call's node table, whole: the launched table with 176 rows of the converted integer zero behind it. -/
theorem xpad_eq (c : Dev nD) : NodeFeat.xpadArr (V3 m ρ) c
    = pad S50176x256 ![0, 0] ![176, 0] ![0, 0] (m ((c : Thread nD τ).loc main_arg0) : FVec Ideal S50000x256 .f32)
        (sitofp .f32 (constantI S_ 32 0#32) : FVec Ideal S_ .f32) pads_S50000x256_S50176x256_01760_000 h_S_ := by
  show W3 m ρ c (Proc.devRef .tc main_v0) = _
  rw [W3_v0 m ρ c]
  show StableHlo.after (hostOps0_1 (F := Ideal)) (W1 m ρ c) (Proc.devRef .tc main_v0) = _
  rw [s0_1_v0, W1_arg0 m ρ c]
  have hc : (W1 m ρ c (Proc.devRef .tc main_c) : IVec S_ 32) = constantI S_ 32 0#32 := s0_c (W0 m ρ c)
  rw [hc]

/-- The value the pad fills with is zero. -/
theorem padv_zero (i : S_.Idx) : (sitofp .f32 (constantI S_ 32 0#32) : FVec Ideal S_ .f32) i = 0 := sitofp_zero

/-- The first call's neighbour bias, whole: the launched vector as a one-row matrix. -/
theorem bnb_eq (c : Dev nD) : NodeFeat.bnbArr (V3 m ρ) c
    = shapeCast S1x128 (m ((c : Thread nD τ).loc main_arg2) : FVec Ideal S128 .f32) shapeCasts_S128_S1x128 := by
  show StableHlo.after (hostOps0_2 (F := Ideal)) (W2 m ρ c) (Proc.devRef .tc main_v1) = _
  rw [s0_2_v1, W2_arg2 m ρ c]

/-- The first call's self bias, whole: the launched vector as a one-row matrix. -/
theorem bself_eq (c : Dev nD) : NodeFeat.bselfArr (V3 m ρ) c
    = shapeCast S1x128 (m ((c : Thread nD τ).loc main_arg4) : FVec Ideal S128 .f32) shapeCasts_S128_S1x128 := by
  show StableHlo.after (hostOps0_2 (F := Ideal)) (W2 m ρ c) (Proc.devRef .tc main_v2) = _
  rw [s0_2_v2, W2_arg4 m ρ c]

/-- A vector as a one-row matrix, read at a column. -/
theorem row_of_vec {n : Nat} (x : (⟨1, ![n]⟩ : Shape).Idx → EReal) (h : (⟨1, ![n]⟩ : Shape).ShapeCasts ⟨2, ![1, n]⟩) (j : Fin n) :
    shapeCast (⟨2, ![1, n]⟩ : Shape) x h (ix2 (0 : Fin 1) j) = x (ix1 j) :=
  shapeCast_apply x h (ix2 (0 : Fin 1) j) (ix1 j) (by
    rw [Shape.rowMajor_val_one, Shape.rowMajor_val_two]
    show j.val = 0 * n + j.val
    omega)

/-! ## What the first call finds -/

theorem xpad_at (c : Dev nD) (p : Fin 50176) (k : Fin 256) :
    NodeFeat.xpadArr (V3 m ρ) c (ix2 p k) = EdgeGate.padRows (fun n k => aX m c (ix2 n k)) p k := by
  rw [xpad_eq m ρ c]
  unfold EdgeGate.padRows
  by_cases h : p.val < 50000
  · rw [dif_pos h]
    exact pad_apply_of_inside _ _ _ _ _ _ _ (ix2 p k) (ix2 ⟨p.val, h⟩ k) (fun a => match a with
      | ⟨0, _⟩ => by show p.val = 0 + p.val * (0 + 1); omega
      | ⟨1, _⟩ => by show k.val = 0 + k.val * (0 + 1); omega)
  · rw [dif_neg h]
    refine (pad_apply_of_not_inside _ _ _ _ _ _ _ (ix2 p k) (0 : Fin 2) ?_).trans (padv_zero _)
    show ¬(0 ≤ p.val ∧ (p.val - 0) % (0 + 1) = 0 ∧ (p.val - 0) / (0 + 1) < 50000)
    omega
theorem wnb_eq (c : Dev nD) : NodeFeat.wnbArr (V3 m ρ) c = aWnb m c := by
  show W3 m ρ c (Proc.devRef .tc main_arg1) = _
  exact W3_arg1 m ρ c
theorem bnb_at (c : Dev nD) (j : Fin 128) : NodeFeat.bnbArr (V3 m ρ) c (ix2 (0 : Fin 1) j) = aBnb m c (ix1 j) := by
  rw [bnb_eq m ρ c]
  exact row_of_vec _ _ j
theorem wself_eq (c : Dev nD) : NodeFeat.wselfArr (V3 m ρ) c = aWself m c := by
  show W3 m ρ c (Proc.devRef .tc main_arg3) = _
  exact W3_arg3 m ρ c
theorem bself_at (c : Dev nD) (j : Fin 128) : NodeFeat.bselfArr (V3 m ρ) c (ix2 (0 : Fin 1) j) = aBself m c (ix1 j) := by
  rw [bself_eq m ρ c]
  exact row_of_vec _ _ j

/-! ## One stretch of host operations before the second call, from any contents -/

section Stretches1
variable (V : Valuation τ sig (Elt Ideal))

/-- The row indices as a column. -/
theorem s1_v4 : (StableHlo.after (hostOps1 (F := Ideal)) V (Proc.devRef .tc main_v4) : IVec S800000x1 32)
    = broadcastInDim S800000x1 ![0] bcast_S800000_S800000x1_0 (V (Proc.devRef .tc main_arg9) : IVec S800000 32) := by
  after_results <;> rfl

/-- The row column with 256 rows behind it. -/
theorem s1_1_v5 : (StableHlo.after (hostOps1_1 (F := Ideal)) V (Proc.devRef .tc main_v5) : IVec S800256x1 32)
    = pad S800256x1 ![0, 0] ![256, 0] ![0, 0] (V (Proc.devRef .tc main_v4) : IVec S800000x1 32) (V (Proc.devRef .tc main_c_0) : IVec S_ 32) pads_S800000x1_S800256x1_02560_000 h_S_ := by
  after_results <;> rfl

/-- The column indices as a column. -/
theorem s1_2_v6 : (StableHlo.after (hostOps1_2 (F := Ideal)) V (Proc.devRef .tc main_v6) : IVec S800000x1 32)
    = broadcastInDim S800000x1 ![0] bcast_S800000_S800000x1_0 (V (Proc.devRef .tc main_arg10) : IVec S800000 32) := by
  after_results <;> rfl

/-- The column column with 256 rows behind it. -/
theorem s1_3_v7 : (StableHlo.after (hostOps1_3 (F := Ideal)) V (Proc.devRef .tc main_v7) : IVec S800256x1 32)
    = pad S800256x1 ![0, 0] ![256, 0] ![0, 0] (V (Proc.devRef .tc main_v6) : IVec S800000x1 32) (V (Proc.devRef .tc main_c_1) : IVec S_ 32) pads_S800000x1_S800256x1_02560_000 h_S_ := by
  after_results <;> rfl

/-- The edge values as a column. -/
theorem s1_4_v8 : (StableHlo.after (hostOps1_4 (F := Ideal)) V (Proc.devRef .tc main_v8) : FVec Ideal S800000x1 .f32)
    = broadcastInDim S800000x1 ![0] bcast_S800000_S800000x1_0 (V (Proc.devRef .tc main_arg7) : FVec Ideal S800000 .f32) := by
  after_results <;> rfl

/-- The value column with 256 rows behind it. -/
theorem s1_5_v9 : (StableHlo.after (hostOps1_5 (F := Ideal)) V (Proc.devRef .tc main_v9) : FVec Ideal S800256x1 .f32)
    = pad S800256x1 ![0, 0] ![256, 0] ![0, 0] (V (Proc.devRef .tc main_v8) : FVec Ideal S800000x1 .f32) (sitofp .f32 (V (Proc.devRef .tc main_c_2) : IVec S_ 32) : FVec Ideal S_ .f32) pads_S800000x1_S800256x1_02560_000 h_S_ := by
  after_results <;> rfl

/-- The noise column with 256 rows behind it. -/
theorem s1_7_v10 : (StableHlo.after (hostOps1_7 (F := Ideal)) V (Proc.devRef .tc main_v10) : FVec Ideal S800256x1 .f32)
    = pad S800256x1 ![0, 0] ![256, 0] ![0, 0] (V (Proc.devRef .tc main_arg8) : FVec Ideal S800000x1 .f32) (sitofp .f32 (V (Proc.devRef .tc main_c_3) : IVec S_ 32) : FVec Ideal S_ .f32) pads_S800000x1_S800256x1_02560_000 h_S_ := by
  after_results <;> rfl

/-- The first half of the attention weights as a one-row matrix. -/
theorem s1_8_v12 : (StableHlo.after (hostOps1_8 (F := Ideal)) V (Proc.devRef .tc main_v12) : FVec Ideal S1x128 .f32)
    = shapeCast S1x128 (extractStridedSlice S128x1 ![0, 0] (V (Proc.devRef .tc main_arg5) : FVec Ideal S256x1 .f32) slices_S256x1_S128x1_0_0) shapeCasts_S128x1_S1x128 := by
  after_results <;> rfl

/-- The second half of the attention weights as a one-row matrix. -/
theorem s1_8_v14 : (StableHlo.after (hostOps1_8 (F := Ideal)) V (Proc.devRef .tc main_v14) : FVec Ideal S1x128 .f32)
    = shapeCast S1x128 (extractStridedSlice S128x1 ![128, 0] (V (Proc.devRef .tc main_arg5) : FVec Ideal S256x1 .f32) slices_S256x1_S128x1_128_0) shapeCasts_S128x1_S1x128 := by
  after_results <;> rfl

/-- The attention bias as a 1×1 matrix. -/
theorem s1_8_v15 : (StableHlo.after (hostOps1_8 (F := Ideal)) V (Proc.devRef .tc main_v15) : FVec Ideal S1x1 .f32)
    = shapeCast S1x1 (V (Proc.devRef .tc main_arg6) : FVec Ideal S1 .f32) shapeCasts_S1_S1x1 := by
  after_results <;> rfl

end Stretches1

/-- The row indices are as launched when they are made a column. -/
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by skip_stretch hostOps0_2
    _ = W1 m ρ c (Proc.devRef .tc main_arg9) := by skip_stretch hostOps0_1
    _ = W0 m ρ c (Proc.devRef .tc main_arg9) := by skip_stretch hostOps0
    _ = m ((c : Thread nD τ).loc main_arg9) := rfl

/-- The column indices are as launched when they are made a column. -/
theorem W6_arg10 (c : Dev nD) : W6 m ρ c (Proc.devRef .tc main_arg10) = m ((c : Thread nD τ).loc main_arg10) :=
  calc W6 m ρ c (Proc.devRef .tc main_arg10)
    _ = W5 m ρ c (Proc.devRef .tc main_arg10) := by skip_stretch hostOps1_1
    _ = W4 m ρ c (Proc.devRef .tc main_arg10) := by skip_stretch hostOps1
    _ = W3 m ρ c (Proc.devRef .tc main_arg10) := W4_of_ne m ρ c main_arg10 (by decide)
    _ = W2 m ρ c (Proc.devRef .tc main_arg10) := by skip_stretch hostOps0_2
    _ = W1 m ρ c (Proc.devRef .tc main_arg10) := by skip_stretch hostOps0_1
    _ = W0 m ρ c (Proc.devRef .tc main_arg10) := by skip_stretch hostOps0
    _ = m ((c : Thread nD τ).loc main_arg10) := rfl

/-- The edge values are as launched when they are made a column. -/
theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := by skip_stretch hostOps1_3
    _ = W6 m ρ c (Proc.devRef .tc main_arg7) := by skip_stretch hostOps1_2
    _ = W5 m ρ c (Proc.devRef .tc main_arg7) := by skip_stretch hostOps1_1
    _ = W4 m ρ c (Proc.devRef .tc main_arg7) := by skip_stretch hostOps1
    _ = W3 m ρ c (Proc.devRef .tc main_arg7) := W4_of_ne m ρ c main_arg7 (by decide)
    _ = W2 m ρ c (Proc.devRef .tc main_arg7) := by skip_stretch hostOps0_2
    _ = W1 m ρ c (Proc.devRef .tc main_arg7) := by skip_stretch hostOps0_1
    _ = W0 m ρ c (Proc.devRef .tc main_arg7) := by skip_stretch hostOps0
    _ = m ((c : Thread nD τ).loc main_arg7) := rfl

/-- The noise is as launched when it is padded. -/
theorem W11_arg8 (c : Dev nD) : W11 m ρ c (Proc.devRef .tc main_arg8) = m ((c : Thread nD τ).loc main_arg8) :=
  calc W11 m ρ c (Proc.devRef .tc main_arg8)
    _ = W10 m ρ c (Proc.devRef .tc main_arg8) := by skip_stretch hostOps1_6
    _ = W9 m ρ c (Proc.devRef .tc main_arg8) := by skip_stretch hostOps1_5
    _ = W8 m ρ c (Proc.devRef .tc main_arg8) := by skip_stretch hostOps1_4
    _ = W7 m ρ c (Proc.devRef .tc main_arg8) := by skip_stretch hostOps1_3
    _ = W6 m ρ c (Proc.devRef .tc main_arg8) := by skip_stretch hostOps1_2
    _ = W5 m ρ c (Proc.devRef .tc main_arg8) := by skip_stretch hostOps1_1
    _ = W4 m ρ c (Proc.devRef .tc main_arg8) := by skip_stretch hostOps1
    _ = W3 m ρ c (Proc.devRef .tc main_arg8) := W4_of_ne m ρ c main_arg8 (by decide)
    _ = W2 m ρ c (Proc.devRef .tc main_arg8) := by skip_stretch hostOps0_2
    _ = W1 m ρ c (Proc.devRef .tc main_arg8) := by skip_stretch hostOps0_1
    _ = W0 m ρ c (Proc.devRef .tc main_arg8) := by skip_stretch hostOps0
    _ = m ((c : Thread nD τ).loc main_arg8) := rfl

/-- The attention weights are as launched when they are cut in two. -/
theorem W12_arg5 (c : Dev nD) : W12 m ρ c (Proc.devRef .tc main_arg5) = m ((c : Thread nD τ).loc main_arg5) :=
  calc W12 m ρ c (Proc.devRef .tc main_arg5)
    _ = W11 m ρ c (Proc.devRef .tc main_arg5) := by skip_stretch hostOps1_7
    _ = W10 m ρ c (Proc.devRef .tc main_arg5) := by skip_stretch hostOps1_6
    _ = W9 m ρ c (Proc.devRef .tc main_arg5) := by skip_stretch hostOps1_5
    _ = W8 m ρ c (Proc.devRef .tc main_arg5) := by skip_stretch hostOps1_4
    _ = W7 m ρ c (Proc.devRef .tc main_arg5) := by skip_stretch hostOps1_3
    _ = W6 m ρ c (Proc.devRef .tc main_arg5) := by skip_stretch hostOps1_2
    _ = W5 m ρ c (Proc.devRef .tc main_arg5) := by skip_stretch hostOps1_1
    _ = W4 m ρ c (Proc.devRef .tc main_arg5) := by skip_stretch hostOps1
    _ = W3 m ρ c (Proc.devRef .tc main_arg5) := W4_of_ne m ρ c main_arg5 (by decide)
    _ = W2 m ρ c (Proc.devRef .tc main_arg5) := by skip_stretch hostOps0_2
    _ = W1 m ρ c (Proc.devRef .tc main_arg5) := by skip_stretch hostOps0_1
    _ = W0 m ρ c (Proc.devRef .tc main_arg5) := by skip_stretch hostOps0
    _ = m ((c : Thread nD τ).loc main_arg5) := rfl

/-- The attention bias is as launched when it is reshaped. -/
theorem W12_arg6 (c : Dev nD) : W12 m ρ c (Proc.devRef .tc main_arg6) = m ((c : Thread nD τ).loc main_arg6) :=
  calc W12 m ρ c (Proc.devRef .tc main_arg6)
    _ = W11 m ρ c (Proc.devRef .tc main_arg6) := by skip_stretch hostOps1_7
    _ = W10 m ρ c (Proc.devRef .tc main_arg6) := by skip_stretch hostOps1_6
    _ = W9 m ρ c (Proc.devRef .tc main_arg6) := by skip_stretch hostOps1_5
    _ = W8 m ρ c (Proc.devRef .tc main_arg6) := by skip_stretch hostOps1_4
    _ = W7 m ρ c (Proc.devRef .tc main_arg6) := by skip_stretch hostOps1_3
    _ = W6 m ρ c (Proc.devRef .tc main_arg6) := by skip_stretch hostOps1_2
    _ = W5 m ρ c (Proc.devRef .tc main_arg6) := by skip_stretch hostOps1_1
    _ = W4 m ρ c (Proc.devRef .tc main_arg6) := by skip_stretch hostOps1
    _ = W3 m ρ c (Proc.devRef .tc main_arg6) := W4_of_ne m ρ c main_arg6 (by decide)
    _ = W2 m ρ c (Proc.devRef .tc main_arg6) := by skip_stretch hostOps0_2
    _ = W1 m ρ c (Proc.devRef .tc main_arg6) := by skip_stretch hostOps0_1
    _ = W0 m ρ c (Proc.devRef .tc main_arg6) := by skip_stretch hostOps0
    _ = m ((c : Thread nD τ).loc main_arg6) := rfl

/-- The padded row column is not written after its pad. -/
theorem W13_v5 (c : Dev nD) : W13 m ρ c (Proc.devRef .tc main_v5) = W6 m ρ c (Proc.devRef .tc main_v5) :=
  calc W13 m ρ c (Proc.devRef .tc main_v5)
    _ = W12 m ρ c (Proc.devRef .tc main_v5) := by skip_stretch hostOps1_8
    _ = W11 m ρ c (Proc.devRef .tc main_v5) := by skip_stretch hostOps1_7
    _ = W10 m ρ c (Proc.devRef .tc main_v5) := by skip_stretch hostOps1_6
    _ = W9 m ρ c (Proc.devRef .tc main_v5) := by skip_stretch hostOps1_5
    _ = W8 m ρ c (Proc.devRef .tc main_v5) := by skip_stretch hostOps1_4
    _ = W7 m ρ c (Proc.devRef .tc main_v5) := by skip_stretch hostOps1_3
    _ = W6 m ρ c (Proc.devRef .tc main_v5) := by skip_stretch hostOps1_2

/-- The padded column column is not written after its pad. -/
theorem W13_v7 (c : Dev nD) : W13 m ρ c (Proc.devRef .tc main_v7) = W8 m ρ c (Proc.devRef .tc main_v7) :=
  calc W13 m ρ c (Proc.devRef .tc main_v7)
    _ = W12 m ρ c (Proc.devRef .tc main_v7) := by skip_stretch hostOps1_8
    _ = W11 m ρ c (Proc.devRef .tc main_v7) := by skip_stretch hostOps1_7
    _ = W10 m ρ c (Proc.devRef .tc main_v7) := by skip_stretch hostOps1_6
    _ = W9 m ρ c (Proc.devRef .tc main_v7) := by skip_stretch hostOps1_5
    _ = W8 m ρ c (Proc.devRef .tc main_v7) := by skip_stretch hostOps1_4

/-- The padded value column is not written after its pad. -/
theorem W13_v9 (c : Dev nD) : W13 m ρ c (Proc.devRef .tc main_v9) = W10 m ρ c (Proc.devRef .tc main_v9) :=
  calc W13 m ρ c (Proc.devRef .tc main_v9)
    _ = W12 m ρ c (Proc.devRef .tc main_v9) := by skip_stretch hostOps1_8
    _ = W11 m ρ c (Proc.devRef .tc main_v9) := by skip_stretch hostOps1_7
    _ = W10 m ρ c (Proc.devRef .tc main_v9) := by skip_stretch hostOps1_6

/-- The padded noise column is not written after its pad. -/
theorem W13_v10 (c : Dev nD) : W13 m ρ c (Proc.devRef .tc main_v10) = W12 m ρ c (Proc.devRef .tc main_v10) :=
  calc W13 m ρ c (Proc.devRef .tc main_v10)
    _ = W12 m ρ c (Proc.devRef .tc main_v10) := by skip_stretch hostOps1_8

/-- The neighbour features are not written between the two calls. -/
theorem W13_v3_0 (c : Dev nD) : W13 m ρ c (Proc.devRef .tc main_v3_0) = W4 m ρ c (Proc.devRef .tc main_v3_0) :=
  calc W13 m ρ c (Proc.devRef .tc main_v3_0)
    _ = W12 m ρ c (Proc.devRef .tc main_v3_0) := by skip_stretch hostOps1_8
    _ = W11 m ρ c (Proc.devRef .tc main_v3_0) := by skip_stretch hostOps1_7
    _ = W10 m ρ c (Proc.devRef .tc main_v3_0) := by skip_stretch hostOps1_6
    _ = W9 m ρ c (Proc.devRef .tc main_v3_0) := by skip_stretch hostOps1_5
    _ = W8 m ρ c (Proc.devRef .tc main_v3_0) := by skip_stretch hostOps1_4
    _ = W7 m ρ c (Proc.devRef .tc main_v3_0) := by skip_stretch hostOps1_3
    _ = W6 m ρ c (Proc.devRef .tc main_v3_0) := by skip_stretch hostOps1_2
    _ = W5 m ρ c (Proc.devRef .tc main_v3_0) := by skip_stretch hostOps1_1
    _ = W4 m ρ c (Proc.devRef .tc main_v3_0) := by skip_stretch hostOps1

/-- The self features are not written between the two calls. -/
theorem W13_v3_1 (c : Dev nD) : W13 m ρ c (Proc.devRef .tc main_v3_1) = W4 m ρ c (Proc.devRef .tc main_v3_1) :=
  calc W13 m ρ c (Proc.devRef .tc main_v3_1)
    _ = W12 m ρ c (Proc.devRef .tc main_v3_1) := by skip_stretch hostOps1_8
    _ = W11 m ρ c (Proc.devRef .tc main_v3_1) := by skip_stretch hostOps1_7
    _ = W10 m ρ c (Proc.devRef .tc main_v3_1) := by skip_stretch hostOps1_6
    _ = W9 m ρ c (Proc.devRef .tc main_v3_1) := by skip_stretch hostOps1_5
    _ = W8 m ρ c (Proc.devRef .tc main_v3_1) := by skip_stretch hostOps1_4
    _ = W7 m ρ c (Proc.devRef .tc main_v3_1) := by skip_stretch hostOps1_3
    _ = W6 m ρ c (Proc.devRef .tc main_v3_1) := by skip_stretch hostOps1_2
    _ = W5 m ρ c (Proc.devRef .tc main_v3_1) := by skip_stretch hostOps1_1
    _ = W4 m ρ c (Proc.devRef .tc main_v3_1) := by skip_stretch hostOps1

/-! ## The layout operations read at an index -/

/-- A column padded behind with 256 rows, read at one of its own rows. -/
theorem padcol_at {α : Type} (x : S800000x1.Idx → α) {u : Shape} (v : u.Idx → α)
    (h : S800000x1.Pads ![0, 0] ![256, 0] ![0, 0] S800256x1) (hu : 0 < u.numel) (e : Fin 800000) :
    pad S800256x1 ![0, 0] ![256, 0] ![0, 0] x v h hu (ix2 (Fin.castLE (by decide : 800000 ≤ 800256) e) (0 : Fin 1)) = x (ix2 e (0 : Fin 1)) :=
  pad_apply_of_inside _ _ _ x v h hu _ (ix2 e (0 : Fin 1)) (fun a => match a with
    | ⟨0, _⟩ => by show e.val = 0 + e.val * (0 + 1); omega
    | ⟨1, _⟩ => by show (0 : ℕ) = 0 + 0 * (0 + 1); omega)

/-- A vector made a column, read at a row. -/
theorem col_of_vec {α : Type} (x : S800000.Idx → α) (h : S800000.BroadcastsInDim S800000x1 ![0]) (e : Fin 800000) :
    broadcastInDim S800000x1 ![0] h x (ix2 e (0 : Fin 1)) = x (ix1 e) :=
  broadcastInDim_apply ![0] h x (ix2 e (0 : Fin 1)) (ix1 e) (fun a => match a with
    | ⟨0, _⟩ => by
      show e.val = if (800000 : ℕ) = 1 then 0 else e.val
      rw [if_neg (by decide)])

/-- The second call's row indices, whole: the launched vector as a column, 256 rows behind it. -/
theorem row_eq (c : Dev nD) : EdgeBlock.rowArr (V13 m ρ) c
    = pad S800256x1 ![0, 0] ![256, 0] ![0, 0] (broadcastInDim S800000x1 ![0] bcast_S800000_S800000x1_0 (m ((c : Thread nD τ).loc main_arg9) : IVec S800000 32)) (W5 m ρ c (Proc.devRef .tc main_c_0) : IVec S_ 32) pads_S800000x1_S800256x1_02560_000 h_S_ := by
  show W13 m ρ c (Proc.devRef .tc main_v5) = _
  rw [W13_v5 m ρ c]
  show StableHlo.after (hostOps1_1 (F := Ideal)) (W5 m ρ c) (Proc.devRef .tc main_v5) = _
  rw [s1_1_v5]
  have h4 : (W5 m ρ c (Proc.devRef .tc main_v4) : IVec S800000x1 32)
      = broadcastInDim S800000x1 ![0] bcast_S800000_S800000x1_0 (W4 m ρ c (Proc.devRef .tc main_arg9) : IVec S800000 32) := s1_v4 (W4 m ρ c)
  rw [h4, W4_arg9 m ρ c]

/-- The second call's column indices, whole: the launched vector as a column, 256 rows behind it. -/
theorem col_eq (c : Dev nD) : EdgeBlock.colArr (V13 m ρ) c
    = pad S800256x1 ![0, 0] ![256, 0] ![0, 0] (broadcastInDim S800000x1 ![0] bcast_S800000_S800000x1_0 (m ((c : Thread nD τ).loc main_arg10) : IVec S800000 32)) (W7 m ρ c (Proc.devRef .tc main_c_1) : IVec S_ 32) pads_S800000x1_S800256x1_02560_000 h_S_ := by
  show W13 m ρ c (Proc.devRef .tc main_v7) = _
  rw [W13_v7 m ρ c]
  show StableHlo.after (hostOps1_3 (F := Ideal)) (W7 m ρ c) (Proc.devRef .tc main_v7) = _
  rw [s1_3_v7]
  have h6 : (W7 m ρ c (Proc.devRef .tc main_v6) : IVec S800000x1 32)
      = broadcastInDim S800000x1 ![0] bcast_S800000_S800000x1_0 (W6 m ρ c (Proc.devRef .tc main_arg10) : IVec S800000 32) := s1_2_v6 (W6 m ρ c)
  rw [h6, W6_arg10 m ρ c]

/-- The second call's edge values, whole: the launched vector as a column, 256 rows behind it. -/
theorem val_eq (c : Dev nD) : EdgeBlock.valArr (V13 m ρ) c
    = pad S800256x1 ![0, 0] ![256, 0] ![0, 0] (broadcastInDim S800000x1 ![0] bcast_S800000_S800000x1_0 (m ((c : Thread nD τ).loc main_arg7) : FVec Ideal S800000 .f32)) (sitofp .f32 (W9 m ρ c (Proc.devRef .tc main_c_2) : IVec S_ 32) : FVec Ideal S_ .f32) pads_S800000x1_S800256x1_02560_000 h_S_ := by
  show W13 m ρ c (Proc.devRef .tc main_v9) = _
  rw [W13_v9 m ρ c]
  show StableHlo.after (hostOps1_5 (F := Ideal)) (W9 m ρ c) (Proc.devRef .tc main_v9) = _
  rw [s1_5_v9]
  have h8 : (W9 m ρ c (Proc.devRef .tc main_v8) : FVec Ideal S800000x1 .f32)
      = broadcastInDim S800000x1 ![0] bcast_S800000_S800000x1_0 (W8 m ρ c (Proc.devRef .tc main_arg7) : FVec Ideal S800000 .f32) := s1_4_v8 (W8 m ρ c)
  rw [h8, W8_arg7 m ρ c]

/-- The second call's noise, whole: the launched column, 256 rows behind it. -/
theorem noise_eq (c : Dev nD) : EdgeBlock.noiseArr (V13 m ρ) c
    = pad S800256x1 ![0, 0] ![256, 0] ![0, 0] (m ((c : Thread nD τ).loc main_arg8) : FVec Ideal S800000x1 .f32) (sitofp .f32 (W11 m ρ c (Proc.devRef .tc main_c_3) : IVec S_ 32) : FVec Ideal S_ .f32) pads_S800000x1_S800256x1_02560_000 h_S_ := by
  show W13 m ρ c (Proc.devRef .tc main_v10) = _
  rw [W13_v10 m ρ c]
  show StableHlo.after (hostOps1_7 (F := Ideal)) (W11 m ρ c) (Proc.devRef .tc main_v10) = _
  rw [s1_7_v10, W11_arg8 m ρ c]

/-- The second call's first weight row, whole: rows 0 to 128 of the launched weights as a one-row matrix. -/
theorem w1_eq (c : Dev nD) : EdgeBlock.w1Arr (V13 m ρ) c
    = shapeCast S1x128 (extractStridedSlice S128x1 ![0, 0] (m ((c : Thread nD τ).loc main_arg5) : FVec Ideal S256x1 .f32) slices_S256x1_S128x1_0_0) shapeCasts_S128x1_S1x128 := by
  show StableHlo.after (hostOps1_8 (F := Ideal)) (W12 m ρ c) (Proc.devRef .tc main_v12) = _
  rw [s1_8_v12, W12_arg5 m ρ c]

/-- The second call's second weight row, whole: rows 128 to 256 of the launched weights as a one-row matrix. -/
theorem w2_eq (c : Dev nD) : EdgeBlock.w2Arr (V13 m ρ) c
    = shapeCast S1x128 (extractStridedSlice S128x1 ![128, 0] (m ((c : Thread nD τ).loc main_arg5) : FVec Ideal S256x1 .f32) slices_S256x1_S128x1_128_0) shapeCasts_S128x1_S1x128 := by
  show StableHlo.after (hostOps1_8 (F := Ideal)) (W12 m ρ c) (Proc.devRef .tc main_v14) = _
  rw [s1_8_v14, W12_arg5 m ρ c]

/-- The second call's bias, whole: the launched one-entry vector as a 1×1 matrix. -/
theorem ba_eq (c : Dev nD) : EdgeBlock.baArr (V13 m ρ) c
    = shapeCast S1x1 (m ((c : Thread nD τ).loc main_arg6) : FVec Ideal S1 .f32) shapeCasts_S1_S1x1 := by
  show StableHlo.after (hostOps1_8 (F := Ideal)) (W12 m ρ c) (Proc.devRef .tc main_v15) = _
  rw [s1_8_v15, W12_arg6 m ρ c]

/-- A column of 128 rows as a one-row matrix, read at a column. -/
theorem row_of_col {α : Type} (x : S128x1.Idx → α) (h : S128x1.ShapeCasts S1x128) (j : Fin 128) :
    shapeCast S1x128 x h (ix2 (0 : Fin 1) j) = x (ix2 j (0 : Fin 1)) :=
  shapeCast_apply x h (ix2 (0 : Fin 1) j) (ix2 j (0 : Fin 1)) (by
    rw [Shape.rowMajor_val_two, Shape.rowMajor_val_two]
    show j.val * 1 + 0 = 0 * 128 + j.val
    omega)

/-- Rows `o` to `o + 128` of a column of 256, read at a row. -/
theorem half_at {α : Type} (o : ℕ) (ho : o + 128 ≤ 256) (x : S256x1.Idx → α) (h : S256x1.Slices ![o, 0] S128x1) (j : Fin 128) :
    extractStridedSlice S128x1 ![o, 0] x h (ix2 j (0 : Fin 1)) = x (ix2 (⟨o + j.val, by omega⟩ : Fin 256) (0 : Fin 1)) :=
  extractStridedSlice_apply ![o, 0] x h (ix2 j (0 : Fin 1)) _ (fun a => match a with
    | ⟨0, _⟩ => by show o + j.val = o + j.val; rfl
    | ⟨1, _⟩ => by show (0 : ℕ) = 0 + 0; rfl)

/-! ## What the second call finds -/

theorem row_at (c : Dev nD) (e : Fin 800000) :
    EdgeBlock.rowArr (V13 m ρ) c (ix2 (Fin.castLE (by decide : 800000 ≤ 800256) e) (0 : Fin 1)) = aRow m c (ix1 e) := by
  rw [row_eq m ρ c, padcol_at, col_of_vec]
theorem col_at (c : Dev nD) (e : Fin 800000) :
    EdgeBlock.colArr (V13 m ρ) c (ix2 (Fin.castLE (by decide : 800000 ≤ 800256) e) (0 : Fin 1)) = aCol m c (ix1 e) := by
  rw [col_eq m ρ c, padcol_at, col_of_vec]
theorem val_at (c : Dev nD) (e : Fin 800000) :
    EdgeBlock.valArr (V13 m ρ) c (ix2 (Fin.castLE (by decide : 800000 ≤ 800256) e) (0 : Fin 1)) = aVal m c (ix1 e) := by
  rw [val_eq m ρ c, padcol_at, col_of_vec]
theorem noise_at (c : Dev nD) (e : Fin 800000) :
    EdgeBlock.noiseArr (V13 m ρ) c (ix2 (Fin.castLE (by decide : 800000 ≤ 800256) e) (0 : Fin 1)) = aNoise m c (ix2 e (0 : Fin 1)) := by
  rw [noise_eq m ρ c, padcol_at]
theorem hnb_in (c : Dev nD) : EdgeBlock.hnbIn (V13 m ρ) c = NodeFeat.hnbArr (V3 m ρ) c := by
  show W13 m ρ c (Proc.devRef .tc main_v3_0) = _
  rw [W13_v3_0 m ρ c]
  exact W4_arr m ρ c 5
theorem hself_in (c : Dev nD) : EdgeBlock.hselfIn (V13 m ρ) c = NodeFeat.hselfArr (V3 m ρ) c := by
  show W13 m ρ c (Proc.devRef .tc main_v3_1) = _
  rw [W13_v3_1 m ρ c]
  exact W4_arr m ρ c 6
theorem w1_at (c : Dev nD) (j : Fin 128) :
    EdgeBlock.w1Arr (V13 m ρ) c (ix2 (0 : Fin 1) j) = aWatt m c (ix2 (Fin.castLE (by decide : 128 ≤ 256) j) (0 : Fin 1)) := by
  rw [w1_eq m ρ c, row_of_col, half_at 0 (by decide)]
  exact congrArg _ (congrArg (fun i : Fin 256 => ix2 i (0 : Fin 1)) (Fin.ext (by show 0 + j.val = j.val; omega)))
theorem w2_at (c : Dev nD) (j : Fin 128) :
    EdgeBlock.w2Arr (V13 m ρ) c (ix2 (0 : Fin 1) j) = aWatt m c (ix2 (⟨128 + j.val, by omega⟩ : Fin 256) (0 : Fin 1)) := by
  rw [w2_eq m ρ c, row_of_col, half_at 128 (by decide)]
theorem ba_at (c : Dev nD) : EdgeBlock.baArr (V13 m ρ) c (ix2 (0 : Fin 1) (0 : Fin 1)) = aBatt m c (ix1 (0 : Fin 1)) := by
  rw [ba_eq m ρ c]
  exact shapeCast_apply _ _ (ix2 (0 : Fin 1) (0 : Fin 1)) (ix1 (0 : Fin 1)) (by
    rw [Shape.rowMajor_val_one, Shape.rowMajor_val_two]
    show (0 : ℕ) = 0 * 1 + 0
    omega)

end Cert.KernelIdeal.HostIn

end
-- ==== Proof.HostTail.lean ====
/-
  The result buffer at the end of the idealized kernel's @main, read back through the host operations
  after the second pallas_call: it is the shared normalisation of the first 800000 entries of that
  call's output column, with the two index arrays as launched.
-/
import proofs.«126882_j54185307407141_1_alg».proof.Proof.Gen.KernelIdeal.Frame
import proofs.«126882_j54185307407141_1_alg».proof.Proof.Spec
import proofs.«126882_j54185307407141_1_alg».proof.Proof.Tail
import proofs.«126882_j54185307407141_1_alg».proof.Proof.EdgeBlock
import proofs.«126882_j54185307407141_1_alg».proof.Proof.HostIn
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HostTail

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## The two index arrays are still as launched when the second pallas_call has ended: no host operation
    before it and neither pallas_call writes them -/

theorem W14_main_arg9 (c : Dev nD) : W14 m ρ c (Proc.devRef .tc main_arg9) = m ((c : Thread nD τ).loc main_arg9) :=
  calc W14 m ρ c (Proc.devRef .tc main_arg9)
    _ = W13 m ρ c (Proc.devRef .tc main_arg9) := W14_of_ne m ρ c main_arg9 (by decide)
    _ = W12 m ρ c (Proc.devRef .tc main_arg9) := StableHlo.after_of_forall_not_mem (b := Proc.devRef .tc main_arg9) _ _ (List.forall_iff_forall_mem.mp (by
          simp only [hostOps1_8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := StableHlo.after_of_forall_not_mem (b := Proc.devRef .tc main_arg9) _ _ (List.forall_iff_forall_mem.mp (by
          simp only [hostOps1_7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg9) := StableHlo.after_of_forall_not_mem (b := Proc.devRef .tc main_arg9) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := StableHlo.after_of_forall_not_mem (b := Proc.devRef .tc main_arg9) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg9) := StableHlo.after_of_forall_not_mem (b := Proc.devRef .tc main_arg9) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := StableHlo.after_of_forall_not_mem (b := Proc.devRef .tc main_arg9) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := StableHlo.after_of_forall_not_mem (b := Proc.devRef .tc main_arg9) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := StableHlo.after_of_forall_not_mem (b := Proc.devRef .tc main_arg9) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W14_main_arg10 (c : Dev nD) : W14 m ρ c (Proc.devRef .tc main_arg10) = m ((c : Thread nD τ).loc main_arg10) :=
  calc W14 m ρ c (Proc.devRef .tc main_arg10)
    _ = W13 m ρ c (Proc.devRef .tc main_arg10) := W14_of_ne m ρ c main_arg10 (by decide)
    _ = W12 m ρ c (Proc.devRef .tc main_arg10) := StableHlo.after_of_forall_not_mem (b := Proc.devRef .tc main_arg10) _ _ (List.forall_iff_forall_mem.mp (by
          simp only [hostOps1_8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := StableHlo.after_of_forall_not_mem (b := Proc.devRef .tc main_arg10) _ _ (List.forall_iff_forall_mem.mp (by
          simp only [hostOps1_7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg10) := StableHlo.after_of_forall_not_mem (b := Proc.devRef .tc main_arg10) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := StableHlo.after_of_forall_not_mem (b := Proc.devRef .tc main_arg10) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg10) := StableHlo.after_of_forall_not_mem (b := Proc.devRef .tc main_arg10) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := StableHlo.after_of_forall_not_mem (b := Proc.devRef .tc main_arg10) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := StableHlo.after_of_forall_not_mem (b := Proc.devRef .tc main_arg10) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := StableHlo.after_of_forall_not_mem (b := Proc.devRef .tc main_arg10) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- The second pallas_call's output array is what its pipeline leaves. -/
theorem W14_out (c : Dev nD) : W14 m ρ c (Proc.devRef .tc main_v16) = EdgeBlock.mvArr (V13 m ρ) c :=
  W14_arr m ρ c 9

/-- An 800256×1 column without its 256 padding rows, as a vector. -/
abbrev mvOf (out : FVec Ideal S800256x1 .f32) : FVec Ideal S800000 .f32 :=
  shapeCast S800000 (extractStridedSlice S800000x1 ![0, 0] out slices_S800256x1_S800000x1_0_0) shapeCasts_S800000x1_S800000

/-- The masked values the host operations go on with: the output column without its padding rows, as a vector. -/
def mvCol (c : Dev nD) : FVec Ideal S800000 .f32 := mvOf (EdgeBlock.mvArr (V13 m ρ) c)

/-! ## The host operations after the second pallas_call, one stretch at a time, from ANY contents `V` of the buffers

Each stretch's results are stated over the contents it finds, so that no equation here compares two computed arrays. -/

section Stretches
variable (V : Valuation τ sig (Elt Ideal))

/-- The first stretch cuts the padding off the output column. -/
theorem st2_v18 : (StableHlo.after hostOps2 V (Proc.devRef .tc main_v18) : FVec Ideal S800000 .f32) = mvOf (V (Proc.devRef .tc main_v16)) := by
  simp only [hostOps2]
  after_results_simp
  rfl

/-- … and raises the per-node sums of the masked values, plus a small constant, to the power `-1/2`. -/
theorem st2_v25 : (StableHlo.after hostOps2 V (Proc.devRef .tc main_v25) : FVec Ideal S50000 .f32)
    = Host.powf (addf (Host.scatterAdd scatter_S50000_S800000x1_S800000_n_0_0_1 (broadcastInDim S50000 ![] bcast_S_S50000 (constant (F := Ideal) S_ .f32 0x00000000#32))
          (broadcastInDim S800000x1 ![0] bcast_S800000_S800000x1_0 (V (Proc.devRef .tc main_arg9))) (mvOf (V (Proc.devRef .tc main_v16))))
        (broadcastInDim S50000 ![] bcast_S_S50000 (constant (F := Ideal) S_ .f32 0x2EDBE6FF#32)))
      (broadcastInDim S50000 ![] bcast_S_S50000 (constant (F := Ideal) S_ .f32 0xBF000000#32)) := by
  simp only [hostOps2]
  after_results_simp
  rfl

/-- The second stretch marks the infinite entries. -/
theorem st21_v26 : (StableHlo.after hostOps2_1 V (Proc.devRef .tc main_v26) : IVec S50000 1)
    = cmpf .oeq (Host.absf (V (Proc.devRef .tc main_v25) : FVec Ideal S50000 .f32))
        (broadcastInDim S50000 ![] bcast_S_S50000 (constant (F := Ideal) S_ .f32 0x7F800000#32)) := by
  simp only [hostOps2_1]
  after_results_simp
  rfl

/-- The third stretch is the constant zero. -/
theorem st22_cst6 : (StableHlo.after hostOps2_2 V (Proc.devRef .tc main_cst_6) : FVec Ideal S_ .f32) = constant (F := Ideal) S_ .f32 0x00000000#32 := by
  simp only [hostOps2_2]
  after_results_simp

/-- The fourth stretch replaces the marked entries by zero. -/
theorem st23_v27 : (StableHlo.after hostOps2_3 V (Proc.devRef .tc main_v27) : FVec Ideal S50000 .f32)
    = select (V (Proc.devRef .tc main_v26) : IVec S50000 1)
        (broadcastInDim S50000 ![] bcast_S_S50000 (id (V (Proc.devRef .tc main_cst_6) : FVec Ideal S_ .f32)))
        (V (Proc.devRef .tc main_v25) : FVec Ideal S50000 .f32) := by
  simp only [hostOps2_3]
  after_results_simp
  rfl

/-- The last stretch multiplies each masked value by the factor looked up at its two end points. -/
theorem st24_v43 : (StableHlo.after hostOps2_4 V (Proc.devRef .tc main_v43) : FVec Ideal S800000 .f32)
    = mulf (mulf (V (Proc.devRef .tc main_v18) : FVec Ideal S800000 .f32)
        (Tail.lookup (V (Proc.devRef .tc main_v27)) (V (Proc.devRef .tc main_arg9))))
      (Tail.lookup (V (Proc.devRef .tc main_v27)) (V (Proc.devRef .tc main_arg10))) := by
  simp only [hostOps2_4]
  after_results_simp
  rfl

/-! ### What a stretch does not write it leaves -/

theorem keep21_v25 : StableHlo.after hostOps2_1 V (Proc.devRef .tc main_v25) = V (Proc.devRef .tc main_v25) :=
  StableHlo.after_of_forall_not_mem _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep22_v25 : StableHlo.after hostOps2_2 V (Proc.devRef .tc main_v25) = V (Proc.devRef .tc main_v25) :=
  StableHlo.after_of_forall_not_mem _ _ (List.forall_iff_forall_mem.mp (by
    simp only [hostOps2_2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep22_v26 : StableHlo.after hostOps2_2 V (Proc.devRef .tc main_v26) = V (Proc.devRef .tc main_v26) :=
  StableHlo.after_of_forall_not_mem _ _ (List.forall_iff_forall_mem.mp (by
    simp only [hostOps2_2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep21_v18 : StableHlo.after hostOps2_1 V (Proc.devRef .tc main_v18) = V (Proc.devRef .tc main_v18) :=
  StableHlo.after_of_forall_not_mem _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep22_v18 : StableHlo.after hostOps2_2 V (Proc.devRef .tc main_v18) = V (Proc.devRef .tc main_v18) :=
  StableHlo.after_of_forall_not_mem _ _ (List.forall_iff_forall_mem.mp (by
    simp only [hostOps2_2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep23_v18 : StableHlo.after hostOps2_3 V (Proc.devRef .tc main_v18) = V (Proc.devRef .tc main_v18) :=
  StableHlo.after_of_forall_not_mem _ _ (List.forall_iff_forall_mem.mp (by
    simp only [hostOps2_3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep2_arg9 : StableHlo.after hostOps2 V (Proc.devRef .tc main_arg9) = V (Proc.devRef .tc main_arg9) :=
  StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep21_arg9 : StableHlo.after hostOps2_1 V (Proc.devRef .tc main_arg9) = V (Proc.devRef .tc main_arg9) :=
  StableHlo.after_of_forall_not_mem _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep22_arg9 : StableHlo.after hostOps2_2 V (Proc.devRef .tc main_arg9) = V (Proc.devRef .tc main_arg9) :=
  StableHlo.after_of_forall_not_mem _ _ (List.forall_iff_forall_mem.mp (by
    simp only [hostOps2_2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep23_arg9 : StableHlo.after hostOps2_3 V (Proc.devRef .tc main_arg9) = V (Proc.devRef .tc main_arg9) :=
  StableHlo.after_of_forall_not_mem _ _ (List.forall_iff_forall_mem.mp (by
    simp only [hostOps2_3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep2_arg10 : StableHlo.after hostOps2 V (Proc.devRef .tc main_arg10) = V (Proc.devRef .tc main_arg10) :=
  StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep21_arg10 : StableHlo.after hostOps2_1 V (Proc.devRef .tc main_arg10) = V (Proc.devRef .tc main_arg10) :=
  StableHlo.after_of_forall_not_mem _ _ (List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep22_arg10 : StableHlo.after hostOps2_2 V (Proc.devRef .tc main_arg10) = V (Proc.devRef .tc main_arg10) :=
  StableHlo.after_of_forall_not_mem _ _ (List.forall_iff_forall_mem.mp (by
    simp only [hostOps2_2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep23_arg10 : StableHlo.after hostOps2_3 V (Proc.devRef .tc main_arg10) = V (Proc.devRef .tc main_arg10) :=
  StableHlo.after_of_forall_not_mem _ _ (List.forall_iff_forall_mem.mp (by
    simp only [hostOps2_3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Stretches

/-! ## The contents at the boundaries, buffer by buffer -/

theorem W18_v18 (c : Dev nD) :
    (W18 m ρ c (Proc.devRef .tc main_v18) : FVec Ideal S800000 .f32) = mvOf (W14 m ρ c (Proc.devRef .tc main_v16)) :=
  (keep23_v18 (W17 m ρ c)).trans ((keep22_v18 (W16 m ρ c)).trans ((keep21_v18 (W15 m ρ c)).trans (st2_v18 (W14 m ρ c))))

theorem W18_arg9 (c : Dev nD) : W18 m ρ c (Proc.devRef .tc main_arg9) = m ((c : Thread nD τ).loc main_arg9) :=
  (keep23_arg9 (W17 m ρ c)).trans ((keep22_arg9 (W16 m ρ c)).trans ((keep21_arg9 (W15 m ρ c)).trans
    ((keep2_arg9 (W14 m ρ c)).trans (W14_main_arg9 m ρ c))))

theorem W18_arg10 (c : Dev nD) : W18 m ρ c (Proc.devRef .tc main_arg10) = m ((c : Thread nD τ).loc main_arg10) :=
  (keep23_arg10 (W17 m ρ c)).trans ((keep22_arg10 (W16 m ρ c)).trans ((keep21_arg10 (W15 m ρ c)).trans
    ((keep2_arg10 (W14 m ρ c)).trans (W14_main_arg10 m ρ c))))

theorem W17_v25 (c : Dev nD) :
    (W17 m ρ c (Proc.devRef .tc main_v25) : FVec Ideal S50000 .f32) = (W15 m ρ c (Proc.devRef .tc main_v25) : FVec Ideal S50000 .f32) :=
  (keep22_v25 (W16 m ρ c)).trans (keep21_v25 (W15 m ρ c))

theorem W17_v26 (c : Dev nD) :
    (W17 m ρ c (Proc.devRef .tc main_v26) : IVec S50000 1)
      = cmpf .oeq (Host.absf (W15 m ρ c (Proc.devRef .tc main_v25) : FVec Ideal S50000 .f32))
          (broadcastInDim S50000 ![] bcast_S_S50000 (constant (F := Ideal) S_ .f32 0x7F800000#32)) :=
  (keep22_v26 (W16 m ρ c)).trans (st21_v26 (W15 m ρ c))

theorem W17_cst6 (c : Dev nD) :
    (W17 m ρ c (Proc.devRef .tc main_cst_6) : FVec Ideal S_ .f32) = constant (F := Ideal) S_ .f32 0x00000000#32 :=
  st22_cst6 (W16 m ρ c)

/-- The degree factor the last stretch looks up, from the output column and the row indices. -/
theorem W18_v27 (c : Dev nD) :
    (W18 m ρ c (Proc.devRef .tc main_v27) : FVec Ideal S50000 .f32)
      = Tail.invSqrtDeg (mvOf (W14 m ρ c (Proc.devRef .tc main_v16))) (m ((c : Thread nD τ).loc main_arg9)) := by
  refine (st23_v27 (W17 m ρ c)).trans ?_
  rw [W17_v26, W17_cst6, W17_v25]
  have h25 := st2_v25 (W14 m ρ c)
  rw [W14_main_arg9] at h25
  rw [show (W15 m ρ c (Proc.devRef .tc main_v25) : FVec Ideal S50000 .f32) = _ from h25]
  generalize W14 m ρ c (Proc.devRef .tc main_v16) = out
  generalize m ((c : Thread nD τ).loc main_arg9) = row
  unfold Tail.invSqrtDeg
  rfl

theorem result_eq (c : Dev nD) :
    (W19 m ρ c (Proc.devRef .tc main_v43) : FVec Ideal S800000 .f32)
      = Tail.norm (mvCol m ρ c) (HostIn.aRow m c) (HostIn.aCol m c) := by
  refine (st24_v43 (W18 m ρ c)).trans ?_
  rw [W18_v18, W18_v27, W18_arg9, W18_arg10, W14_out]
  unfold Tail.norm mvCol
  rfl

end Cert.KernelIdeal.HostTail

end
-- ==== Proof.EdgeSpec.lean ====
/-
  The masked edge values as ONE function of the eleven argument arrays, index by index: the edge's value
  times the gate of its noise and of its attention score, the score read as the reference reads it
  (two table rows looked up by position).
-/
import proofs.«126882_j54185307407141_1_alg».proof.Proof.Gen.KernelIdeal
import proofs.«126882_j54185307407141_1_alg».proof.Proof.Spec
import Idealize.ShloMosaic.PureOps.Ideal
import Idealize.ShloMosaic.Lib.ValueIdx

noncomputable section

namespace Cert.KernelIdeal.EdgeSpec

open Idealize.ShloMosaic Idealize.ShloMosaic.ValueIdx Cert.KernelIdeal

/-- The masked value of every edge, from the argument arrays. -/
def mv (x0 : FVec Ideal S50000x256 .f32) (x1 : FVec Ideal S256x128 .f32) (x2 : FVec Ideal S128 .f32)
    (x3 : FVec Ideal S256x128 .f32) (x4 : FVec Ideal S128 .f32) (x5 : FVec Ideal S256x1 .f32) (x6 : FVec Ideal S1 .f32)
    (x7 : FVec Ideal S800000 .f32) (x8 : FVec Ideal S800000x1 .f32) (x9 x10 : IVec S800000 32) : FVec Ideal S800000 .f32 :=
  fun i => EdgeGate.gated (x7 i) (x8 (ix2 (i 0 : Fin 800000) (0 : Fin 1)))
    (EdgeGate.refScore (fun n k => x0 (ix2 n k)) (fun k j => x1 (ix2 k j)) (fun j => x2 (ix1 j))
      (fun k j => x3 (ix2 k j)) (fun j => x4 (ix1 j)) (fun k => x5 (ix2 k (0 : Fin 1))) (x6 (ix1 (0 : Fin 1))) (x9 i) (x10 i))

end Cert.KernelIdeal.EdgeSpec

end
-- ==== Proof.ScoreEq.lean ====
/-
  The kernel's attention score is the reference's when both end points are node indices in range:
  the indicator-weighted sum over all 50176 rows of the padded table, taken in 49 chunks from a zero
  accumulator, has one non-zero term, the row at `r` (zero times anything is zero on the extended reals),
  and that row lies in the unpadded part, which is the row the reference looks up (an index in range is
  neither wrapped nor clamped); a 256-term sum against the attention weights is the sum of its two
  halves.
-/
import proofs.«126882_j54185307407141_1_alg».proof.Proof.Spec
import Idealize.ShloMosaic.PureOps.Ideal
import Idealize.ShloMosaic.PureOps.Ideal.Laws
import Idealize.ShloMosaic.Lib.ValueIdx
import Mathlib.Algebra.BigOperators.Fin
import Mathlib.Data.EReal.Basic

noncomputable section

namespace Cert.EdgeGate

open Idealize.ShloMosaic
open scoped BigOperators

/-- A node index in range: as a signed integer, `0 ≤ r < 50000`. -/
def InRange (r : BitVec 32) : Prop := 0 ≤ r.toInt ∧ r.toInt < 50000

/-! ## An index in range, as a natural number -/

/-- The signed and the unsigned readings of an index in range agree. -/
theorem InRange.toInt_eq {r : BitVec 32} (h : InRange r) : r.toInt = (r.toNat : ℤ) := by
  obtain ⟨h0, _⟩ := h
  have hlt := r.isLt
  rw [BitVec.toInt_eq_toNat_cond] at h0 ⊢
  split at h0 <;> rename_i hc
  · rw [if_pos hc]
  · exfalso; omega

theorem InRange.toNat_lt {r : BitVec 32} (h : InRange r) : r.toNat < 50000 := by
  have h1 := h.2
  rw [h.toInt_eq] at h1
  omega

/-! ## The indicator -/

/-- Below `2 ^ 32` the indicator of `r = n` compares natural numbers. -/
theorem hot_eq (r : BitVec 32) (N : ℕ) (hN : N < 2 ^ 32) : hot r N = if r.toNat = N then 1 else 0 := by
  unfold hot
  have hiff : r = BitVec.ofNat 32 N ↔ r.toNat = N := by
    constructor
    · intro h
      rw [h, BitVec.toNat_ofNat, Nat.mod_eq_of_lt hN]
    · intro h
      subst h
      simp
  by_cases hc : r.toNat = N
  · rw [if_pos (hiff.mpr hc), if_pos hc]
  · rw [if_neg (fun h => hc (hiff.mp h)), if_neg hc]

/-! ## The chunked indicator sum picks one row -/

/-- Over 49 chunks of 1024, the indicator of `R` against any family picks the member at `R`. -/
theorem sum_chunks_pick (g : Fin 50176 → EReal) (R : ℕ) (hR : R < 50176) :
    (∑ k : Fin 49, ∑ n : Fin 1024,
        (if R = 1024 * k.val + n.val then (1 : EReal) else 0) * g ⟨1024 * k.val + n.val, by omega⟩)
      = g ⟨R, hR⟩ := by
  rw [Finset.sum_eq_single (⟨R / 1024, by omega⟩ : Fin 49)]
  · rw [Finset.sum_eq_single (⟨R % 1024, by omega⟩ : Fin 1024)]
    · have hdec : R = 1024 * (R / 1024) + R % 1024 := by omega
      rw [if_pos hdec, one_mul]
      congr 1
      exact Fin.ext hdec.symm
    · intro n _ hn
      rw [if_neg, zero_mul]
      intro h
      apply hn
      apply Fin.ext
      show n.val = R % 1024
      have := n.isLt
      omega
    · intro h
      exact absurd (Finset.mem_univ _) h
  · intro k _ hk
    apply Finset.sum_eq_zero
    intro n _
    rw [if_neg, zero_mul]
    intro h
    apply hk
    apply Fin.ext
    show k.val = R / 1024
    have := n.isLt
    omega
  · intro h
    exact absurd (Finset.mem_univ _) h

/-! ## The accumulator -/

/-- The accumulator after `k` chunks is the sum of the first `k` chunk contributions. -/
theorem accTo_eq_sum_range (H : Fin 50176 → Fin 128 → EReal) (r : BitVec 32) (j : Fin 128) (k : ℕ) :
    accTo H r j k
      = ∑ i ∈ Finset.range k, (if h : i < 49 then chunkSum H r j ⟨i, h⟩ else 0) := by
  induction k with
  | zero =>
    show cZero = _
    rw [Finset.range_zero, Finset.sum_empty]
    exact Ideal.ofBits_zero_f32
  | succ k ih =>
    rw [Finset.sum_range_succ, ← ih]
    rfl

/-- After all 49 chunks the accumulator is the sum of all chunk contributions. -/
theorem accTo_all (H : Fin 50176 → Fin 128 → EReal) (r : BitVec 32) (j : Fin 128) :
    accTo H r j 49 = ∑ k : Fin 49, chunkSum H r j k := by
  rw [accTo_eq_sum_range,
    ← Fin.sum_univ_eq_sum_range (fun i => if h : i < 49 then chunkSum H r j ⟨i, h⟩ else 0) 49]
  apply Finset.sum_congr rfl
  intro k _
  rw [dif_pos k.isLt]

/-- For an index in range the accumulated row is the row at that index. -/
theorem accTo_eq_row (H : Fin 50176 → Fin 128 → EReal) (r : BitVec 32) (j : Fin 128) (hr : InRange r) :
    accTo H r j 49 = H ⟨r.toNat, by have := hr.toNat_lt; omega⟩ j := by
  have hR : r.toNat < 50176 := by have := hr.toNat_lt; omega
  rw [accTo_all, ← sum_chunks_pick (fun N => H N j) r.toNat hR]
  apply Finset.sum_congr rfl
  intro k _
  unfold chunkSum
  apply Finset.sum_congr rfl
  intro n _
  rw [hot_eq r _ (by have := k.isLt; have := n.isLt; omega)]

/-! ## The reference's lookup -/

/-- An index in range is not wrapped. -/
theorem wrapIdx_of_inRange {r : BitVec 32} (h : InRange r) : wrapIdx r = r := by
  unfold wrapIdx Scalar.select IntOp.cmpi
  have hs : r.slt 0#32 = false := by
    rw [BitVec.slt]
    have h0 := h.1
    simp only [BitVec.toInt_zero, decide_eq_false_iff_not, not_lt]
    exact h0
  simp [hs]

/-- An index in range is looked up at its own position. -/
theorem rowSel_of_inRange {r : BitVec 32} (h : InRange r) : rowSel r = ⟨r.toNat, h.toNat_lt⟩ := by
  apply Fin.ext
  show min (wrapIdx r).toInt.toNat (50000 - 1) = r.toNat
  rw [wrapIdx_of_inRange h, h.toInt_eq, Int.toNat_natCast]
  have := h.toNat_lt
  omega

/-- A row of the padded table below 50000 is the table's row. -/
theorem padRows_of_lt (X : Fin 50000 → Fin 256 → EReal) (n : ℕ) (hn : n < 50000) :
    padRows X ⟨n, by omega⟩ = X ⟨n, hn⟩ := by
  funext k
  unfold padRows
  rw [dif_pos hn]

/-! ## A 256-term dot product is the sum of its two halves -/

theorem sum_catRow (f1 f2 : Fin 128 → EReal) (wa : Fin 256 → EReal) :
    (∑ k : Fin 256, catRow f1 f2 k * wa k)
      = (∑ j : Fin 128, f1 j * wa (Fin.castLE (by decide : 128 ≤ 256) j))
        + ∑ j : Fin 128, f2 j * wa ⟨128 + j.val, by omega⟩ := by
  have h := Fin.sum_univ_add (M := EReal) (a := 128) (b := 128) (fun k : Fin (128 + 128) => catRow f1 f2 k * wa k)
  refine h.trans (congrArg₂ (· + ·) ?_ ?_)
  · apply Finset.sum_congr rfl
    intro j _
    have hj : (Fin.castAdd 128 j : Fin (128 + 128)).val < 128 := j.isLt
    show catRow f1 f2 (Fin.castAdd 128 j) * wa (Fin.castAdd 128 j) = _
    unfold catRow
    rw [dif_pos hj]
    rfl
  · apply Finset.sum_congr rfl
    intro j _
    have hj : ¬ (Fin.natAdd 128 j : Fin (128 + 128)).val < 128 := by
      show ¬ (128 + j.val < 128)
      omega
    show catRow f1 f2 (Fin.natAdd 128 j) * wa (Fin.natAdd 128 j) = _
    unfold catRow
    rw [dif_neg hj]
    congr 2
    apply Fin.ext
    show 128 + j.val - 128 = j.val
    omega

/-! ## The two scores agree -/

theorem kerScore_eq_refScore (X : Fin 50000 → Fin 256 → EReal) (Wn : Fin 256 → Fin 128 → EReal) (bn : Fin 128 → EReal)
    (Ws : Fin 256 → Fin 128 → EReal) (bs : Fin 128 → EReal) (wa : Fin 256 → EReal) (ba : EReal)
    (r c : BitVec 32) (hr : InRange r) (hc : InRange c) :
    kerScore (fun n => dense (padRows X n) Wn bn) (fun n => dense (padRows X n) Ws bs)
        (fun j => wa (Fin.castLE (by decide : 128 ≤ 256) j)) (fun j => wa ⟨128 + j.val, by omega⟩) ba r c
      = refScore X Wn bn Ws bs wa ba r c := by
  unfold kerScore refScore
  rw [sum_catRow, rowSel_of_inRange hr, rowSel_of_inRange hc]
  congr 2
  · apply Finset.sum_congr rfl
    intro j _
    rw [accTo_eq_row _ r j hr]
    show dense (padRows X ⟨r.toNat, _⟩) Wn bn j * _ = _
    rw [padRows_of_lt X r.toNat hr.toNat_lt]
  · apply Finset.sum_congr rfl
    intro j _
    rw [accTo_eq_row _ c j hc]
    show dense (padRows X ⟨c.toNat, _⟩) Ws bs j * _ = _
    rw [padRows_of_lt X c.toNat hc.toNat_lt]

end Cert.EdgeGate

end
-- ==== Proof.RangeOfPre.lean ====
/-
  The precondition's two index conjuncts, decoded: every entry of `row` and of `col` is, as a
  signed integer, at least 0 and below 50000.

  The precondition is a conjunction (a chain of `and` on one-bit words) of eleven "all entries satisfy"
  tests, each the `and`-reduction of a one-bit array from the constant 1. A conjunction that is 1 has
  every conjunct 1; an `and`-reduction that is 1 met only 1s, so the tested array is 1 at every entry;
  the tested array at entry `e` is `(0 ≤ x e) and (x e < 50000)`, both comparisons signed.
-/
import proofs.«126882_j54185307407141_1_alg».proof.Defs
import proofs.«126882_j54185307407141_1_alg».proof.Proof.Gen.KernelIdeal
import proofs.«126882_j54185307407141_1_alg».proof.Proof.Gen.Pre_finite_inputs
import proofs.«126882_j54185307407141_1_alg».proof.Proof.ScoreEq
import Idealize.ShloMosaic.PureOps.Ideal
import Idealize.ShloMosaic.Lib.ValueIdx
import Idealize.ShloMosaic.Lib.ReduceAll
import Idealize.ShloMosaic.Lib.StableHlo.Predicate

noncomputable section

namespace Cert.RangeOfPre

open Idealize.ShloMosaic Idealize.ShloMosaic.ValueIdx Idealize.SL.Sem

/-- The rank-0 shape has one index. -/
instance subsingleton_scalarIdx : Subsingleton Cert.Pre_finite_inputs.S_.Idx :=
  ⟨fun _ _ => funext fun d => d.elim0⟩

/-- The one index of the rank-0 shape. -/
def i0 : Cert.Pre_finite_inputs.S_.Idx := fun d => d.elim0

/-- The vector `and` read at an index. -/
theorem andi_at {s : Shape} (x y : IVec s 1) (i : s.Idx) : andi x y i = 1#1 ↔ x i = 1#1 ∧ y i = 1#1 :=
  IntOp.andi_eq_one

/-- A word that tests `0 ≤ w` and `w < 50000`, signed, is a node index in range. -/
theorem inRange_of_cmp (w : BitVec 32) (h0 : IntOp.cmpi .sge w 0#32 = 1#1)
    (h1 : IntOp.cmpi .slt w 50000#32 = 1#1) : Cert.EdgeGate.InRange w := by
  rw [IntOp.cmpi_sge, show (0#32 : BitVec 32).toInt = 0 from by decide] at h0
  rw [IntOp.cmpi_slt, show (50000#32 : BitVec 32).toInt = 50000 from by decide] at h1
  exact ⟨h0, h1⟩

/-- The range test of one index array, all entries passing: each entry is in range. -/
theorem inRange_of_all (x : IVec Cert.Pre_finite_inputs.S800000 32)
    (hb : Cert.Pre_finite_inputs.S_.BroadcastsInDim Cert.Pre_finite_inputs.S800000 (![] : Fin 0 → Fin Cert.Pre_finite_inputs.S800000.rank))
    (hr : Cert.Pre_finite_inputs.S800000.ReducesTo [0] Cert.Pre_finite_inputs.S_) (hu : 0 < Cert.Pre_finite_inputs.S_.numel)
    (init : IVec Cert.Pre_finite_inputs.S_ 1)
    (h : Host.reduce IntOp.andi
          (andi (cmpi .sge x (broadcastInDim Cert.Pre_finite_inputs.S800000 ![] hb (constantI Cert.Pre_finite_inputs.S_ 32 0#32)))
                (cmpi .slt x (broadcastInDim Cert.Pre_finite_inputs.S800000 ![] hb (constantI Cert.Pre_finite_inputs.S_ 32 50000#32))))
          init hr hu i0 = 1#1)
    (e : Fin 800000) : Cert.EdgeGate.InRange (x (ix1 e)) := by
  have hp := Host.reduce_andi_all _ init hr hu i0 h (ix1 e)
  obtain ⟨h0, h1⟩ := (andi_at _ _ _).1 hp
  exact inRange_of_cmp _ h0 h1

/-- Under the precondition every `row` entry is a node index in range. -/
theorem row_inRange (m : (ℓ : Loc Cert.KernelIdeal.nD Cert.KernelIdeal.τ Cert.KernelIdeal.sig) → Buf (Elt Ideal) ℓ)
    (h : Cert.Pre_KernelIdeal m) (c : Dev Cert.KernelIdeal.nD) (e : Fin 800000) :
    Cert.EdgeGate.InRange ((m ((c.tc : Thread Cert.KernelIdeal.nD Cert.KernelIdeal.τ).loc Cert.KernelIdeal.main_arg9) : IVec Cert.KernelIdeal.S800000 32) (ix1 e)) := by
  have e0 := congrFun (h c) i0
  dsimp only [Cert.Pre_finite_inputs.fn, Cert.Pre_finite_inputs.fn_part1, Cert.Pre_finite_inputs.fn_part2,
    Cert.Pre_finite_inputs.fn_part3] at e0
  obtain ⟨e1, -⟩ := (andi_at _ _ _).1 e0
  obtain ⟨-, e2⟩ := (andi_at _ _ _).1 e1
  exact inRange_of_all _ _ _ _ _ e2 e

/-- Under the precondition every `col` entry is a node index in range. -/
theorem col_inRange (m : (ℓ : Loc Cert.KernelIdeal.nD Cert.KernelIdeal.τ Cert.KernelIdeal.sig) → Buf (Elt Ideal) ℓ)
    (h : Cert.Pre_KernelIdeal m) (c : Dev Cert.KernelIdeal.nD) (e : Fin 800000) :
    Cert.EdgeGate.InRange ((m ((c.tc : Thread Cert.KernelIdeal.nD Cert.KernelIdeal.τ).loc Cert.KernelIdeal.main_arg10) : IVec Cert.KernelIdeal.S800000 32) (ix1 e)) := by
  have e0 := congrFun (h c) i0
  dsimp only [Cert.Pre_finite_inputs.fn, Cert.Pre_finite_inputs.fn_part1, Cert.Pre_finite_inputs.fn_part2,
    Cert.Pre_finite_inputs.fn_part3] at e0
  obtain ⟨-, e1⟩ := (andi_at _ _ _).1 e0
  exact inRange_of_all _ _ _ _ _ e1 e

end Cert.RangeOfPre

end
-- ==== Proof.KernelValue.lean ====
/-
  The masked values the idealized kernel's host operations go on with are the specification's: entry `e`
  of the second pallas_call's output is the gated value at the score accumulated from the two feature
  tables; those tables are the first pallas_call's rectified affine images of the padded node table;
  and under the precondition both end points of every edge are node indices in range, where the
  accumulated score is the looked-up one.
-/
import proofs.«126882_j54185307407141_1_alg».proof.Proof.Gen.KernelIdeal.Frame
import proofs.«126882_j54185307407141_1_alg».proof.Proof.Spec
import proofs.«126882_j54185307407141_1_alg».proof.Proof.EdgeSpec
import proofs.«126882_j54185307407141_1_alg».proof.Proof.NodeFeat
import proofs.«126882_j54185307407141_1_alg».proof.Proof.EdgeBlock
import proofs.«126882_j54185307407141_1_alg».proof.Proof.HostIn
import proofs.«126882_j54185307407141_1_alg».proof.Proof.HostTail
import proofs.«126882_j54185307407141_1_alg».proof.Proof.ScoreEq
import proofs.«126882_j54185307407141_1_alg».proof.Proof.RangeOfPre
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- Entry `e` of the masked values is entry `e` of the output column. -/
theorem mvCol_at (c : Dev nD) (e : Fin 800000) :
    HostTail.mvCol m ρ c (ix1 e)
      = EdgeBlock.mvArr (V13 m ρ) c (ix2 (Fin.castLE (by decide : 800000 ≤ 800256) e) (0 : Fin 1)) := by
  unfold HostTail.mvCol
  refine (shapeCast_apply _ _ (ix1 e) (ix2 e (0 : Fin 1)) ?_).trans ?_
  · rw [Shape.rowMajor_val_two, Shape.rowMajor_val_one]
    show e.val * 1 + (0 : Fin 1).val = e.val
    simp
  · refine extractStridedSlice_apply _ _ _ _ _ (fun a => ?_)
    match a with
    | ⟨0, _⟩ => simp
    | ⟨1, _⟩ => simp

/-- The first pallas_call's neighbour features, in the argument arrays. -/
theorem hnb_in_args (c : Dev nD) (n : Fin 50176) (j : Fin 128) :
    EdgeBlock.hnbIn (V13 m ρ) c (ix2 n j)
      = EdgeGate.dense (EdgeGate.padRows (fun p k => HostIn.aX m c (ix2 p k)) n) (fun k j => HostIn.aWnb m c (ix2 k j))
          (fun j => HostIn.aBnb m c (ix1 j)) j := by
  rw [HostIn.hnb_in, NodeFeat.hnb_at, HostIn.wnb_eq]
  exact congrArg₂ (fun x b => EdgeGate.dense x (fun k j => HostIn.aWnb m c (ix2 k j)) b j)
    (funext fun k => HostIn.xpad_at m ρ c n k) (funext fun j => HostIn.bnb_at m ρ c j)

/-- The first pallas_call's self features, in the argument arrays. -/
theorem hself_in_args (c : Dev nD) (n : Fin 50176) (j : Fin 128) :
    EdgeBlock.hselfIn (V13 m ρ) c (ix2 n j)
      = EdgeGate.dense (EdgeGate.padRows (fun p k => HostIn.aX m c (ix2 p k)) n) (fun k j => HostIn.aWself m c (ix2 k j))
          (fun j => HostIn.aBself m c (ix1 j)) j := by
  rw [HostIn.hself_in, NodeFeat.hself_at, HostIn.wself_eq]
  exact congrArg₂ (fun x b => EdgeGate.dense x (fun k j => HostIn.aWself m c (ix2 k j)) b j)
    (funext fun k => HostIn.xpad_at m ρ c n k) (funext fun j => HostIn.bself_at m ρ c j)

/-- The accumulated score depends on its tables and weights only through their values. -/
theorem kerScore_congr {Hn Hn' Hs Hs' : Fin 50176 → Fin 128 → EReal} {w1 w1' w2 w2' : Fin 128 → EReal}
    (h1 : Hn = Hn') (h2 : Hs = Hs') (h3 : w1 = w1') (h4 : w2 = w2') (ba : EReal) (r c : BitVec 32) :
    EdgeGate.kerScore Hn Hs w1 w2 ba r c = EdgeGate.kerScore Hn' Hs' w1' w2' ba r c := by
  subst h1 h2 h3 h4; rfl

/-- Under the precondition the masked values are the specification's function of the argument arrays. -/
theorem mvCol_eq (hpre : Cert.Pre_KernelIdeal m) (c : Dev nD) :
    HostTail.mvCol m ρ c
      = EdgeSpec.mv (HostIn.aX m c) (HostIn.aWnb m c) (HostIn.aBnb m c) (HostIn.aWself m c) (HostIn.aBself m c)
          (HostIn.aWatt m c) (HostIn.aBatt m c) (HostIn.aVal m c) (HostIn.aNoise m c) (HostIn.aRow m c) (HostIn.aCol m c) := by
  funext i
  obtain ⟨e, rfl⟩ : ∃ e : Fin 800000, i = ix1 e := ⟨i 0, eq_ix1 i⟩
  rw [mvCol_at, EdgeBlock.mv_at, HostIn.val_at, HostIn.noise_at, HostIn.row_at, HostIn.col_at, HostIn.ba_at]
  unfold EdgeSpec.mv
  refine congrArg (EdgeGate.gated _ _) ?_
  refine (kerScore_congr (funext fun n => funext fun j => hnb_in_args m ρ c n j)
    (funext fun n => funext fun j => hself_in_args m ρ c n j) (funext fun j => HostIn.w1_at m ρ c j)
    (funext fun j => HostIn.w2_at m ρ c j) _ _ _).trans ?_
  exact EdgeGate.kerScore_eq_refScore (fun p k => HostIn.aX m c (ix2 p k)) (fun k j => HostIn.aWnb m c (ix2 k j))
    (fun j => HostIn.aBnb m c (ix1 j)) (fun k j => HostIn.aWself m c (ix2 k j)) (fun j => HostIn.aBself m c (ix1 j))
    (fun k => HostIn.aWatt m c (ix2 k (0 : Fin 1))) (HostIn.aBatt m c (ix1 (0 : Fin 1)))
    (HostIn.aRow m c (ix1 e)) (HostIn.aCol m c (ix1 e))
    (Cert.RangeOfPre.row_inRange m hpre c e) (Cert.RangeOfPre.col_inRange m hpre c e)

end Cert.KernelIdeal.KernelValue

end
-- ==== Proof.RefValue.lean ====
/-
  The reference's result, read one operation at a time: it is the shared normalisation of the masked
  edge values, and the masked value of edge `e` is the edge's value times the gate of its noise and
  of the score of the two feature rows looked up at `row e` and `col e`.
-/
import proofs.«126882_j54185307407141_1_alg».proof.Proof.Gen.ReferenceIdeal.Run
import proofs.«126882_j54185307407141_1_alg».proof.Proof.Gen.ReferenceIdeal.Read
import proofs.«126882_j54185307407141_1_alg».proof.Proof.Spec
import proofs.«126882_j54185307407141_1_alg».proof.Proof.Tail
import proofs.«126882_j54185307407141_1_alg».proof.Proof.EdgeSpec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

variable (x0 : FVec Ideal S50000x256 .f32) (x1 : FVec Ideal S256x128 .f32) (x2 : FVec Ideal S128 .f32)
  (x3 : FVec Ideal S256x128 .f32) (x4 : FVec Ideal S128 .f32) (x5 : FVec Ideal S256x1 .f32) (x6 : FVec Ideal S1 .f32)
  (x7 : FVec Ideal S800000 .f32) (x8 : FVec Ideal S800000x1 .f32) (x9 x10 : IVec S800000 32)

/-! ## The stages before the normalisation, read at an edge -/

/-- The wrapped index of an edge's end point, at the edge. -/
theorem wrap4_apply (e : Fin 800000) :
    val_main_v4 (F := Ideal) x9 (ix1 e) = EdgeGate.wrapIdx (x9 (ix1 e)) := by
  rw [val_main_v4_apply, val_main_v1_apply, val_main_v3_apply, val_main_v0_apply, val_main_c_apply,
    val_main_v2_apply, val_main_c_0_apply]
  rfl

theorem wrap16_apply (e : Fin 800000) :
    val_main_v16 (F := Ideal) x10 (ix1 e) = EdgeGate.wrapIdx (x10 (ix1 e)) := by
  rw [val_main_v16_apply, val_main_v13_apply, val_main_v15_apply, val_main_v12_apply, val_main_c_1_apply,
    val_main_v14_apply, val_main_c_2_apply]
  rfl

theorem idx5_ix2 (e : Fin 800000) : idx_main_v5 (ix2 e (0 : Fin 1)) = ix1 e := by
  funext a; match a with | ⟨0, _⟩ => rfl

theorem idx17_ix2 (e : Fin 800000) : idx_main_v17 (ix2 e (0 : Fin 1)) = ix1 e := by
  funext a; match a with | ⟨0, _⟩ => rfl

/-- The table lookup read at an index: the row is the start index read signed and clamped into the table,
    the column is the result's. -/
theorem gather_rows_apply {α : Type} {w : Nat} (x : S50000x256.Idx → α) (idx : IVec S800000x1 w) (e : Fin 800000) (k : Fin 256) :
    Host.gather gather_S50000x256_S800000x1_S800000x256_1_0_n_n_0_1_1256 x idx (ix2 e k)
      = x (ix2 (⟨min (idx (ix2 e (0 : Fin 1))).toInt.toNat (50000 - 1), by omega⟩ : Fin 50000) k) := by
  unfold Host.gather
  congr 1
  funext a
  refine Fin.ext ?_
  match a with
  | ⟨0, _⟩ =>
    show gather_S50000x256_S800000x1_S800000x256_1_0_n_n_0_1_1256.start (ix2 e k) idx 0
      + gather_S50000x256_S800000x1_S800000x256_1_0_n_n_0_1_1256.batchCoord (ix2 e k) 0
      + gather_S50000x256_S800000x1_S800000x256_1_0_n_n_0_1_1256.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x256_S800000x1_S800000x256_1_0_n_n_0_1_1256.startIndexMap from List.mem_singleton.mpr rfl)]
    have hsi : gather_S50000x256_S800000x1_S800000x256_1_0_n_n_0_1_1256.siIdx (ix2 e k) ⟨List.idxOf (0 : Fin 2) gather_S50000x256_S800000x1_S800000x256_1_0_n_n_0_1_1256.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S50000x256_S800000x1_S800000x256_1_0_n_n_0_1_1256.start (ix2 e k) idx 1
      + gather_S50000x256_S800000x1_S800000x256_1_0_n_n_0_1_1256.batchCoord (ix2 e k) 1
      + gather_S50000x256_S800000x1_S800000x256_1_0_n_n_0_1_1256.offCoord (ix2 e k) 1 = _
    rw [GatherDims.batchCoord_eq_zero _ _ _ List.not_mem_nil]
    unfold GatherDims.start
    rw [dif_neg (show ¬ (1 : Fin 2) ∈ gather_S50000x256_S800000x1_S800000x256_1_0_n_n_0_1_1256.startIndexMap by decide)]
    unfold GatherDims.offCoord
    rw [dif_pos (show (1 : Fin 2) ∈ gather_S50000x256_S800000x1_S800000x256_1_0_n_n_0_1_1256.sKept by decide)]
    simp only [Nat.add_zero, Nat.zero_add]
    rfl

/-- The first lookup: row `rowSel (row e)` of the node table. -/
theorem gather6_apply (e : Fin 800000) (k : Fin 256) :
    val_main_v6 (F := Ideal) x0 x9 (ix2 e k) = x0 (ix2 (EdgeGate.rowSel (x9 (ix1 e))) k) := by
  have h : val_main_v5 (F := Ideal) x9 (ix2 e (0 : Fin 1)) = EdgeGate.wrapIdx (x9 (ix1 e)) := by
    rw [val_main_v5_apply, idx5_ix2, wrap4_apply]
  unfold val_main_v6
  rw [gather_rows_apply]
  refine congrArg x0 (congrArg (fun r => ix2 r k) (Fin.ext ?_))
  show min (val_main_v5 (F := Ideal) x9 (ix2 e (0 : Fin 1))).toInt.toNat (50000 - 1) = min (EdgeGate.wrapIdx (x9 (ix1 e))).toInt.toNat (50000 - 1)
  rw [h]

/-- The second lookup: row `rowSel (col e)` of the node table. -/
theorem gather18_apply (e : Fin 800000) (k : Fin 256) :
    val_main_v18 (F := Ideal) x0 x10 (ix2 e k) = x0 (ix2 (EdgeGate.rowSel (x10 (ix1 e))) k) := by
  have h : val_main_v17 (F := Ideal) x10 (ix2 e (0 : Fin 1)) = EdgeGate.wrapIdx (x10 (ix1 e)) := by
    rw [val_main_v17_apply, idx17_ix2, wrap16_apply]
  unfold val_main_v18
  rw [gather_rows_apply]
  refine congrArg x0 (congrArg (fun r => ix2 r k) (Fin.ext ?_))
  show min (val_main_v17 (F := Ideal) x10 (ix2 e (0 : Fin 1))).toInt.toNat (50000 - 1) = min (EdgeGate.wrapIdx (x10 (ix1 e))).toInt.toNat (50000 - 1)
  rw [h]

theorem lidx7_ix2 (e : Fin 800000) (j : Fin 128) (k : Fin 256) : lidx_main_v7 (ix2 e j) k = ix2 e k := by
  funext a; match a with | ⟨0, _⟩ => rfl | ⟨1, _⟩ => rfl
theorem ridx7_ix2 (e : Fin 800000) (j : Fin 128) (k : Fin 256) : ridx_main_v7 (ix2 e j) k = ix2 k j := by
  funext a; match a with | ⟨0, _⟩ => rfl | ⟨1, _⟩ => rfl
theorem lidx19_ix2 (e : Fin 800000) (j : Fin 128) (k : Fin 256) : lidx_main_v19 (ix2 e j) k = ix2 e k := by
  funext a; match a with | ⟨0, _⟩ => rfl | ⟨1, _⟩ => rfl
theorem ridx19_ix2 (e : Fin 800000) (j : Fin 128) (k : Fin 256) : ridx_main_v19 (ix2 e j) k = ix2 k j := by
  funext a; match a with | ⟨0, _⟩ => rfl | ⟨1, _⟩ => rfl
theorem idx89_ix2 (e : Fin 800000) (j : Fin 128) : idx_main_v8 (idx_main_v9 (ix2 e j)) = ix1 j := by
  funext a; match a with | ⟨0, _⟩ => rfl
theorem idx2021_ix2 (e : Fin 800000) (j : Fin 128) : idx_main_v20 (idx_main_v21 (ix2 e j)) = ix1 j := by
  funext a; match a with | ⟨0, _⟩ => rfl

/-- The features of the node at `row e`: the rectified affine image of its table row. -/
theorem dense11_apply (e : Fin 800000) (j : Fin 128) :
    val_main_v11 (F := Ideal) x0 x1 x2 x9 (ix2 e j)
      = EdgeGate.dense (fun k => x0 (ix2 (EdgeGate.rowSel (x9 (ix1 e))) k)) (fun k j => x1 (ix2 k j)) (fun j => x2 (ix1 j)) j := by
  rw [val_main_v11_apply, val_main_v10_apply, val_main_v7_apply, val_main_v9_apply, val_main_v8_apply,
    val_main_call0_v0_apply, val_main_call0_cst_apply, idx89_ix2]
  unfold EdgeGate.dense
  have hs : (∑ k : Fin 256, val_main_v6 (F := Ideal) x0 x9 (lidx_main_v7 (ix2 e j) k) * x1 (ridx_main_v7 (ix2 e j) k))
      = ∑ k : Fin 256, x0 (ix2 (EdgeGate.rowSel (x9 (ix1 e))) k) * x1 (ix2 k j) :=
    Finset.sum_congr rfl fun k _ => by rw [lidx7_ix2, ridx7_ix2, gather6_apply]
  rw [hs]
  rfl

/-- The features of the node at `col e`. -/
theorem dense23_apply (e : Fin 800000) (j : Fin 128) :
    val_main_v23 (F := Ideal) x0 x3 x4 x10 (ix2 e j)
      = EdgeGate.dense (fun k => x0 (ix2 (EdgeGate.rowSel (x10 (ix1 e))) k)) (fun k j => x3 (ix2 k j)) (fun j => x4 (ix1 j)) j := by
  rw [val_main_v23_apply, val_main_v22_apply, val_main_v19_apply, val_main_v21_apply, val_main_v20_apply,
    val_main_call1_v0_apply, val_main_call1_cst_apply, idx2021_ix2]
  unfold EdgeGate.dense
  have hs : (∑ k : Fin 256, val_main_v18 (F := Ideal) x0 x10 (lidx_main_v19 (ix2 e j) k) * x3 (ridx_main_v19 (ix2 e j) k))
      = ∑ k : Fin 256, x0 (ix2 (EdgeGate.rowSel (x10 (ix1 e))) k) * x3 (ix2 k j) :=
    Finset.sum_congr rfl fun k _ => by rw [lidx19_ix2, ridx19_ix2, gather18_apply]
  rw [hs]
  rfl

/-- Two arrays of feature rows joined along the feature axis, at an edge: the two rows side by side. -/
theorem concat_apply (A B : S800000x128.Idx → EReal) (e : Fin 800000) (k : Fin 256) :
    concatenate S800000x256 1 [⟨S800000x128, A⟩, ⟨S800000x128, B⟩] concatenates_S800000x128_S800000x128_S800000x256_d1 (ix2 e k)
      = EdgeGate.catRow (fun j => A (ix2 e j)) (fun j => B (ix2 e j)) k := by
  unfold EdgeGate.catRow
  by_cases h : k.val < 128
  · rw [dif_pos h]
    exact concatenate_pair_apply_left (1 : Fin 2) A B concatenates_S800000x128_S800000x128_S800000x256_d1 (ix2 e k) rfl
      (ix2 e ⟨k.val, h⟩) (fun b => match b with | ⟨0, _⟩ => rfl | ⟨1, _⟩ => rfl)
  · rw [dif_neg h]
    exact concatenate_pair_apply_right (1 : Fin 2) A B concatenates_S800000x128_S800000x128_S800000x256_d1 (ix2 e k) rfl rfl
      (ix2 e ⟨k.val - 128, by omega⟩) (fun b => match b with | ⟨0, _⟩ => fun _ => rfl | ⟨1, _⟩ => fun hb => absurd rfl hb)
      (by show (k.val - 128) + 128 = k.val; omega)

theorem lidx25_ix2 (e : Fin 800000) (k : Fin 256) : lidx_main_v25 (ix2 e (0 : Fin 1)) k = ix2 e k := by
  funext a; match a with | ⟨0, _⟩ => rfl | ⟨1, _⟩ => rfl
theorem ridx25_ix2 (e : Fin 800000) (k : Fin 256) : ridx_main_v25 (ix2 e (0 : Fin 1)) k = ix2 k (0 : Fin 1) := by
  funext a; match a with | ⟨0, _⟩ => rfl | ⟨1, _⟩ => rfl
theorem idx2627_ix2 (e : Fin 800000) : idx_main_v26 (idx_main_v27 (ix2 e (0 : Fin 1))) = ix1 (0 : Fin 1) := by
  funext a; match a with | ⟨0, _⟩ => rfl

/-- The joined feature rows of an edge. -/
theorem cat24_apply (e : Fin 800000) (k : Fin 256) :
    val_main_v24 (F := Ideal) x0 x1 x2 x3 x4 x9 x10 (ix2 e k)
      = EdgeGate.catRow
          (EdgeGate.dense (fun k => x0 (ix2 (EdgeGate.rowSel (x9 (ix1 e))) k)) (fun k j => x1 (ix2 k j)) (fun j => x2 (ix1 j)))
          (EdgeGate.dense (fun k => x0 (ix2 (EdgeGate.rowSel (x10 (ix1 e))) k)) (fun k j => x3 (ix2 k j)) (fun j => x4 (ix1 j))) k := by
  unfold val_main_v24
  rw [concat_apply]
  have h1 : (fun j => val_main_v11 (F := Ideal) x0 x1 x2 x9 (ix2 e j))
      = EdgeGate.dense (fun k => x0 (ix2 (EdgeGate.rowSel (x9 (ix1 e))) k)) (fun k j => x1 (ix2 k j)) (fun j => x2 (ix1 j)) :=
    funext fun j => dense11_apply x0 x1 x2 x9 e j
  have h2 : (fun j => val_main_v23 (F := Ideal) x0 x3 x4 x10 (ix2 e j))
      = EdgeGate.dense (fun k => x0 (ix2 (EdgeGate.rowSel (x10 (ix1 e))) k)) (fun k j => x3 (ix2 k j)) (fun j => x4 (ix1 j)) :=
    funext fun j => dense23_apply x0 x3 x4 x10 e j
  rw [h1, h2]

/-- The attention score of an edge is the specification's. -/
theorem score28_apply (e : Fin 800000) :
    val_main_v28 (F := Ideal) x0 x1 x2 x3 x4 x5 x6 x9 x10 (ix2 e (0 : Fin 1))
      = EdgeGate.refScore (fun n k => x0 (ix2 n k)) (fun k j => x1 (ix2 k j)) (fun j => x2 (ix1 j))
          (fun k j => x3 (ix2 k j)) (fun j => x4 (ix1 j)) (fun k => x5 (ix2 k (0 : Fin 1))) (x6 (ix1 (0 : Fin 1)))
          (x9 (ix1 e)) (x10 (ix1 e)) := by
  rw [val_main_v28_apply, val_main_v25_apply, val_main_v27_apply, val_main_v26_apply, idx2627_ix2]
  unfold EdgeGate.refScore
  have hs : (∑ k : Fin 256, val_main_v24 (F := Ideal) x0 x1 x2 x3 x4 x9 x10 (lidx_main_v25 (ix2 e (0 : Fin 1)) k) * x5 (ridx_main_v25 (ix2 e (0 : Fin 1)) k))
      = ∑ k : Fin 256, EdgeGate.catRow
          (EdgeGate.dense (fun k => x0 (ix2 (EdgeGate.rowSel (x9 (ix1 e))) k)) (fun k j => x1 (ix2 k j)) (fun j => x2 (ix1 j)))
          (EdgeGate.dense (fun k => x0 (ix2 (EdgeGate.rowSel (x10 (ix1 e))) k)) (fun k j => x3 (ix2 k j)) (fun j => x4 (ix1 j))) k
          * x5 (ix2 k (0 : Fin 1)) :=
    Finset.sum_congr rfl fun k _ => by rw [lidx25_ix2, ridx25_ix2, cat24_apply]
  rw [hs]
  rfl

theorem idx48_ix1 (e : Fin 800000) : idx_main_v48 (ix1 e) = ix2 e (0 : Fin 1) := by
  funext a; match a with
  | ⟨0, _⟩ => exact Fin.ext (Nat.div_one _)
  | ⟨1, _⟩ => rfl

/-- The mask of an edge: the clipped, stretched and shifted logistic of the noise's logit plus the score. -/
theorem mask47_apply (e : Fin 800000) :
    val_main_v47 (F := Ideal) x0 x1 x2 x3 x4 x5 x6 x8 x9 x10 (ix2 e (0 : Fin 1))
      = EdgeGate.gateMask (x8 (ix2 e (0 : Fin 1)))
          (val_main_v28 (F := Ideal) x0 x1 x2 x3 x4 x5 x6 x9 x10 (ix2 e (0 : Fin 1))) := by
  rw [val_main_v47_apply, val_main_call2_v4_apply, val_main_call2_v3_apply, val_main_cst_9_apply,
    val_main_call2_v2_apply, val_main_call2_v1_apply, val_main_call2_v0_apply, val_main_cst_8_apply,
    val_main_v46_apply, val_main_v44_apply, val_main_v45_apply, val_main_cst_7_apply, val_main_v43_apply,
    val_main_cst_6_apply, val_main_v42_apply, val_main_v41_apply, val_main_cst_5_apply, val_main_v40_apply,
    val_main_v39_apply, val_main_cst_4_apply, val_main_v38_apply, val_main_v37_apply, val_main_v36_apply,
    val_main_v35_apply, val_main_v31_apply, val_main_v34_apply, val_main_v33_apply, val_main_v32_apply,
    val_main_cst_3_apply, val_main_v30_apply, val_main_v29_apply, val_main_cst_apply]
  generalize val_main_v28 (F := Ideal) x0 x1 x2 x3 x4 x5 x6 x9 x10 (ix2 e (0 : Fin 1)) = s
  generalize x8 (ix2 e (0 : Fin 1)) = n
  unfold EdgeGate.gateMask Ideal.logistic
  simp only [Ideal.ofBits_def, Ideal.addf_def, Ideal.subf_def, Ideal.mulf_def, Ideal.maximumf_def, Ideal.minimumf_def,
    Ideal.hostDivf_def, Ideal.hostUnary_log_def, Ideal.hostUnary_exp_def, Ideal.hostNegf_def, Ideal.negf_def,
    EdgeGate.cOne, EdgeGate.cZero, EdgeGate.cEps, EdgeGate.cStretch, EdgeGate.cShift, Ideal.ofBits_one_f32]

/-- The masked values (the stage before the normalisation) are the specification's, index by index. -/
theorem masked_eq :
    val_main_v49 (F := Ideal) x0 x1 x2 x3 x4 x5 x6 x7 x8 x9 x10 = Cert.KernelIdeal.EdgeSpec.mv x0 x1 x2 x3 x4 x5 x6 x7 x8 x9 x10 := by
  funext i
  obtain ⟨e, rfl⟩ : ∃ e : Fin 800000, i = ix1 e := ⟨i 0, eq_ix1 i⟩
  rw [val_main_v49_apply, val_main_v48_apply, idx48_ix1, mask47_apply, score28_apply]
  rfl

/-- The result is the shared normalisation of the masked values. -/
theorem result_eq_norm :
    val_main_v74 (F := Ideal) x0 x1 x2 x3 x4 x5 x6 x7 x8 x9 x10
      = Cert.KernelIdeal.Tail.norm (val_main_v49 (F := Ideal) x0 x1 x2 x3 x4 x5 x6 x7 x8 x9 x10) x9 x10 := by
  unfold val_main_v74 val_main_v73 val_main_v72 val_main_v71 val_main_v70 val_main_v69 val_main_c_17
    val_main_v68 val_main_v67 val_main_c_16 val_main_v66 val_main_v65 val_main_v64 val_main_v63
    val_main_v62 val_main_v61 val_main_c_15 val_main_v60 val_main_v59 val_main_c_14 val_main_v58
    val_main_call4_v1 val_main_call4_v0 val_main_cst_13 val_main_v57 val_main_call3_v1
    val_main_call3_cst val_main_call3_v0 val_main_v56 val_main_v55 val_main_cst_12 val_main_v54
    val_main_v53 val_main_cst_11 val_main_v52 val_main_v51 val_main_v50 val_main_cst_10
  generalize val_main_v49 (F := Ideal) x0 x1 x2 x3 x4 x5 x6 x7 x8 x9 x10 = mv
  unfold Cert.KernelIdeal.Tail.norm Cert.KernelIdeal.Tail.lookup Cert.KernelIdeal.Tail.invSqrtDeg
  rfl

/-- The reference's result as the one function of the arguments both programs compute. -/
theorem result_eq :
    val_main_v74 (F := Ideal) x0 x1 x2 x3 x4 x5 x6 x7 x8 x9 x10
      = Cert.KernelIdeal.Tail.norm (Cert.KernelIdeal.EdgeSpec.mv x0 x1 x2 x3 x4 x5 x6 x7 x8 x9 x10) x9 x10 := by
  rw [result_eq_norm, masked_eq]

end Cert.ReferenceIdeal.RefValue

end
-- ==== Proof.lean ====
/-
  The certificate: the kernel gathers node features by indicator-weighted sums over the whole
  (padded) node table where the reference looks two rows up by position, and scores an edge from
  the two halves of the attention weights where the reference takes one 256-term product; for
  node indices in range (the precondition) both are the same function of the argument arrays,
  and everything after the masked edge values is the same chain of host operations on both sides.

  The three frames are the generated ones (the reference's is its run with the result dropped);
  the idealization rewrote nothing, so `preserves` holds trivially; `algebraic` states both runs'
  results with ONE term, the shared normalisation of the specification's masked values.
-/
import proofs.«126882_j54185307407141_1_alg».proof.Defs
import proofs.«126882_j54185307407141_1_alg».proof.Proof.Gen.Kernel
import proofs.«126882_j54185307407141_1_alg».proof.Proof.Gen.Kernel.Skeleton
import proofs.«126882_j54185307407141_1_alg».proof.Proof.Gen.Kernel.Loops
import proofs.«126882_j54185307407141_1_alg».proof.Proof.Gen.Kernel.Launch
import proofs.«126882_j54185307407141_1_alg».proof.Proof.Gen.Kernel.Points
import proofs.«126882_j54185307407141_1_alg».proof.Proof.Gen.Kernel.Frame
import proofs.«126882_j54185307407141_1_alg».proof.Proof.Gen.KernelIdeal
import proofs.«126882_j54185307407141_1_alg».proof.Proof.Gen.KernelIdeal.Skeleton
import proofs.«126882_j54185307407141_1_alg».proof.Proof.Gen.KernelIdeal.Loops
import proofs.«126882_j54185307407141_1_alg».proof.Proof.Gen.KernelIdeal.Launch
import proofs.«126882_j54185307407141_1_alg».proof.Proof.Gen.KernelIdeal.Points
import proofs.«126882_j54185307407141_1_alg».proof.Proof.Gen.KernelIdeal.Frame
import proofs.«126882_j54185307407141_1_alg».proof.Proof.Gen.ReferenceIdeal
import proofs.«126882_j54185307407141_1_alg».proof.Proof.Gen.ReferenceIdeal.Run
import proofs.«126882_j54185307407141_1_alg».proof.Proof.Gen.ReferenceIdeal.Read
import proofs.«126882_j54185307407141_1_alg».proof.Proof.Gen.Pre_finite_inputs
import proofs.«126882_j54185307407141_1_alg».proof.Proof.KernelLaunch
import proofs.«126882_j54185307407141_1_alg».proof.Proof.HostTail
import proofs.«126882_j54185307407141_1_alg».proof.Proof.KernelValue
import proofs.«126882_j54185307407141_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the shared normalisation of the same masked edge values. -/
theorem algebraic : Cert.algebraic_KernelIdeal_ReferenceIdeal := by
  intro m ρ m' ρ' hpre hagree
  refine ⟨fun c => Cert.KernelIdeal.Tail.norm
      (Cert.KernelIdeal.EdgeSpec.mv (Cert.KernelIdeal.HostIn.aX m c) (Cert.KernelIdeal.HostIn.aWnb m c) (Cert.KernelIdeal.HostIn.aBnb m c)
        (Cert.KernelIdeal.HostIn.aWself m c) (Cert.KernelIdeal.HostIn.aBself m c) (Cert.KernelIdeal.HostIn.aWatt m c)
        (Cert.KernelIdeal.HostIn.aBatt m c) (Cert.KernelIdeal.HostIn.aVal m c) (Cert.KernelIdeal.HostIn.aNoise m c)
        (Cert.KernelIdeal.HostIn.aRow m c) (Cert.KernelIdeal.HostIn.aCol m c))
      (Cert.KernelIdeal.HostIn.aRow m c) (Cert.KernelIdeal.HostIn.aCol m c), ?_, ?_⟩
  · refine (θ_run Cert.KernelIdeal.defs _ _).mono (fun r h c => ⟨(h c).1.trans ?_, (h c).2⟩)
      (Cert.KernelIdeal.Launch.run_value (F := Ideal) m ρ)
    rw [Cert.KernelIdeal.HostTail.result_eq m ρ c, Cert.KernelIdeal.KernelValue.mvCol_eq m ρ hpre c]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v74_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
